-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S_ : Shape := ⟨0, ![]⟩
abbrev S1x1250000 : Shape := ⟨2, ![1, 1250000]⟩
abbrev S1250000 : Shape := ⟨1, ![1250000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  slices_S2x1250000_S1x1250000_1_0 : S2x1250000.Slices ![1, 0] S1x1250000
  shapeCasts_S1x1250000_S1250000 : S1x1250000.ShapeCasts S1250000
  bcast_S_S1250000 : S_.BroadcastsInDim S1250000 (![] : Fin 0 → Fin S1250000.rank)
  reducesTo_S1250000_S_d0 : S1250000.ReducesTo [0] S_

variable [Facts]

def fn {F : FTy → Type} [FloatOps F] (main_arg0 : FVec F S100000x64 .f32) (main_arg1 : IVec S2x1250000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : IVec S1x1250000 32 := (extractStridedSlice S1x1250000 ![1, 0] · slices_S2x1250000_S1x1250000_1_0) main_arg1
  let main_v5 : IVec S1250000 32 := shapeCast S1250000 main_v4 shapeCasts_S1x1250000_S1250000
  let main_c_0 : IVec S_ 32 := constantI S_ 32 0#32
  let main_v6 : IVec S1250000 32 := broadcastInDim S1250000 ![] bcast_S_S1250000 main_c_0
  let main_v7 : IVec S1250000 1 := cmpi .sge main_v5 main_v6
  let main_v8 : IVec S1x1250000 32 := (extractStridedSlice S1x1250000 ![1, 0] · slices_S2x1250000_S1x1250000_1_0) main_arg1
  let main_v9 : IVec S1250000 32 := shapeCast S1250000 main_v8 shapeCasts_S1x1250000_S1250000
  let main_c_1 : IVec S_ 32 := constantI S_ 32 100000#32
  let main_v10 : IVec S1250000 32 := broadcastInDim S1250000 ![] bcast_S_S1250000 main_c_1
  let main_v11 : IVec S1250000 1 := cmpi .slt main_v9 main_v10
  let main_v12 : IVec S1250000 1 := andi main_v7 main_v11
  let main_c_2 : IVec S_ 1 := constantI S_ 1 1#1
  let main_v13 : IVec S_ 1 := (fun x v => Host.reduce IntOp.andi x v reducesTo_S1250000_S_d0 h_S_) main_v12 main_c_2
  let main_v14 : IVec S_ 1 := andi main_v3 main_v13
  main_v14
-- ==== Kernel.lean ====
abbrev S100000x64 : Shape := ⟨2, ![100000, 64]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S1253376 : Shape := ⟨1, ![1253376]⟩
abbrev S100352x64 : Shape := ⟨2, ![100352, 64]⟩
abbrev S1253376x64 : Shape := ⟨2, ![1253376, 64]⟩
abbrev S4096 : Shape := ⟨1, ![4096]⟩
abbrev S2048x64 : Shape := ⟨2, ![2048, 64]⟩
abbrev S4096x64 : Shape := ⟨2, ![4096, 64]⟩
abbrev S1x4096 : Shape := ⟨2, ![1, 4096]⟩
abbrev S2048x1 : Shape := ⟨2, ![2048, 1]⟩
abbrev S2048x4096 : Shape := ⟨2, ![2048, 4096]⟩

abbrev nBuf : Space → Nat
  | .hbm => 19
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1x1250000, .i32⟩
  | .hbm, ⟨3, _⟩ => ⟨S1250000, .i32⟩
  | .hbm, ⟨4, _⟩ => ⟨S1x1250000, .i32⟩
  | .hbm, ⟨5, _⟩ => ⟨S1250000, .i32⟩
  | .hbm, ⟨6, _⟩ => ⟨S_, .i32⟩
  | .hbm, ⟨7, _⟩ => ⟨S_, .i32⟩
  | .hbm, ⟨8, _⟩ => ⟨S1253376, .i32⟩
  | .hbm, ⟨9, _⟩ => ⟨S_, .i32⟩
  | .hbm, ⟨10, _⟩ => ⟨S_, .i32⟩
  | .hbm, ⟨11, _⟩ => ⟨S1253376, .i32⟩
  | .hbm, ⟨12, _⟩ => ⟨S100000x64, .bf16⟩
  | .hbm, ⟨13, _⟩ => ⟨S_, .i32⟩
  | .hbm, ⟨14, _⟩ => ⟨S_, .bf16⟩
  | .hbm, ⟨15, _⟩ => ⟨S100352x64, .bf16⟩
  | .hbm, ⟨16, _⟩ => ⟨S1253376x64, .bf16⟩
  | .hbm, ⟨17, _⟩ => ⟨S100352x64, .f32⟩
  | .hbm, ⟨18, _⟩ => ⟨S100000x64, .f32⟩
  | .local _ .vmem, ⟨0, _⟩ => ⟨S4096, .i32⟩
  | .local _ .vmem, ⟨1, _⟩ => ⟨S4096, .i32⟩
  | .local _ .vmem, ⟨2, _⟩ => ⟨S2048x64, .bf16⟩
  | .local _ .vmem, ⟨3, _⟩ => ⟨S2048x64, .bf16⟩
  | .local _ .vmem, ⟨4, _⟩ => ⟨S4096x64, .bf16⟩
  | .local _ .vmem, ⟨5, _⟩ => ⟨S4096x64, .bf16⟩
  | .local _ .vmem, ⟨6, _⟩ => ⟨S4096x64, .f32⟩
  | .local _ .vmem, ⟨7, _⟩ => ⟨S4096, .i32⟩
  | .local _ .vmem, ⟨8, _⟩ => ⟨S4096, .i32⟩
  | .local _ .vmem, ⟨9, _⟩ => ⟨S4096x64, .bf16⟩
  | .local _ .vmem, ⟨10, _⟩ => ⟨S4096x64, .bf16⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call2_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![306, 49], ![false, false]⟩

def k0_cond2 (i : grid0.Coords) : BitVec 1 :=
  let arg1 : BitVec 32 := BitVec.ofNat 32 (i 1).val
  let c48_i32 : BitVec 32 := 48#32
  let v24 : BitVec 1 := Scalar.cmpi .eq arg1 c48_i32
  let v25 : BitVec 32 := Scalar.extui v24
  let c0_i32_7 : BitVec 32 := 0#32
  let v26 : BitVec 1 := Scalar.cmpi .ne v25 c0_i32_7
  v26

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![49, 306], ![false, false]⟩

def k1_cond2 (i : grid1.Coords) : BitVec 1 :=
  let arg1 : BitVec 32 := BitVec.ofNat 32 (i 1).val
  let c305_i32 : BitVec 32 := 305#32
  let v24 : BitVec 1 := Scalar.cmpi .eq arg1 c305_i32
  let v25 : BitVec 32 := Scalar.extui v24
  let c0_i32_7 : BitVec 32 := 0#32
  let v26 : BitVec 1 := Scalar.cmpi .ne v25 c0_i32_7
  v26

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  pads_S1250000_S1253376_033760 : S1250000.Pads (![0] : Fin 1 → Nat) ![3376] ![0] S1253376
  h_S_ : 0 < S_.numel
  bitsLt_bf16_f32 : FTy.bits .bf16 < FTy.bits .f32
  pads_S100000x64_S100352x64_03520_000 : S100000x64.Pads (![0, 0] : Fin 2 → Nat) ![352, 0] ![0, 0] S100352x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  iota_S2048x1_d0_w32 : S2048x1.Iotas .tc 32 [0]
  broadcasts_S2048x1_S2048x4096 : S2048x1.Broadcasts S2048x4096
  broadcasts_S1x4096_S2048x4096 : S1x4096.Broadcasts S2048x4096
  natLt_1_32 : 1 < 32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S4096x64_S4096x64_0_0 : (Rect.unit (s := S4096x64) ![0, 0] S4096x64.size inb_S4096x64_S4096x64_0_0).PackedRows (EltTy.packing .bf16)
  slices_S100352x64_S100000x64_0_0 : S100352x64.Slices ![0, 0] S100000x64
  dot_S2048x4096_S2048x64_S4096x64_0_0_1_1_n_n_wf : DotDims.WF S2048x4096 S2048x64 S4096x64 [0] [0] [1] [1] [] []
  dot_S2048x4096_S4096x64_S2048x64_1_0_0_1_n_n_wf : DotDims.WF S2048x4096 S4096x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S1253376.size a
  hwx0_0 : ∀ i : grid0.Coords, EltTy.bits .i32 = 32 ∨ (Rect.block (s := S1253376) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S100352x64.size a
  hwx0_1 : ∀ i : grid0.Coords, EltTy.bits .bf16 = 32 ∨ (Rect.block (s := S100352x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S1253376x64.size a
  hwx0_2 : ∀ i : grid0.Coords, EltTy.bits .bf16 = 32 ∨ (Rect.block (s := S1253376x64) S4096x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S1253376.size a
  hwx1_0 : ∀ i : grid1.Coords, EltTy.bits .i32 = 32 ∨ (Rect.block (s := S1253376) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S1253376x64.size a
  hwx1_1 : ∀ i : grid1.Coords, EltTy.bits .bf16 = 32 ∨ (Rect.block (s := S1253376x64) S4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S100352x64.size a
  hwx1_2 : ∀ i : grid1.Coords, EltTy.bits .f32 = 32 ∨ (Rect.block (s := S100352x64) S2048x64.size (cc1_transform_2 i) (hinb1_2 i)).WholeWords (EltTy.packing .f32)

variable [Facts₀]

def dot_S2048x4096_S2048x64_S4096x64_0_0_1_1_n_n : DotDims S2048x4096 S2048x64 S4096x64 where
  lhsContracting := [0]
  rhsContracting := [0]
  lhsNonContracting := [1]
  rhsNonContracting := [1]
  lhsBatch := []
  rhsBatch := []
  wf := dot_S2048x4096_S2048x64_S4096x64_0_0_1_1_n_n_wf
def dot_S2048x4096_S4096x64_S2048x64_1_0_0_1_n_n : DotDims S2048x4096 S4096x64 S2048x64 where
  lhsContracting := [1]
  rhsContracting := [0]
  lhsNonContracting := [0]
  rhsNonContracting := [1]
  lhsBatch := []
  rhsBatch := []
  wf := dot_S2048x4096_S4096x64_S2048x64_1_0_0_1_n_n_wf

abbrev win0_0 : Pipeline.Window sig grid0 :=
  Pipeline.Window.ofSpec (Memref.whole main_v4) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v5) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1250000 : Shape := ⟨2, ![2, 1250000]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩

abbrev nBuf : Space → Nat
  | .hbm => 19
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1x1250000, .i32⟩
  | .hbm, ⟨3, _⟩ => ⟨S1250000, .i32⟩
  | .hbm, ⟨4, _⟩ => ⟨S1x1250000, .i32⟩
  | .hbm, ⟨5, _⟩ => ⟨S1250000, .i32⟩
  | .hbm, ⟨6, _⟩ => ⟨S_, .i32⟩
  | .hbm, ⟨7, _⟩ => ⟨S1250000, .i32⟩
  | .hbm, ⟨8, _⟩ => ⟨S1250000, .i1⟩
  | .hbm, ⟨9, _⟩ => ⟨S_, .i32⟩
  | .hbm, ⟨10, _⟩ => ⟨S1250000, .i32⟩
  | .hbm, ⟨11, _⟩ => ⟨S1250000, .i32⟩
  | .hbm, ⟨12, _⟩ => ⟨S1250000, .i32⟩
  | .hbm, ⟨13, _⟩ => ⟨S1250000x1, .i32⟩
  | .hbm, ⟨14, _⟩ => ⟨S1250000x64, .f32⟩
  | .hbm, ⟨15, _⟩ => ⟨S_, .f32⟩
  | .hbm, ⟨16, _⟩ => ⟨S100000x64, .f32⟩
  | .hbm, ⟨17, _⟩ => ⟨S1250000x1, .i32⟩
  | .hbm, ⟨18, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.Gather.lean ====
/-
  The first kernel region (the gather), on one core, from the buffer contents `V` it is entered with.

  The region walks a 306 × 49 grid, edge tile `i` outermost, node tile `k` innermost.  At point (i, k) the body
  forms, for the 4096 edges of tile i and the 2048 nodes of tile k, the one-hot comparison of node numbers with the
  edges' source words, multiplies its transpose with node tile k of the padded features, and adds the product to a
  scratch accumulator that it zeroes first when k = 0; at k = 48 it writes the accumulator, rounded, to the output
  block of tile i.  So the scratch after point n is a fold over the points of n's row of the grid (`acc`), and the
  output block written back at the row's last point is that fold's last value.  This module states that per point,
  proves the body's run in its three cases (first, middle, last node tile), and packages the pipeline's proof data
  and body obligation.
-/
import proofs.«419025_j49744311222856_1_alg».proof.Proof.Gen.KernelIdeal.Launch
import proofs.«419025_j49744311222856_1_alg».proof.Proof.Gen.KernelIdeal.Skeleton
import proofs.«419025_j49744311222856_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scratch accumulator as a memref. -/
abbrev scr : Memref sig .tc .vmem S4096x64 .f32 := Memref.whole cc0_scratch0

variable (V : (c : Dev nD) → (b : Ref sig .tc) → Buf (Elt F) ((c : Thread nD τ).loc b))

/-! ## The grid's inner coordinate and the body's two conditions -/

/-- The node tile of grid point `t`. -/
theorem coord1_val (t : Fin cfg0.N) : ((grid0.coords t) 1).val = t.val % 49 := by
  show t.val / grid0.stride 1 % 49 = t.val % 49
  rw [show grid0.stride 1 = 1 from by decide, Nat.div_one]

/-- The body's first condition: the node tile is the first. -/
abbrev isFirst (i : grid0.Coords) : Prop :=
  (Scalar.cmpi .ne (Scalar.extui (Scalar.cmpi .eq (BitVec.ofNat 32 (i 1).val) 0#32)) 0#32) = 1#1
/-- Its second: the node tile is the last. -/
abbrev isLast (i : grid0.Coords) : Prop := k0_cond2 i = 1#1

theorem first_word : ∀ k : Fin 49,
    ((Scalar.cmpi .ne (Scalar.extui (Scalar.cmpi .eq (BitVec.ofNat 32 k.val) 0#32)) 0#32) = 1#1) ↔ k.val = 0 := by decide
theorem last_word : ∀ k : Fin 49,
    ((Scalar.cmpi .ne (Scalar.extui (Scalar.cmpi .eq (BitVec.ofNat 32 k.val) 48#32)) 0#32) = 1#1) ↔ k.val = 48 := by decide

theorem isFirst_iff (t : Fin cfg0.N) : isFirst (grid0.coords t) ↔ t.val % 49 = 0 := by
  show (Scalar.cmpi .ne (Scalar.extui (Scalar.cmpi .eq (BitVec.ofNat 32 ((grid0.coords t) 1).val) 0#32)) 0#32) = 1#1 ↔ _
  rw [coord1_val]; exact first_word ⟨t.val % 49, Nat.mod_lt _ (by decide)⟩
theorem isLast_iff (t : Fin cfg0.N) : isLast (grid0.coords t) ↔ t.val % 49 = 48 := by
  show (Scalar.cmpi .ne (Scalar.extui (Scalar.cmpi .eq (BitVec.ofNat 32 ((grid0.coords t) 1).val) 48#32)) 0#32) = 1#1 ↔ _
  rw [coord1_val]; exact last_word ⟨t.val % 49, Nat.mod_lt _ (by decide)⟩

/-- The output window is idle exactly off the last node tile, and written back exactly there. -/
theorem idle_out (t : Fin cfg0.N) (h : ¬isLast (grid0.coords t)) : cfg0.idle 2 (grid0.coords t) = true := by
  show (!(k0_cond2 (grid0.coords t) == 1#1)) = true
  simpa [isLast] using h
theorem live_out (t : Fin cfg0.N) (h : isLast (grid0.coords t)) : cfg0.idle 2 (grid0.coords t) = false := by
  show (!(k0_cond2 (grid0.coords t) == 1#1)) = false
  simpa [isLast] using h
theorem noFlush_out (t : Fin cfg0.N) (h : ¬isLast (grid0.coords t)) : (cfg0.win 2).flush t = false := by
  rw [isLast_iff] at h
  exact Bool.eq_false_iff.mpr fun hf => h ((flush0_2 t).mp hf)

/-! ## The windows' blocks and the accumulator -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE ACCUMULATOR after point `n`: the tile product of point `n` added to the zero tile at the first node tile
    of a row, and to what the point before left otherwise. -/
def acc (c : Dev nD) : (n : ℕ) → n < cfg0.N → Vec F S4096x64 .f32
  | 0, h => k0_pay2 (grid0.coords ⟨0, h⟩) (blk V c 0 ⟨0, h⟩) (blk V c 1 ⟨0, h⟩) (k0_pay1 (F := F))
  | n + 1, h => k0_pay2 (grid0.coords ⟨n + 1, h⟩) (blk V c 0 ⟨n + 1, h⟩) (blk V c 1 ⟨n + 1, h⟩)
      (if (n + 1) % 49 = 0 then k0_pay1 (F := F) else acc c n (Nat.lt_of_succ_lt h))

theorem acc_first (c : Dev nD) (t : Fin cfg0.N) (h : t.val % 49 = 0) :
    acc V c t.val t.isLt = k0_pay2 (grid0.coords t) (blk V c 0 t) (blk V c 1 t) (k0_pay1 (F := F)) := by
  obtain ⟨n, hn⟩ := t
  cases n with
  | zero => rfl
  | succ n => show k0_pay2 _ _ _ (if (n + 1) % 49 = 0 then _ else _) = _; rw [if_pos h]

theorem acc_next (c : Dev nD) (t : Fin cfg0.N) (h : ¬t.val % 49 = 0) :
    acc V c t.val t.isLt = k0_pay2 (grid0.coords t) (blk V c 0 t) (blk V c 1 t)
      (acc V c (t.val - 1) (Nat.lt_of_le_of_lt (Nat.sub_le _ _) t.isLt)) := by
  obtain ⟨n, hn⟩ := t
  cases n with
  | zero => exact absurd (Nat.zero_mod _) h
  | succ n => show k0_pay2 _ _ _ (if (n + 1) % 49 = 0 then _ else _) = _; rw [if_neg h]; rfl

/-! ## The body's run, case by case -/

theorem hz1 : (![0] : Fin 1 → Nat) = fun _ => 0 := funext fun a => by fin_cases a; rfl
theorem hz2 : (![0, 0] : Fin 2 → Nat) = fun _ => 0 := funext fun a => by fin_cases a <;> rfl

set_option maxHeartbeats 1000000 in
/-- FIRST NODE TILE (not the last): the scratch, whatever it held, ends at the tile product added to zeros; the
    inputs and the output's buffer are left as found. -/
theorem run_first (c : Dev nD) (E : Set ℕ) (i : grid0.Coords) (hf : isFirst i) (hl : ¬isLast i)
    (a2 : Memref sig .tc .vmem S4096 .i32) (h2 : a2.IsWhole) (a3 : Memref sig .tc .vmem S2048x64 .bf16) (h3 : a3.IsWhole)
    (a4 : Memref sig .tc .vmem S4096x64 .bf16) (h4 : a4.IsWhole) (a5 : Memref sig .tc .vmem S4096x64 .f32) (h5 : a5.IsWhole)
    (x0 : Vec F S4096 .i32) (x1 : Vec F S2048x64 .bf16) (d4 : Vec F S4096x64 .bf16) (K : PUnit → sProp 𝕄) :
    iprop(owns (c : Thread nD τ) a2 fullShare x0 ∗ owns (c : Thread nD τ) a3 fullShare x1 ∗ owns (c : Thread nD τ) a4 fullShare d4
        ∗ (∃ d, owns (c : Thread nD τ) a5 fullShare d)
        ∗ (iprop(owns (c : Thread nD τ) a2 fullShare x0 ∗ owns (c : Thread nD τ) a3 fullShare x1 ∗ owns (c : Thread nD τ) a4 fullShare d4
            ∗ owns (c : Thread nD τ) a5 fullShare (k0_pay2 i x0 x1 (k0_pay1 (F := F)))) -∗ K ⟨⟩))
      ⊢ wp frame (wpE (defs₀ (F := F)) Variants.none c none) E (cc0__gather_kernel i a2 h2 a3 h3 a4 h4 a5 h5) K := by
  simp only [cc0__gather_kernel_eq_skeleton]; unfold cc0__gather_kernel_skel
  unfold owns
  iintro ⟨⟨%f0, %hf0, H0⟩, ⟨%f1, %hf1, H1⟩, ⟨%f4, %hf4, H4⟩, ⟨%d5, %f5, -, H5⟩, Hk⟩
  obtain rfl := h2.eq_unread hf0; obtain rfl := h3.eq_unread hf1; obtain rfl := h4.eq_unread hf4
  sl_exec (disch := first | exact hf | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr; · ipureintro; exact h4.read_unread _
    iexact H4
  iexists _; isplitr
  swap; · iexact H5
  ipureintro
  sl_unfold_words
  rw [View.read_writes_eq_canon _ _ _ (fun y => ⟨_, List.mem_cons_self, View.mem_set_unit_zero hz2 Facts₀.inb_S4096x64_S4096x64_0_0 y⟩),
    View.canon_cons_unit_zero hz2]
  simp only [View.readAt_eq_ld, h2.read_unread, h3.read_unread, View.ld_unit_zero (S := S4096) hz1,
    View.ld_unit_zero (S := S2048x64) hz2, View.readCov_unit_zero (S := S4096x64) _ hz2]

set_option maxHeartbeats 1000000 in
/-- A MIDDLE NODE TILE: the scratch, at what the point before left, ends at the tile product added to it. -/
theorem run_mid (c : Dev nD) (E : Set ℕ) (i : grid0.Coords) (hf : ¬isFirst i) (hl : ¬isLast i)
    (a2 : Memref sig .tc .vmem S4096 .i32) (h2 : a2.IsWhole) (a3 : Memref sig .tc .vmem S2048x64 .bf16) (h3 : a3.IsWhole)
    (a4 : Memref sig .tc .vmem S4096x64 .bf16) (h4 : a4.IsWhole) (a5 : Memref sig .tc .vmem S4096x64 .f32) (h5 : a5.IsWhole)
    (x0 : Vec F S4096 .i32) (x1 : Vec F S2048x64 .bf16) (d4 : Vec F S4096x64 .bf16) (prev : Vec F S4096x64 .f32) (K : PUnit → sProp 𝕄) :
    iprop(owns (c : Thread nD τ) a2 fullShare x0 ∗ owns (c : Thread nD τ) a3 fullShare x1 ∗ owns (c : Thread nD τ) a4 fullShare d4
        ∗ owns (c : Thread nD τ) a5 fullShare prev
        ∗ (iprop(owns (c : Thread nD τ) a2 fullShare x0 ∗ owns (c : Thread nD τ) a3 fullShare x1 ∗ owns (c : Thread nD τ) a4 fullShare d4
            ∗ owns (c : Thread nD τ) a5 fullShare (k0_pay2 i x0 x1 prev)) -∗ K ⟨⟩))
      ⊢ wp frame (wpE (defs₀ (F := F)) Variants.none c none) E (cc0__gather_kernel i a2 h2 a3 h3 a4 h4 a5 h5) K := by
  simp only [cc0__gather_kernel_eq_skeleton]; unfold cc0__gather_kernel_skel
  unfold owns
  iintro ⟨⟨%f0, %hf0, H0⟩, ⟨%f1, %hf1, H1⟩, ⟨%f4, %hf4, H4⟩, ⟨%f5, %hf5, H5⟩, Hk⟩
  obtain rfl := h2.eq_unread hf0; obtain rfl := h3.eq_unread hf1; obtain rfl := h4.eq_unread hf4; obtain rfl := h5.eq_unread hf5
  sl_exec (disch := first | exact hf | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr; · ipureintro; exact h4.read_unread _
    iexact H4
  iexists _; isplitr
  swap; · iexact H5
  ipureintro
  try sl_unfold_words
  rw [View.read_writes_eq_canon _ _ _ (fun y => ⟨_, List.mem_cons_self, View.mem_set_unit_zero hz2 Facts₀.inb_S4096x64_S4096x64_0_0 y⟩),
    View.canon_cons_unit_zero hz2]
  simp only [View.readAt_eq_ld, h2.read_unread, h3.read_unread, h5.read_unread, View.ld_unit_zero (S := S4096) hz1,
    View.ld_unit_zero (S := S2048x64) hz2, View.ld_unit_zero (S := S4096x64) hz2]

set_option maxHeartbeats 1000000 in
/-- THE LAST NODE TILE (not the first): the scratch as in the middle, and the output's buffer, whatever it held, ends
    at the rounded accumulator. -/
theorem run_last (c : Dev nD) (E : Set ℕ) (i : grid0.Coords) (hf : ¬isFirst i) (hl : isLast i)
    (a2 : Memref sig .tc .vmem S4096 .i32) (h2 : a2.IsWhole) (a3 : Memref sig .tc .vmem S2048x64 .bf16) (h3 : a3.IsWhole)
    (a4 : Memref sig .tc .vmem S4096x64 .bf16) (h4 : a4.IsWhole) (a5 : Memref sig .tc .vmem S4096x64 .f32) (h5 : a5.IsWhole)
    (x0 : Vec F S4096 .i32) (x1 : Vec F S2048x64 .bf16) (prev : Vec F S4096x64 .f32) (K : PUnit → sProp 𝕄) :
    iprop(owns (c : Thread nD τ) a2 fullShare x0 ∗ owns (c : Thread nD τ) a3 fullShare x1 ∗ (∃ d, owns (c : Thread nD τ) a4 fullShare d)
        ∗ owns (c : Thread nD τ) a5 fullShare prev
        ∗ (iprop(owns (c : Thread nD τ) a2 fullShare x0 ∗ owns (c : Thread nD τ) a3 fullShare x1
            ∗ owns (c : Thread nD τ) a4 fullShare (k0_pay3 (k0_pay2 i x0 x1 prev))
            ∗ owns (c : Thread nD τ) a5 fullShare (k0_pay2 i x0 x1 prev)) -∗ K ⟨⟩))
      ⊢ wp frame (wpE (defs₀ (F := F)) Variants.none c none) E (cc0__gather_kernel i a2 h2 a3 h3 a4 h4 a5 h5) K := by
  simp only [cc0__gather_kernel_eq_skeleton]; unfold cc0__gather_kernel_skel
  unfold owns
  iintro ⟨⟨%f0, %hf0, H0⟩, ⟨%f1, %hf1, H1⟩, ⟨%d4, %f4, -, H4⟩, ⟨%f5, %hf5, H5⟩, Hk⟩
  obtain rfl := h2.eq_unread hf0; obtain rfl := h3.eq_unread hf1; obtain rfl := h5.eq_unread hf5
  sl_exec (disch := first | exact hf | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr
    swap; · iexact H4
    ipureintro
    try sl_unfold_words
    rw [View.read_writes_eq_canon _ _ _ (fun y => ⟨_, List.mem_cons_self, View.mem_set_unit_zero hz2 Facts₀.inb_S4096x64_S4096x64_0_0 y⟩),
      View.canon_cons_unit_zero hz2]
    simp only [View.readAt_eq_ld, h2.read_unread, h3.read_unread, h5.read_unread, View.ld_unit_zero (S := S4096) hz1,
      View.ld_unit_zero (S := S2048x64) hz2, View.ld_unit_zero (S := S4096x64) hz2, View.readCov_unit_zero (S := S4096x64) _ hz2]
  iexists _; isplitr
  swap; · iexact H5
  ipureintro
  try sl_unfold_words
  rw [View.read_writes_eq_canon _ _ _ (fun y => ⟨_, List.mem_cons_self, View.mem_set_unit_zero hz2 Facts₀.inb_S4096x64_S4096x64_0_0 y⟩),
    View.canon_cons_unit_zero hz2]
  simp only [View.readAt_eq_ld, h2.read_unread, h3.read_unread, h5.read_unread, View.ld_unit_zero (S := S4096) hz1,
    View.ld_unit_zero (S := S2048x64) hz2, View.ld_unit_zero (S := S4096x64) hz2]

/-! ## The invariant between points -/

/-- The core's other scoped buffers that are no staging buffer of this region — the second region's, untouched
    here —, each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's resting invariant, with the accumulator as a memref at some contents. -/
theorem PhiA_eq (c : Dev nD) :
    (Pipeline.ΦA spec0 c : sProp 𝕄)
      = iprop(((∃ d, owns (c : Thread nD τ) scr fullShare d) ∗ others c) ∗ (∃ r, prngReg c r)) := by
  unfold Pipeline.ΦA; rw [scopedRest0_eq]; simp only [scr, owns_whole, others]; rfl

/-- THE INVARIANT before point `n`: before the first point the resting one; afterwards the accumulator at what the
    point before left, the other scoped buffers and the generator register at anything. -/
def Phi (c : Dev nD) : (n : ℕ) → n ≤ cfg0.N → sProp 𝕄
  | 0, _ => Pipeline.ΦA spec0 c
  | n + 1, hn => iprop((owns (c : Thread nD τ) scr fullShare (acc V c n hn) ∗ others c) ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop((owns (c : Thread nD τ) scr fullShare (acc V c n hn) ∗ others c) ∗ (∃ r, prngReg c r)) := rfl

theorem Phi_pos (c : Dev nD) (n : ℕ) (h : n ≤ cfg0.N) (hz : n ≠ 0) :
    Phi V c n h = iprop((owns (c : Thread nD τ) scr fullShare (acc V c (n - 1) (by omega)) ∗ others c) ∗ (∃ r, prngReg c r)) := by
  cases n with
  | zero => exact absurd rfl hz
  | succ n => rfl

/-! ## The pipeline's proof data -/

/-- The proof data on core `c`: the arrays as the region finds them; after the body each input's buffer at its
    block, the output's at the rounded accumulator (consulted at a row's last point only: elsewhere the window is
    idle); the invariant `Phi`; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => k0_pay3 (acc V c t.val t.isLt)
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = Phi V c t.val (Nat.le_of_lt t.isLt) := by
  dsimp only [dat]; simp only [Fin.coe_castSucc]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = k0_pay3 (acc V c t.val t.isLt) := by dsimp only [dat]

/-- Each input's current staging buffer holds its block at every point, fetched there or kept from the point before. -/
theorem before0 (c : Dev nD) (t : Fin cfg0.N) (d) : (dat V c).before 0 t d = blk V c 0 t :=
  ((dat V c).before_in_eq_fetched 0 rfl (fun _ => rfl) (fun _ _ _ => rfl)
      (fun t => by rw [after0]; unfold Dat.blockOf blk; rw [A_eq]; try rfl) t d).trans
    (by unfold Dat.fetched Dat.blockOf blk; rw [A_eq]; try rfl)
theorem before1 (c : Dev nD) (t : Fin cfg0.N) (d) : (dat V c).before 1 t d = blk V c 1 t :=
  ((dat V c).before_in_eq_fetched 1 rfl (fun _ => rfl) (fun _ _ _ => rfl)
      (fun t => by rw [after1]; unfold Dat.blockOf blk; rw [A_eq]; try rfl) t d).trans
    (by unfold Dat.fetched Dat.blockOf blk; rw [A_eq]; try rfl)

/-! ## The body obligation -/

/-- Each window's current staging memref at point `t`, as the pipeline passes it. -/
abbrev ms0 (t : Fin cfg0.N) : Memref sig .tc .vmem S4096 .i32 := win0_0.stage (cfg0.slots t 0)
abbrev ms1 (t : Fin cfg0.N) : Memref sig .tc .vmem S2048x64 .bf16 := win0_1.stage (cfg0.slots t 1)
abbrev ms2 (t : Fin cfg0.N) : Memref sig .tc .vmem S4096x64 .bf16 := win0_2.stage (cfg0.slots t 2)

set_option maxHeartbeats 4000000 in
/-- The body at any point: the inputs' buffers hold their blocks; by the point's place in its row the matching run
    applies, the invariant handing over the accumulator at what the point before left (at anything at a row's first
    point) and taking it back at this point's value. -/
theorem sound_body (c : Dev nD) (t : Fin cfg0.N) :
    iprop((dat V c).Φ t.castSucc ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d)))
      ⊢ wp frame (wpE (defs₀ (F := F)) Variants.none c none) Set.univ (bodyAt0 t) (fun _ =>
          iprop((dat V c).Φ t.succ ∗ (dat V c).owesAt () t.succ
            ∗ (dat V c).leavesExact 0 t ∗ (dat V c).leavesExact 1 t ∗ (dat V c).leavesExact 2 t)) := by
  unfold bodyAt0
  simp only [before0, before1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms0 t) fullShare ((dat V c).after 0 t) from rfl, after0]
  rw [show (dat V c).leavesExact 1 t = owns (c : Thread nD τ) (ms1 t) fullShare ((dat V c).after 1 t) from rfl, after1]
  rw [Phi_castSucc V c t]
  by_cases hl : t.val % 49 = 48
  · -- the row's last point
    have hf : ¬t.val % 49 = 0 := by omega
    have hz : t.val ≠ 0 := fun e => hf (by rw [e])
    rw [show (dat V c).leavesExact 2 t = owns (c : Thread nD τ) (ms2 t) fullShare ((dat V c).after 2 t) from by
      unfold Dat.leavesExact; rw [live_out t ((isLast_iff t).mpr hl)], after2]
    rw [acc_next V c t hf, Phi_pos V c _ _ hz]
    iintro ⟨⟨⟨HS, Hoth⟩, Hg⟩, Ho, ⟨%d0, H0⟩, ⟨%d1, H1⟩, ⟨%d2, H2⟩⟩
    iapply (run_last c Set.univ (grid0.coords t) (fun h => hf ((isFirst_iff t).mp h)) ((isLast_iff t).mpr hl)
      _ _ _ _ _ _ _ _ (blk V c 0 t) (blk V c 1 t) (acc V c (t.val - 1) (by omega)) _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat V c) 2 t (idle_out t (fun h => hl ((isLast_iff t).mp h))) (noFlush_out t (fun h => hl ((isLast_iff t).mp h)))]
    by_cases hf : t.val % 49 = 0
    · -- a row's first point
      rw [acc_first V c t hf]
      by_cases hz : t.val = 0
      · rw [Phi_zero V c _ _ hz, PhiA_eq]
        iintro ⟨⟨⟨HS, Hoth⟩, Hg⟩, Ho, ⟨%d0, H0⟩, ⟨%d1, H1⟩, ⟨%d2, H2⟩⟩
        iapply (run_first c Set.univ (grid0.coords t) ((isFirst_iff t).mpr hf) (fun h => hl ((isLast_iff t).mp h))
          _ _ _ _ _ _ _ _ (blk V c 0 t) (blk V c 1 t) ((dat V c).before 2 t d2) _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
      · rw [Phi_pos V c _ _ hz]
        iintro ⟨⟨⟨HS, Hoth⟩, Hg⟩, Ho, ⟨%d0, H0⟩, ⟨%d1, H1⟩, ⟨%d2, H2⟩⟩
        iapply (run_first c Set.univ (grid0.coords t) ((isFirst_iff t).mpr hf) (fun h => hl ((isLast_iff t).mp h))
          _ _ _ _ _ _ _ _ (blk V c 0 t) (blk V c 1 t) ((dat V c).before 2 t d2) _)
        isplitl [H0]; · iexact H0
        isplitl [H1]; · iexact H1
        isplitl [H2]; · iexact H2
        isplitl [HS]; · iexists _; iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
    · -- a middle point
      have hz : t.val ≠ 0 := fun e => hf (by rw [e])
      rw [acc_next V c t hf, Phi_pos V c _ _ hz]
      iintro ⟨⟨⟨HS, Hoth⟩, Hg⟩, Ho, ⟨%d0, H0⟩, ⟨%d1, H1⟩, ⟨%d2, H2⟩⟩
      iapply (run_mid c Set.univ (grid0.coords t) (fun h => hf ((isFirst_iff t).mp h)) (fun h => hl ((isLast_iff t).mp h))
        _ _ _ _ _ _ _ _ (blk V c 0 t) (blk V c 1 t) ((dat V c).before 2 t d2) (acc V c (t.val - 1) (by omega)) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl, Phi_zero V c 0 _ rfl]

/-- After the last point the invariant gives the resting one back: the accumulator's contents are forgotten. -/
theorem hout (c : Dev nD) : (dat V c).Φ (Fin.last cfg0.N) ⊢ Pipeline.ΦA spec0 c := by
  rw [show (dat V c).Φ (Fin.last cfg0.N) = Phi V c cfg0.N (Nat.le_refl _) from rfl,
    Phi_pos V c _ _ (by rw [show cfg0.N = 14994 from N_0]; decide), PhiA_eq]
  iintro ⟨⟨HS, Hoth⟩, Hg⟩
  isplitl [HS Hoth]
  · isplitl [HS]; · iexists _; iexact HS
    iexact Hoth
  iexact Hg

end Cert.KernelIdeal.Gather

end
-- ==== Proof.Scatter.lean ====
/-
  The second kernel region (the scatter-add), on one core, from the buffer contents `V` it is entered with.

  The region walks a 49 × 306 grid, node tile `i` outermost, edge tile `k` innermost.  At point (i, k) the body forms,
  for the 2048 nodes of tile i and the 4096 edges of tile k, the one-hot comparison of node numbers with the edges'
  target words, multiplies it with edge tile k of the messages, and adds the product to a scratch accumulator that it
  zeroes first when k = 0; at k = 305 it copies the accumulator to the output block of node tile i.  So the scratch
  after point n is a fold over the points of n's row of the grid (`acc`), and the output block written back at the
  row's last point is that fold's last value.  This module states that per point, proves the body's run in its three
  cases (first, middle, last edge tile), and packages the pipeline's proof data and body obligation.
-/
import proofs.«419025_j49744311222856_1_alg».proof.Proof.Gen.KernelIdeal.Launch
import proofs.«419025_j49744311222856_1_alg».proof.Proof.Gen.KernelIdeal.Skeleton
import proofs.«419025_j49744311222856_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scratch accumulator as a memref. -/
abbrev scr : Memref sig .tc .vmem S2048x64 .f32 := Memref.whole cc1_scratch0

variable (V : (c : Dev nD) → (b : Ref sig .tc) → Buf (Elt F) ((c : Thread nD τ).loc b))

/-! ## The grid's inner coordinate and the body's two conditions -/

/-- The edge tile of grid point `t`. -/
theorem coord1_val (t : Fin cfg1.N) : ((grid1.coords t) 1).val = t.val % 306 := by
  show t.val / grid1.stride 1 % 306 = t.val % 306
  rw [show grid1.stride 1 = 1 from by decide, Nat.div_one]

/-- The body's first condition: the edge tile is the first. -/
abbrev isFirst (i : grid1.Coords) : Prop :=
  (Scalar.cmpi .ne (Scalar.extui (Scalar.cmpi .eq (BitVec.ofNat 32 (i 1).val) 0#32)) 0#32) = 1#1
/-- Its second: the edge tile is the last. -/
abbrev isLast (i : grid1.Coords) : Prop := k1_cond2 i = 1#1

theorem first_word : ∀ k : Fin 306,
    ((Scalar.cmpi .ne (Scalar.extui (Scalar.cmpi .eq (BitVec.ofNat 32 k.val) 0#32)) 0#32) = 1#1) ↔ k.val = 0 := by decide
theorem last_word : ∀ k : Fin 306,
    ((Scalar.cmpi .ne (Scalar.extui (Scalar.cmpi .eq (BitVec.ofNat 32 k.val) 305#32)) 0#32) = 1#1) ↔ k.val = 305 := by decide

theorem isFirst_iff (t : Fin cfg1.N) : isFirst (grid1.coords t) ↔ t.val % 306 = 0 := by
  show (Scalar.cmpi .ne (Scalar.extui (Scalar.cmpi .eq (BitVec.ofNat 32 ((grid1.coords t) 1).val) 0#32)) 0#32) = 1#1 ↔ _
  rw [coord1_val]; exact first_word ⟨t.val % 306, Nat.mod_lt _ (by decide)⟩
theorem isLast_iff (t : Fin cfg1.N) : isLast (grid1.coords t) ↔ t.val % 306 = 305 := by
  show (Scalar.cmpi .ne (Scalar.extui (Scalar.cmpi .eq (BitVec.ofNat 32 ((grid1.coords t) 1).val) 305#32)) 0#32) = 1#1 ↔ _
  rw [coord1_val]; exact last_word ⟨t.val % 306, Nat.mod_lt _ (by decide)⟩

/-- The output window is idle exactly off the last edge tile, and written back exactly there. -/
theorem idle_out (t : Fin cfg1.N) (h : ¬isLast (grid1.coords t)) : cfg1.idle 2 (grid1.coords t) = true := by
  show (!(k1_cond2 (grid1.coords t) == 1#1)) = true
  simpa [isLast] using h
theorem live_out (t : Fin cfg1.N) (h : isLast (grid1.coords t)) : cfg1.idle 2 (grid1.coords t) = false := by
  show (!(k1_cond2 (grid1.coords t) == 1#1)) = false
  simpa [isLast] using h
theorem noFlush_out (t : Fin cfg1.N) (h : ¬isLast (grid1.coords t)) : (cfg1.win 2).flush t = false := by
  rw [isLast_iff] at h
  exact Bool.eq_false_iff.mpr fun hf => h ((flush1_2 t).mp hf)

/-! ## The windows' blocks and the accumulator -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATOR after point `n`: the tile product of point `n` added to the zero tile at the first edge tile
    of a row, and to what the point before left otherwise. -/
def acc (c : Dev nD) : (n : ℕ) → n < cfg1.N → Vec F S2048x64 .f32
  | 0, h => k1_pay2 (grid1.coords ⟨0, h⟩) (blk V c 0 ⟨0, h⟩) (blk V c 1 ⟨0, h⟩) (k1_pay1 (F := F))
  | n + 1, h => k1_pay2 (grid1.coords ⟨n + 1, h⟩) (blk V c 0 ⟨n + 1, h⟩) (blk V c 1 ⟨n + 1, h⟩)
      (if (n + 1) % 306 = 0 then k1_pay1 (F := F) else acc c n (Nat.lt_of_succ_lt h))

theorem acc_first (c : Dev nD) (t : Fin cfg1.N) (h : t.val % 306 = 0) :
    acc V c t.val t.isLt = k1_pay2 (grid1.coords t) (blk V c 0 t) (blk V c 1 t) (k1_pay1 (F := F)) := by
  obtain ⟨n, hn⟩ := t
  cases n with
  | zero => rfl
  | succ n => show k1_pay2 _ _ _ (if (n + 1) % 306 = 0 then _ else _) = _; rw [if_pos h]

theorem acc_next (c : Dev nD) (t : Fin cfg1.N) (h : ¬t.val % 306 = 0) :
    acc V c t.val t.isLt = k1_pay2 (grid1.coords t) (blk V c 0 t) (blk V c 1 t)
      (acc V c (t.val - 1) (Nat.lt_of_le_of_lt (Nat.sub_le _ _) t.isLt)) := by
  obtain ⟨n, hn⟩ := t
  cases n with
  | zero => exact absurd (Nat.zero_mod _) h
  | succ n => show k1_pay2 _ _ _ (if (n + 1) % 306 = 0 then _ else _) = _; rw [if_neg h]; rfl

/-! ## The body's run, case by case -/

theorem hz1 : (![0] : Fin 1 → Nat) = fun _ => 0 := funext fun a => by fin_cases a; rfl
theorem hz2 : (![0, 0] : Fin 2 → Nat) = fun _ => 0 := funext fun a => by fin_cases a <;> rfl

set_option maxHeartbeats 1000000 in
/-- FIRST EDGE TILE (not the last): the scratch, whatever it held, ends at the tile product added to zeros; the
    inputs and the output's buffer are left as found. -/
theorem run_first (c : Dev nD) (E : Set ℕ) (i : grid1.Coords) (hf : isFirst i) (hl : ¬isLast i)
    (a2 : Memref sig .tc .vmem S4096 .i32) (h2 : a2.IsWhole) (a3 : Memref sig .tc .vmem S4096x64 .bf16) (h3 : a3.IsWhole)
    (a4 : Memref sig .tc .vmem S2048x64 .f32) (h4 : a4.IsWhole) (a5 : Memref sig .tc .vmem S2048x64 .f32) (h5 : a5.IsWhole)
    (x0 : Vec F S4096 .i32) (x1 : Vec F S4096x64 .bf16) (d4 : Vec F S2048x64 .f32) (K : PUnit → sProp 𝕄) :
    iprop(owns (c : Thread nD τ) a2 fullShare x0 ∗ owns (c : Thread nD τ) a3 fullShare x1 ∗ owns (c : Thread nD τ) a4 fullShare d4
        ∗ (∃ d, owns (c : Thread nD τ) a5 fullShare d)
        ∗ (iprop(owns (c : Thread nD τ) a2 fullShare x0 ∗ owns (c : Thread nD τ) a3 fullShare x1 ∗ owns (c : Thread nD τ) a4 fullShare d4
            ∗ owns (c : Thread nD τ) a5 fullShare (k1_pay2 i x0 x1 (k1_pay1 (F := F)))) -∗ K ⟨⟩))
      ⊢ wp frame (wpE (defs₀ (F := F)) Variants.none c none) E (cc1__scatter_kernel i a2 h2 a3 h3 a4 h4 a5 h5) K := by
  simp only [cc1__scatter_kernel_eq_skeleton]; unfold cc1__scatter_kernel_skel
  unfold owns
  iintro ⟨⟨%f0, %hf0, H0⟩, ⟨%f1, %hf1, H1⟩, ⟨%f4, %hf4, H4⟩, ⟨%d5, %f5, -, H5⟩, Hk⟩
  obtain rfl := h2.eq_unread hf0; obtain rfl := h3.eq_unread hf1; obtain rfl := h4.eq_unread hf4
  sl_exec (disch := first | exact hf | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr; · ipureintro; exact h4.read_unread _
    iexact H4
  iexists _; isplitr
  swap; · iexact H5
  ipureintro
  sl_unfold_words
  rw [View.read_writes_eq_canon _ _ _ (fun y => ⟨_, List.mem_cons_self, View.mem_set_unit_zero hz2 Facts₀.inb_S2048x64_S2048x64_0_0 y⟩),
    View.canon_cons_unit_zero hz2]
  simp only [View.readAt_eq_ld, h2.read_unread, h3.read_unread, View.ld_unit_zero (S := S4096) hz1,
    View.ld_unit_zero (S := S4096x64) hz2, View.readCov_unit_zero (S := S2048x64) _ hz2]

set_option maxHeartbeats 1000000 in
/-- A MIDDLE EDGE TILE: the scratch, at what the point before left, ends at the tile product added to it. -/
theorem run_mid (c : Dev nD) (E : Set ℕ) (i : grid1.Coords) (hf : ¬isFirst i) (hl : ¬isLast i)
    (a2 : Memref sig .tc .vmem S4096 .i32) (h2 : a2.IsWhole) (a3 : Memref sig .tc .vmem S4096x64 .bf16) (h3 : a3.IsWhole)
    (a4 : Memref sig .tc .vmem S2048x64 .f32) (h4 : a4.IsWhole) (a5 : Memref sig .tc .vmem S2048x64 .f32) (h5 : a5.IsWhole)
    (x0 : Vec F S4096 .i32) (x1 : Vec F S4096x64 .bf16) (d4 : Vec F S2048x64 .f32) (prev : Vec F S2048x64 .f32) (K : PUnit → sProp 𝕄) :
    iprop(owns (c : Thread nD τ) a2 fullShare x0 ∗ owns (c : Thread nD τ) a3 fullShare x1 ∗ owns (c : Thread nD τ) a4 fullShare d4
        ∗ owns (c : Thread nD τ) a5 fullShare prev
        ∗ (iprop(owns (c : Thread nD τ) a2 fullShare x0 ∗ owns (c : Thread nD τ) a3 fullShare x1 ∗ owns (c : Thread nD τ) a4 fullShare d4
            ∗ owns (c : Thread nD τ) a5 fullShare (k1_pay2 i x0 x1 prev)) -∗ K ⟨⟩))
      ⊢ wp frame (wpE (defs₀ (F := F)) Variants.none c none) E (cc1__scatter_kernel i a2 h2 a3 h3 a4 h4 a5 h5) K := by
  simp only [cc1__scatter_kernel_eq_skeleton]; unfold cc1__scatter_kernel_skel
  unfold owns
  iintro ⟨⟨%f0, %hf0, H0⟩, ⟨%f1, %hf1, H1⟩, ⟨%f4, %hf4, H4⟩, ⟨%f5, %hf5, H5⟩, Hk⟩
  obtain rfl := h2.eq_unread hf0; obtain rfl := h3.eq_unread hf1; obtain rfl := h4.eq_unread hf4; obtain rfl := h5.eq_unread hf5
  sl_exec (disch := first | exact hf | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr; · ipureintro; exact h4.read_unread _
    iexact H4
  iexists _; isplitr
  swap; · iexact H5
  ipureintro
  try sl_unfold_words
  rw [View.read_writes_eq_canon _ _ _ (fun y => ⟨_, List.mem_cons_self, View.mem_set_unit_zero hz2 Facts₀.inb_S2048x64_S2048x64_0_0 y⟩),
    View.canon_cons_unit_zero hz2]
  simp only [View.readAt_eq_ld, h2.read_unread, h3.read_unread, h5.read_unread, View.ld_unit_zero (S := S4096) hz1,
    View.ld_unit_zero (S := S4096x64) hz2, View.ld_unit_zero (S := S2048x64) hz2]

set_option maxHeartbeats 1000000 in
/-- THE LAST EDGE TILE (not the first): the scratch as in the middle, and the output's buffer, whatever it held, ends
    at the accumulator. -/
theorem run_last (c : Dev nD) (E : Set ℕ) (i : grid1.Coords) (hf : ¬isFirst i) (hl : isLast i)
    (a2 : Memref sig .tc .vmem S4096 .i32) (h2 : a2.IsWhole) (a3 : Memref sig .tc .vmem S4096x64 .bf16) (h3 : a3.IsWhole)
    (a4 : Memref sig .tc .vmem S2048x64 .f32) (h4 : a4.IsWhole) (a5 : Memref sig .tc .vmem S2048x64 .f32) (h5 : a5.IsWhole)
    (x0 : Vec F S4096 .i32) (x1 : Vec F S4096x64 .bf16) (prev : Vec F S2048x64 .f32) (K : PUnit → sProp 𝕄) :
    iprop(owns (c : Thread nD τ) a2 fullShare x0 ∗ owns (c : Thread nD τ) a3 fullShare x1 ∗ (∃ d, owns (c : Thread nD τ) a4 fullShare d)
        ∗ owns (c : Thread nD τ) a5 fullShare prev
        ∗ (iprop(owns (c : Thread nD τ) a2 fullShare x0 ∗ owns (c : Thread nD τ) a3 fullShare x1
            ∗ owns (c : Thread nD τ) a4 fullShare (k1_pay2 i x0 x1 prev)
            ∗ owns (c : Thread nD τ) a5 fullShare (k1_pay2 i x0 x1 prev)) -∗ K ⟨⟩))
      ⊢ wp frame (wpE (defs₀ (F := F)) Variants.none c none) E (cc1__scatter_kernel i a2 h2 a3 h3 a4 h4 a5 h5) K := by
  simp only [cc1__scatter_kernel_eq_skeleton]; unfold cc1__scatter_kernel_skel
  unfold owns
  iintro ⟨⟨%f0, %hf0, H0⟩, ⟨%f1, %hf1, H1⟩, ⟨%d4, %f4, -, H4⟩, ⟨%f5, %hf5, H5⟩, Hk⟩
  obtain rfl := h2.eq_unread hf0; obtain rfl := h3.eq_unread hf1; obtain rfl := h5.eq_unread hf5
  sl_exec (disch := first | exact hf | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr
    swap; · iexact H4
    ipureintro
    try sl_unfold_words
    rw [View.read_writes_eq_canon _ _ _ (fun y => ⟨_, List.mem_cons_self, View.mem_set_unit_zero hz2 Facts₀.inb_S2048x64_S2048x64_0_0 y⟩),
      View.canon_cons_unit_zero hz2]
    simp only [View.readAt_eq_ld, h2.read_unread, h3.read_unread, h5.read_unread, View.ld_unit_zero (S := S4096) hz1,
      View.ld_unit_zero (S := S4096x64) hz2, View.ld_unit_zero (S := S2048x64) hz2, View.readCov_unit_zero (S := S2048x64) _ hz2]
    try exact congrArg (k1_pay2 i x0 x1) (View.ld_unit_zero (S := S2048x64) hz2 Facts₀.inb_S2048x64_S2048x64_0_0 prev)
  iexists _; isplitr
  swap; · iexact H5
  ipureintro
  try sl_unfold_words
  rw [View.read_writes_eq_canon _ _ _ (fun y => ⟨_, List.mem_cons_self, View.mem_set_unit_zero hz2 Facts₀.inb_S2048x64_S2048x64_0_0 y⟩),
    View.canon_cons_unit_zero hz2]
  simp only [View.readAt_eq_ld, h2.read_unread, h3.read_unread, h5.read_unread, View.ld_unit_zero (S := S4096) hz1,
    View.ld_unit_zero (S := S4096x64) hz2, View.ld_unit_zero (S := S2048x64) hz2]

/-! ## The invariant between points -/

/-- The core's other scoped buffers that are no staging buffer of this region — the first region's, finished
    by now —, each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region's resting invariant, with the accumulator as a memref at some contents. -/
theorem PhiA_eq (c : Dev nD) :
    (Pipeline.ΦA spec1 c : sProp 𝕄)
      = iprop(((∃ d, owns (c : Thread nD τ) scr fullShare d) ∗ others c) ∗ (∃ r, prngReg c r)) := by
  unfold Pipeline.ΦA; rw [scopedRest1_eq]; simp only [scr, owns_whole, others]
  refine BI.equiv_iff.mp ⟨?_, ?_⟩
  · show (_ : sProp 𝕄) ⊢ (_ : sProp 𝕄)
    iintro ⟨⟨Ha, Hb, Hc, Hd, He, Hf, Hh, HS⟩, Hg⟩
    isplitl [Ha Hb Hc Hd He Hf Hh HS]
    · isplitl [HS]; · iexact HS
      isplitl [Ha]; · iexact Ha
      isplitl [Hb]; · iexact Hb
      isplitl [Hc]; · iexact Hc
      isplitl [Hd]; · iexact Hd
      isplitl [He]; · iexact He
      isplitl [Hf]; · iexact Hf
      iexact Hh
    iexact Hg
  · show (_ : sProp 𝕄) ⊢ (_ : sProp 𝕄)
    iintro ⟨⟨HS, Ha, Hb, Hc, Hd, He, Hf, Hh⟩, Hg⟩
    isplitl [Ha Hb Hc Hd He Hf Hh HS]
    · isplitl [Ha]; · iexact Ha
      isplitl [Hb]; · iexact Hb
      isplitl [Hc]; · iexact Hc
      isplitl [Hd]; · iexact Hd
      isplitl [He]; · iexact He
      isplitl [Hf]; · iexact Hf
      isplitl [Hh]; · iexact Hh
      iexact HS
    iexact Hg

/-- THE INVARIANT before point `n`: before the first point the resting one; afterwards the accumulator at what the
    point before left, the other scoped buffers and the generator register at anything. -/
def Phi (c : Dev nD) : (n : ℕ) → n ≤ cfg1.N → sProp 𝕄
  | 0, _ => Pipeline.ΦA spec1 c
  | n + 1, hn => iprop((owns (c : Thread nD τ) scr fullShare (acc V c n hn) ∗ others c) ∗ (∃ r, prngReg c r))

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop((owns (c : Thread nD τ) scr fullShare (acc V c n hn) ∗ others c) ∗ (∃ r, prngReg c r)) := rfl

theorem Phi_pos (c : Dev nD) (n : ℕ) (h : n ≤ cfg1.N) (hz : n ≠ 0) :
    Phi V c n h = iprop((owns (c : Thread nD τ) scr fullShare (acc V c (n - 1) (by omega)) ∗ others c) ∗ (∃ r, prngReg c r)) := by
  cases n with
  | zero => exact absurd rfl hz
  | succ n => rfl

/-! ## The pipeline's proof data -/

/-- The proof data on core `c`: the arrays as the region finds them; after the body each input's buffer at its
    block, the output's at the accumulator (consulted at a row's last point only: elsewhere the window is
    idle); the invariant `Phi`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => acc V c t.val t.isLt
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = Phi V c t.val (Nat.le_of_lt t.isLt) := by
  dsimp only [dat]; simp only [Fin.coe_castSucc]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = acc V c t.val t.isLt := by dsimp only [dat]

/-- Each input's current staging buffer holds its block at every point, fetched there or kept from the point before. -/
theorem before0 (c : Dev nD) (t : Fin cfg1.N) (d) : (dat V c).before 0 t d = blk V c 0 t :=
  ((dat V c).before_in_eq_fetched 0 rfl (fun _ => rfl) (fun _ _ _ => rfl)
      (fun t => by rw [after0]; unfold Dat.blockOf blk; rw [A_eq]; try rfl) t d).trans
    (by unfold Dat.fetched Dat.blockOf blk; rw [A_eq]; try rfl)
theorem before1 (c : Dev nD) (t : Fin cfg1.N) (d) : (dat V c).before 1 t d = blk V c 1 t :=
  ((dat V c).before_in_eq_fetched 1 rfl (fun _ => rfl) (fun _ _ _ => rfl)
      (fun t => by rw [after1]; unfold Dat.blockOf blk; rw [A_eq]; try rfl) t d).trans
    (by unfold Dat.fetched Dat.blockOf blk; rw [A_eq]; try rfl)

/-! ## The body obligation -/

/-- Each window's current staging memref at point `t`, as the pipeline passes it. -/
abbrev ms0 (t : Fin cfg1.N) : Memref sig .tc .vmem S4096 .i32 := win1_0.stage (cfg1.slots t 0)
abbrev ms1 (t : Fin cfg1.N) : Memref sig .tc .vmem S4096x64 .bf16 := win1_1.stage (cfg1.slots t 1)
abbrev ms2 (t : Fin cfg1.N) : Memref sig .tc .vmem S2048x64 .f32 := win1_2.stage (cfg1.slots t 2)

set_option maxHeartbeats 4000000 in
/-- The body at any point: the inputs' buffers hold their blocks; by the point's place in its row the matching run
    applies, the invariant handing over the accumulator at what the point before left (at anything at a row's first
    point) and taking it back at this point's value. -/
theorem sound_body (c : Dev nD) (t : Fin cfg1.N) :
    iprop((dat V c).Φ t.castSucc ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d)))
      ⊢ wp frame (wpE (defs₀ (F := F)) Variants.none c none) Set.univ (bodyAt1 t) (fun _ =>
          iprop((dat V c).Φ t.succ ∗ (dat V c).owesAt () t.succ
            ∗ (dat V c).leavesExact 0 t ∗ (dat V c).leavesExact 1 t ∗ (dat V c).leavesExact 2 t)) := by
  unfold bodyAt1
  simp only [before0, before1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms0 t) fullShare ((dat V c).after 0 t) from rfl, after0]
  rw [show (dat V c).leavesExact 1 t = owns (c : Thread nD τ) (ms1 t) fullShare ((dat V c).after 1 t) from rfl, after1]
  rw [Phi_castSucc V c t]
  by_cases hl : t.val % 306 = 305
  · -- the row's last point
    have hf : ¬t.val % 306 = 0 := by omega
    have hz : t.val ≠ 0 := fun e => hf (by rw [e])
    rw [show (dat V c).leavesExact 2 t = owns (c : Thread nD τ) (ms2 t) fullShare ((dat V c).after 2 t) from by
      unfold Dat.leavesExact; rw [live_out t ((isLast_iff t).mpr hl)], after2]
    rw [acc_next V c t hf, Phi_pos V c _ _ hz]
    iintro ⟨⟨⟨HS, Hoth⟩, Hg⟩, Ho, ⟨%d0, H0⟩, ⟨%d1, H1⟩, ⟨%d2, H2⟩⟩
    iapply (run_last c Set.univ (grid1.coords t) (fun h => hf ((isFirst_iff t).mp h)) ((isLast_iff t).mpr hl)
      _ _ _ _ _ _ _ _ (blk V c 0 t) (blk V c 1 t) (acc V c (t.val - 1) (by omega)) _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat V c) 2 t (idle_out t (fun h => hl ((isLast_iff t).mp h))) (noFlush_out t (fun h => hl ((isLast_iff t).mp h)))]
    by_cases hf : t.val % 306 = 0
    · -- a row's first point
      rw [acc_first V c t hf]
      by_cases hz : t.val = 0
      · rw [Phi_zero V c _ _ hz, PhiA_eq]
        iintro ⟨⟨⟨HS, Hoth⟩, Hg⟩, Ho, ⟨%d0, H0⟩, ⟨%d1, H1⟩, ⟨%d2, H2⟩⟩
        iapply (run_first c Set.univ (grid1.coords t) ((isFirst_iff t).mpr hf) (fun h => hl ((isLast_iff t).mp h))
          _ _ _ _ _ _ _ _ (blk V c 0 t) (blk V c 1 t) ((dat V c).before 2 t d2) _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
      · rw [Phi_pos V c _ _ hz]
        iintro ⟨⟨⟨HS, Hoth⟩, Hg⟩, Ho, ⟨%d0, H0⟩, ⟨%d1, H1⟩, ⟨%d2, H2⟩⟩
        iapply (run_first c Set.univ (grid1.coords t) ((isFirst_iff t).mpr hf) (fun h => hl ((isLast_iff t).mp h))
          _ _ _ _ _ _ _ _ (blk V c 0 t) (blk V c 1 t) ((dat V c).before 2 t d2) _)
        isplitl [H0]; · iexact H0
        isplitl [H1]; · iexact H1
        isplitl [H2]; · iexact H2
        isplitl [HS]; · iexists _; iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
    · -- a middle point
      have hz : t.val ≠ 0 := fun e => hf (by rw [e])
      rw [acc_next V c t hf, Phi_pos V c _ _ hz]
      iintro ⟨⟨⟨HS, Hoth⟩, Hg⟩, Ho, ⟨%d0, H0⟩, ⟨%d1, H1⟩, ⟨%d2, H2⟩⟩
      iapply (run_mid c Set.univ (grid1.coords t) (fun h => hf ((isFirst_iff t).mp h)) (fun h => hl ((isLast_iff t).mp h))
        _ _ _ _ _ _ _ _ (blk V c 0 t) (blk V c 1 t) ((dat V c).before 2 t d2) (acc V c (t.val - 1) (by omega)) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = Phi V c 0 (Nat.zero_le _) from rfl, Phi_zero V c 0 _ rfl]

/-- After the last point the invariant gives the resting one back: the accumulator's contents are forgotten. -/
theorem hout (c : Dev nD) : (dat V c).Φ (Fin.last cfg1.N) ⊢ Pipeline.ΦA spec1 c := by
  rw [show (dat V c).Φ (Fin.last cfg1.N) = Phi V c cfg1.N (Nat.le_refl _) from rfl,
    Phi_pos V c _ _ (by rw [show cfg1.N = 14994 from N_1]; decide), PhiA_eq]
  iintro ⟨⟨HS, Hoth⟩, Hg⟩
  isplitl [HS Hoth]
  · isplitl [HS]; · iexists _; iexact HS
    iexact Hoth
  iexact Hg

end Cert.KernelIdeal.Scatter

end
-- ==== Proof.Run.lean ====
/-
  The whole program's run, on every core: the six host stretches, the gather region, the scatter-add region, the
  closing slice.  Between two items the core's unscoped buffers are held whole at a valuation: the launch memory, then
  each host stretch applied, then each region's output array at what its write-backs leave (`msgs`, `outp`) and every
  other buffer as it was.  Each region enters the pipeline's launch rule with its proof data — the arrays split out of
  the buffers at entry and put back at exit, the generator register lent to the region's invariant and returned, nothing
  owed between cores —, and the final state is read against the last valuation: the result buffer at the slice of the
  scatter-add's output, the two argument arrays as launched.
-/
import proofs.«419025_j49744311222856_1_alg».proof.Proof.Gen.KernelIdeal.Launch
import proofs.«419025_j49744311222856_1_alg».proof.Proof.Gen.KernelIdeal.Skeleton
import proofs.«419025_j49744311222856_1_alg».proof.Proof.Gen.KernelIdeal.Points
import proofs.«419025_j49744311222856_1_alg».proof.Proof.Gen.KernelIdeal.Regions
import proofs.«419025_j49744311222856_1_alg».proof.Proof.Gather
import proofs.«419025_j49744311222856_1_alg».proof.Proof.Scatter
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- What the gather region is entered with: the launch memory after the six host stretches. -/
abbrev Vin0 : (c : Dev nD) → (b : Ref sig .tc) → Buf (Elt F) ((c : Thread nD τ).loc b) := fun c b => V6 m c b

/-- THE MESSAGES: what the gather region's write-backs leave in its output array. -/
def msgs (c : Dev nD) : Buf (Elt F) ((c : Thread nD τ).loc main_v8) := (Gather.dat (Vin0 m) c).arrAt 2 cfg0.N

/-- What the scatter-add region is entered with: the same, the messages in place. -/
abbrev Vin1 : (c : Dev nD) → (b : Ref sig .tc) → Buf (Elt F) ((c : Thread nD τ).loc b) :=
  fun c b => (Function.update (V6 m c) main_v8 (msgs m c) : Valuation τ sig (Elt F)) b

/-- THE AGGREGATE: what the scatter-add region's write-backs leave in its output array. -/
def outp (c : Dev nD) : Buf (Elt F) ((c : Thread nD τ).loc main_v9) := (Scatter.dat (Vin1 m) c).arrAt 2 cfg1.N

/-- The contents the two regions leave, as the generated valuations read them: the messages, then the aggregate. -/
def outs : Outs (F := F) := fun _ r c =>
  Function.update (Function.update (fun r' : Ref sig .tc => m ((c : Thread nD τ).loc r')) main_v8 (msgs m c)) main_v9 (outp m c) r

theorem outs_v8 (J : ℕ) (c : Dev nD) : outs m J main_v8 c = msgs m c := by
  unfold outs; rw [Function.update_of_ne (by decide), Function.update_self]
theorem outs_v9 (J : ℕ) (c : Dev nD) : outs m J main_v9 c = outp m c := by
  unfold outs; rw [Function.update_self]

theorem V7_eq (c : Dev nD) : V7 m (outs m) c = Function.update (V6 m c) main_v8 (msgs m c) := by
  show Function.update (V6 m c) main_v8 (outs m 7 main_v8 c) = _
  rw [outs_v8]
theorem V8_eq (c : Dev nD) : V8 m (outs m) c = Function.update (V7 m (outs m) c) main_v9 (outp m c) := by
  show Function.update (V7 m (outs m) c) main_v9 (outs m 8 main_v9 c) = _
  rw [outs_v9]

/-! ## The proof data family and what rides along -/

/-- Each pipeline's proof data at its region's entry contents. -/
def pdats : (p : Fin 2) → (c : Dev nD) → Dat τ (Elt F) Unit ℕ (UR sig nD τ) ℕ (cfgs p) c
  | ⟨0, _⟩ => fun c => Gather.dat (Vin0 m) c
  | ⟨1, _⟩ => fun c => Scatter.dat (Vin1 m) c

/-- No core owes another anything: no level is assigned. -/
abbrev L : GSem nD τ sig → Finset Unit := fun _ => ∅
abbrev lv : GSem nD τ sig → Unit → ℕ := fun _ _ => 0
/-- Beside the buffers: the core's generator register at some state, and its debts, none. -/
abbrev R (c : Dev nD) : sProp 𝕄 := iprop((∃ r, prngReg c r) ∗ ∃ W, owes (c : Thread nD τ) (0 : CellTallies nD τ sig Unit) W)

/-! ## The gather region's arrays at its exit -/

theorem exit0_arr (c : Dev nD) (w : Fin cfg0.W) :
    (pdats m 0 c).arrAt w cfg0.N = V7 m (outs m) c (Pipeline.arrRef spec0 w) := by
  rw [V7_eq]
  match w with
  | ⟨0, _⟩ =>
    exact (((pdats m 0 c).arrAt_in 0 rfl _).trans (Gather.A_eq (Vin0 m) c 0)).trans
      (Function.update_of_ne (StableHlo.devRef_ne_of_ne (by decide)) _ _).symm
  | ⟨1, _⟩ =>
    exact (((pdats m 0 c).arrAt_in 1 rfl _).trans (Gather.A_eq (Vin0 m) c 1)).trans
      (Function.update_of_ne (StableHlo.devRef_ne_of_ne (by decide)) _ _).symm
  | ⟨2, _⟩ => exact (Function.update_self (Proc.devRef .tc main_v8 : DevRef τ sig) (msgs m c) (V6 m c)).symm
theorem exit0_rest (c : Dev nD) :
    ∀ b : Ref sig .tc, b ∉ Finset.univ.image (Pipeline.arrRef spec0) → V7 m (outs m) c b = V6 m c b := fun b hb =>
  V7_of m (outs m) c b (fun h => hb (by
    rw [List.mem_singleton] at h; subst h
    exact Finset.mem_image_of_mem (Pipeline.arrRef spec0) (Finset.mem_univ (2 : Fin cfg0.W))))

theorem exit1_arr (c : Dev nD) (w : Fin cfg1.W) :
    (pdats m 1 c).arrAt w cfg1.N = V8 m (outs m) c (Pipeline.arrRef spec1 w) := by
  rw [V8_eq, V7_eq]
  match w with
  | ⟨0, _⟩ =>
    exact (((pdats m 1 c).arrAt_in 0 rfl _).trans (Scatter.A_eq (Vin1 m) c 0)).trans
      (Function.update_of_ne (StableHlo.devRef_ne_of_ne (by decide)) _ _).symm
  | ⟨1, _⟩ =>
    exact (((pdats m 1 c).arrAt_in 1 rfl _).trans (Scatter.A_eq (Vin1 m) c 1)).trans
      (Function.update_of_ne (StableHlo.devRef_ne_of_ne (by decide)) _ _).symm
  | ⟨2, _⟩ => exact (Function.update_self (Proc.devRef .tc main_v9 : DevRef τ sig) (outp m c) (Function.update (V6 m c) main_v8 (msgs m c))).symm
theorem exit1_rest (c : Dev nD) :
    ∀ b : Ref sig .tc, b ∉ Finset.univ.image (Pipeline.arrRef spec1) → V8 m (outs m) c b = V7 m (outs m) c b := fun b hb =>
  V8_of m (outs m) c b (fun h => hb (by
    rw [List.mem_singleton] at h; subst h
    exact Finset.mem_image_of_mem (Pipeline.arrRef spec1) (Finset.mem_univ (2 : Fin cfg1.W))))

/-! ## The regions as segments -/

set_option backward.isDefEq.respectTransparency.types false in
/-- THE GATHER REGION between the buffers at `V6` and at `V7`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Gather.body_obligation (Vin0 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Gather.hin (Vin0 m) c)
    unfold Pipeline.ΦA
    iintro ⟨Hp, -, Hr⟩
    isplitl [Hr]; · iexact Hr
    iexact Hp
  hout c := by
    rw [Pipeline.ownSems0_none]
    refine BIBase.Entails.trans (Gather.hout (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V7 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCATTER-ADD REGION between the buffers at `V7` and at `V8`. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Scatter.body_obligation (Vin1 m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    rw [V7_eq]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Scatter.hin (Vin1 m) c)
    unfold Pipeline.ΦA
    iintro ⟨Hp, -, Hr⟩
    isplitl [Hr]; · iexact Hr
    iexact Hp
  hout c := by
    rw [Pipeline.ownSems0_none]
    refine BIBase.Entails.trans (Scatter.hout (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V8 m (outs m) c b) ((pdats m 1 c).arrAt · cfg1.N) (exit1_arr m c)
      (fun b hb => (exit1_rest m c b hb).trans (congrFun (V7_eq m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory `m` with zero counters every weakly fair execution of the program terminates, and every
    final memory has the result buffer at the last valuation's contents and both argument arrays as launched. -/
theorem run_main : θ_run defs (onTc (τ := τ) (main (F := F))) ⟨m, fun _ => 0, ρ⟩ (fun r => ∀ c : Dev nD,
      r.2.mem ((c.tc : Thread nD τ).loc main_v10) = V9 m (outs m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm (pdats m) () cellOf_inj emb₁ defs₀ Variants.none L lv m ρ main
    (segs m (outs m) Variants.none L lv (fun _ c => R c) () (pdats m) (reg0 m) (reg1 m))
    (fun c Q => by
      rewrite [main_chain c, Pipeline.Seg.run_eq_chain,
        show (segs m (outs m) Variants.none L lv (fun _ c => R c) () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V9 m (outs m) c) ∗ ∃ r, prngReg c r))
    (hch := fun c => ⟨.rfl, .rfl, .rfl, .rfl, .rfl, .rfl, .rfl, .rfl, .rfl, by
      show (iprop(StableHlo.held (c : Thread nD τ) (Pipeline.ucRefs τ sig) (V9 m (outs m) c) ∗ R c) : sProp 𝕄) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V9 m (outs m) c) s')
      isplitl [Hh] <;> iassumption)
    (hQ := fun s h c =>
      ⟨h c _ (mem_uc main_v10 (by decide)),
        (h c _ (mem_uc main_arg0 (by decide))).trans (V9_main_arg0 m (outs m) c),
        (h c _ (mem_uc main_arg1 (by decide))).trans (V9_main_arg1 m (outs m) c)⟩)

end Cert.KernelIdeal.Whole

end
-- ==== Proof.GatherBits.lean ====
/-
  The first kernel region (the gather), on one core, from the buffer contents `V` it is entered with.

  The region walks a 306 × 49 grid, edge tile `i` outermost, node tile `k` innermost.  At point (i, k) the body
  forms, for the 4096 edges of tile i and the 2048 nodes of tile k, the one-hot comparison of node numbers with the
  edges' source words, multiplies its transpose with node tile k of the padded features, and adds the product to a
  scratch accumulator that it zeroes first when k = 0; at k = 48 it writes the accumulator, rounded, to the output
  block of tile i.  So the scratch after point n is a fold over the points of n's row of the grid (`acc`), and the
  output block written back at the row's last point is that fold's last value.  This module states that per point,
  proves the body's run in its three cases (first, middle, last node tile), and packages the pipeline's proof data
  and body obligation.
-/
import proofs.«419025_j49744311222856_1_alg».proof.Proof.Gen.Kernel.Launch
import proofs.«419025_j49744311222856_1_alg».proof.Proof.Gen.Kernel.Skeleton
import proofs.«419025_j49744311222856_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scratch accumulator as a memref. -/
abbrev scr : Memref sig .tc .vmem S4096x64 .f32 := Memref.whole cc0_scratch0

variable (V : (c : Dev nD) → (b : Ref sig .tc) → Buf (Elt F) ((c : Thread nD τ).loc b))

/-! ## The grid's inner coordinate and the body's two conditions -/

/-- The node tile of grid point `t`. -/
theorem coord1_val (t : Fin cfg0.N) : ((grid0.coords t) 1).val = t.val % 49 := by
  show t.val / grid0.stride 1 % 49 = t.val % 49
  rw [show grid0.stride 1 = 1 from by decide, Nat.div_one]

/-- The body's first condition: the node tile is the first. -/
abbrev isFirst (i : grid0.Coords) : Prop :=
  (Scalar.cmpi .ne (Scalar.extui (Scalar.cmpi .eq (BitVec.ofNat 32 (i 1).val) 0#32)) 0#32) = 1#1
/-- Its second: the node tile is the last. -/
abbrev isLast (i : grid0.Coords) : Prop := k0_cond2 i = 1#1

theorem first_word : ∀ k : Fin 49,
    ((Scalar.cmpi .ne (Scalar.extui (Scalar.cmpi .eq (BitVec.ofNat 32 k.val) 0#32)) 0#32) = 1#1) ↔ k.val = 0 := by decide
theorem last_word : ∀ k : Fin 49,
    ((Scalar.cmpi .ne (Scalar.extui (Scalar.cmpi .eq (BitVec.ofNat 32 k.val) 48#32)) 0#32) = 1#1) ↔ k.val = 48 := by decide

theorem isFirst_iff (t : Fin cfg0.N) : isFirst (grid0.coords t) ↔ t.val % 49 = 0 := by
  show (Scalar.cmpi .ne (Scalar.extui (Scalar.cmpi .eq (BitVec.ofNat 32 ((grid0.coords t) 1).val) 0#32)) 0#32) = 1#1 ↔ _
  rw [coord1_val]; exact first_word ⟨t.val % 49, Nat.mod_lt _ (by decide)⟩
theorem isLast_iff (t : Fin cfg0.N) : isLast (grid0.coords t) ↔ t.val % 49 = 48 := by
  show (Scalar.cmpi .ne (Scalar.extui (Scalar.cmpi .eq (BitVec.ofNat 32 ((grid0.coords t) 1).val) 48#32)) 0#32) = 1#1 ↔ _
  rw [coord1_val]; exact last_word ⟨t.val % 49, Nat.mod_lt _ (by decide)⟩

/-- The output window is idle exactly off the last node tile, and written back exactly there. -/
theorem idle_out (t : Fin cfg0.N) (h : ¬isLast (grid0.coords t)) : cfg0.idle 2 (grid0.coords t) = true := by
  show (!(k0_cond2 (grid0.coords t) == 1#1)) = true
  simpa [isLast] using h
theorem live_out (t : Fin cfg0.N) (h : isLast (grid0.coords t)) : cfg0.idle 2 (grid0.coords t) = false := by
  show (!(k0_cond2 (grid0.coords t) == 1#1)) = false
  simpa [isLast] using h
theorem noFlush_out (t : Fin cfg0.N) (h : ¬isLast (grid0.coords t)) : (cfg0.win 2).flush t = false := by
  rw [isLast_iff] at h
  exact Bool.eq_false_iff.mpr fun hf => h ((flush0_2 t).mp hf)

/-! ## The windows' blocks and the accumulator -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE ACCUMULATOR after point `n`: the tile product of point `n` added to the zero tile at the first node tile
    of a row, and to what the point before left otherwise. -/
def acc (c : Dev nD) : (n : ℕ) → n < cfg0.N → Vec F S4096x64 .f32
  | 0, h => k0_pay2 (grid0.coords ⟨0, h⟩) (blk V c 0 ⟨0, h⟩) (blk V c 1 ⟨0, h⟩) (k0_pay1 (F := F))
  | n + 1, h => k0_pay2 (grid0.coords ⟨n + 1, h⟩) (blk V c 0 ⟨n + 1, h⟩) (blk V c 1 ⟨n + 1, h⟩)
      (if (n + 1) % 49 = 0 then k0_pay1 (F := F) else acc c n (Nat.lt_of_succ_lt h))

theorem acc_first (c : Dev nD) (t : Fin cfg0.N) (h : t.val % 49 = 0) :
    acc V c t.val t.isLt = k0_pay2 (grid0.coords t) (blk V c 0 t) (blk V c 1 t) (k0_pay1 (F := F)) := by
  obtain ⟨n, hn⟩ := t
  cases n with
  | zero => rfl
  | succ n => show k0_pay2 _ _ _ (if (n + 1) % 49 = 0 then _ else _) = _; rw [if_pos h]

theorem acc_next (c : Dev nD) (t : Fin cfg0.N) (h : ¬t.val % 49 = 0) :
    acc V c t.val t.isLt = k0_pay2 (grid0.coords t) (blk V c 0 t) (blk V c 1 t)
      (acc V c (t.val - 1) (Nat.lt_of_le_of_lt (Nat.sub_le _ _) t.isLt)) := by
  obtain ⟨n, hn⟩ := t
  cases n with
  | zero => exact absurd (Nat.zero_mod _) h
  | succ n => show k0_pay2 _ _ _ (if (n + 1) % 49 = 0 then _ else _) = _; rw [if_neg h]; rfl

/-! ## The body's run, case by case -/

theorem hz1 : (![0] : Fin 1 → Nat) = fun _ => 0 := funext fun a => by fin_cases a; rfl
theorem hz2 : (![0, 0] : Fin 2 → Nat) = fun _ => 0 := funext fun a => by fin_cases a <;> rfl

set_option maxHeartbeats 1000000 in
/-- FIRST NODE TILE (not the last): the scratch, whatever it held, ends at the tile product added to zeros; the
    inputs and the output's buffer are left as found. -/
theorem run_first (c : Dev nD) (E : Set ℕ) (i : grid0.Coords) (hf : isFirst i) (hl : ¬isLast i)
    (a2 : Memref sig .tc .vmem S4096 .i32) (h2 : a2.IsWhole) (a3 : Memref sig .tc .vmem S2048x64 .bf16) (h3 : a3.IsWhole)
    (a4 : Memref sig .tc .vmem S4096x64 .bf16) (h4 : a4.IsWhole) (a5 : Memref sig .tc .vmem S4096x64 .f32) (h5 : a5.IsWhole)
    (x0 : Vec F S4096 .i32) (x1 : Vec F S2048x64 .bf16) (d4 : Vec F S4096x64 .bf16) (K : PUnit → sProp 𝕄) :
    iprop(owns (c : Thread nD τ) a2 fullShare x0 ∗ owns (c : Thread nD τ) a3 fullShare x1 ∗ owns (c : Thread nD τ) a4 fullShare d4
        ∗ (∃ d, owns (c : Thread nD τ) a5 fullShare d)
        ∗ (iprop(owns (c : Thread nD τ) a2 fullShare x0 ∗ owns (c : Thread nD τ) a3 fullShare x1 ∗ owns (c : Thread nD τ) a4 fullShare d4
            ∗ owns (c : Thread nD τ) a5 fullShare (k0_pay2 i x0 x1 (k0_pay1 (F := F)))) -∗ K ⟨⟩))
      ⊢ wp frame (wpE (defs₀ (F := F)) Variants.none c none) E (cc0__gather_kernel i a2 h2 a3 h3 a4 h4 a5 h5) K := by
  simp only [cc0__gather_kernel_eq_skeleton]; unfold cc0__gather_kernel_skel
  unfold owns
  iintro ⟨⟨%f0, %hf0, H0⟩, ⟨%f1, %hf1, H1⟩, ⟨%f4, %hf4, H4⟩, ⟨%d5, %f5, -, H5⟩, Hk⟩
  obtain rfl := h2.eq_unread hf0; obtain rfl := h3.eq_unread hf1; obtain rfl := h4.eq_unread hf4
  sl_exec (disch := first | exact hf | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr; · ipureintro; exact h4.read_unread _
    iexact H4
  iexists _; isplitr
  swap; · iexact H5
  ipureintro
  sl_unfold_words
  rw [View.read_writes_eq_canon _ _ _ (fun y => ⟨_, List.mem_cons_self, View.mem_set_unit_zero hz2 Facts₀.inb_S4096x64_S4096x64_0_0 y⟩),
    View.canon_cons_unit_zero hz2]
  simp only [View.readAt_eq_ld, h2.read_unread, h3.read_unread, View.ld_unit_zero (S := S4096) hz1,
    View.ld_unit_zero (S := S2048x64) hz2, View.readCov_unit_zero (S := S4096x64) _ hz2]

set_option maxHeartbeats 1000000 in
/-- A MIDDLE NODE TILE: the scratch, at what the point before left, ends at the tile product added to it. -/
theorem run_mid (c : Dev nD) (E : Set ℕ) (i : grid0.Coords) (hf : ¬isFirst i) (hl : ¬isLast i)
    (a2 : Memref sig .tc .vmem S4096 .i32) (h2 : a2.IsWhole) (a3 : Memref sig .tc .vmem S2048x64 .bf16) (h3 : a3.IsWhole)
    (a4 : Memref sig .tc .vmem S4096x64 .bf16) (h4 : a4.IsWhole) (a5 : Memref sig .tc .vmem S4096x64 .f32) (h5 : a5.IsWhole)
    (x0 : Vec F S4096 .i32) (x1 : Vec F S2048x64 .bf16) (d4 : Vec F S4096x64 .bf16) (prev : Vec F S4096x64 .f32) (K : PUnit → sProp 𝕄) :
    iprop(owns (c : Thread nD τ) a2 fullShare x0 ∗ owns (c : Thread nD τ) a3 fullShare x1 ∗ owns (c : Thread nD τ) a4 fullShare d4
        ∗ owns (c : Thread nD τ) a5 fullShare prev
        ∗ (iprop(owns (c : Thread nD τ) a2 fullShare x0 ∗ owns (c : Thread nD τ) a3 fullShare x1 ∗ owns (c : Thread nD τ) a4 fullShare d4
            ∗ owns (c : Thread nD τ) a5 fullShare (k0_pay2 i x0 x1 prev)) -∗ K ⟨⟩))
      ⊢ wp frame (wpE (defs₀ (F := F)) Variants.none c none) E (cc0__gather_kernel i a2 h2 a3 h3 a4 h4 a5 h5) K := by
  simp only [cc0__gather_kernel_eq_skeleton]; unfold cc0__gather_kernel_skel
  unfold owns
  iintro ⟨⟨%f0, %hf0, H0⟩, ⟨%f1, %hf1, H1⟩, ⟨%f4, %hf4, H4⟩, ⟨%f5, %hf5, H5⟩, Hk⟩
  obtain rfl := h2.eq_unread hf0; obtain rfl := h3.eq_unread hf1; obtain rfl := h4.eq_unread hf4; obtain rfl := h5.eq_unread hf5
  sl_exec (disch := first | exact hf | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr; · ipureintro; exact h4.read_unread _
    iexact H4
  iexists _; isplitr
  swap; · iexact H5
  ipureintro
  try sl_unfold_words
  rw [View.read_writes_eq_canon _ _ _ (fun y => ⟨_, List.mem_cons_self, View.mem_set_unit_zero hz2 Facts₀.inb_S4096x64_S4096x64_0_0 y⟩),
    View.canon_cons_unit_zero hz2]
  simp only [View.readAt_eq_ld, h2.read_unread, h3.read_unread, h5.read_unread, View.ld_unit_zero (S := S4096) hz1,
    View.ld_unit_zero (S := S2048x64) hz2, View.ld_unit_zero (S := S4096x64) hz2]

set_option maxHeartbeats 1000000 in
/-- THE LAST NODE TILE (not the first): the scratch as in the middle, and the output's buffer, whatever it held, ends
    at the rounded accumulator. -/
theorem run_last (c : Dev nD) (E : Set ℕ) (i : grid0.Coords) (hf : ¬isFirst i) (hl : isLast i)
    (a2 : Memref sig .tc .vmem S4096 .i32) (h2 : a2.IsWhole) (a3 : Memref sig .tc .vmem S2048x64 .bf16) (h3 : a3.IsWhole)
    (a4 : Memref sig .tc .vmem S4096x64 .bf16) (h4 : a4.IsWhole) (a5 : Memref sig .tc .vmem S4096x64 .f32) (h5 : a5.IsWhole)
    (x0 : Vec F S4096 .i32) (x1 : Vec F S2048x64 .bf16) (prev : Vec F S4096x64 .f32) (K : PUnit → sProp 𝕄) :
    iprop(owns (c : Thread nD τ) a2 fullShare x0 ∗ owns (c : Thread nD τ) a3 fullShare x1 ∗ (∃ d, owns (c : Thread nD τ) a4 fullShare d)
        ∗ owns (c : Thread nD τ) a5 fullShare prev
        ∗ (iprop(owns (c : Thread nD τ) a2 fullShare x0 ∗ owns (c : Thread nD τ) a3 fullShare x1
            ∗ owns (c : Thread nD τ) a4 fullShare (k0_pay3 (k0_pay2 i x0 x1 prev))
            ∗ owns (c : Thread nD τ) a5 fullShare (k0_pay2 i x0 x1 prev)) -∗ K ⟨⟩))
      ⊢ wp frame (wpE (defs₀ (F := F)) Variants.none c none) E (cc0__gather_kernel i a2 h2 a3 h3 a4 h4 a5 h5) K := by
  simp only [cc0__gather_kernel_eq_skeleton]; unfold cc0__gather_kernel_skel
  unfold owns
  iintro ⟨⟨%f0, %hf0, H0⟩, ⟨%f1, %hf1, H1⟩, ⟨%d4, %f4, -, H4⟩, ⟨%f5, %hf5, H5⟩, Hk⟩
  obtain rfl := h2.eq_unread hf0; obtain rfl := h3.eq_unread hf1; obtain rfl := h5.eq_unread hf5
  sl_exec (disch := first | exact hf | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr
    swap; · iexact H4
    ipureintro
    try sl_unfold_words
    rw [View.read_writes_eq_canon _ _ _ (fun y => ⟨_, List.mem_cons_self, View.mem_set_unit_zero hz2 Facts₀.inb_S4096x64_S4096x64_0_0 y⟩),
      View.canon_cons_unit_zero hz2]
    simp only [View.readAt_eq_ld, h2.read_unread, h3.read_unread, h5.read_unread, View.ld_unit_zero (S := S4096) hz1,
      View.ld_unit_zero (S := S2048x64) hz2, View.ld_unit_zero (S := S4096x64) hz2, View.readCov_unit_zero (S := S4096x64) _ hz2]
  iexists _; isplitr
  swap; · iexact H5
  ipureintro
  try sl_unfold_words
  rw [View.read_writes_eq_canon _ _ _ (fun y => ⟨_, List.mem_cons_self, View.mem_set_unit_zero hz2 Facts₀.inb_S4096x64_S4096x64_0_0 y⟩),
    View.canon_cons_unit_zero hz2]
  simp only [View.readAt_eq_ld, h2.read_unread, h3.read_unread, h5.read_unread, View.ld_unit_zero (S := S4096) hz1,
    View.ld_unit_zero (S := S2048x64) hz2, View.ld_unit_zero (S := S4096x64) hz2]

/-! ## The invariant between points -/

/-- The core's other scoped buffers that are no staging buffer of this region — the second region's, untouched
    here —, each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The region's resting invariant, with the accumulator as a memref at some contents. -/
theorem PhiA_eq (c : Dev nD) :
    (Pipeline.ΦA spec0 c : sProp 𝕄)
      = iprop(((∃ d, owns (c : Thread nD τ) scr fullShare d) ∗ others c) ∗ (∃ r, prngReg c r)) := by
  unfold Pipeline.ΦA; rw [scopedRest0_eq]; simp only [scr, owns_whole, others]; rfl

/-- THE INVARIANT before point `n`: before the first point the resting one; afterwards the accumulator at what the
    point before left, the other scoped buffers and the generator register at anything. -/
def Phi (c : Dev nD) : (n : ℕ) → n ≤ cfg0.N → sProp 𝕄
  | 0, _ => Pipeline.ΦA spec0 c
  | n + 1, hn => iprop((owns (c : Thread nD τ) scr fullShare (acc V c n hn) ∗ others c) ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop((owns (c : Thread nD τ) scr fullShare (acc V c n hn) ∗ others c) ∗ (∃ r, prngReg c r)) := rfl

theorem Phi_pos (c : Dev nD) (n : ℕ) (h : n ≤ cfg0.N) (hz : n ≠ 0) :
    Phi V c n h = iprop((owns (c : Thread nD τ) scr fullShare (acc V c (n - 1) (by omega)) ∗ others c) ∗ (∃ r, prngReg c r)) := by
  cases n with
  | zero => exact absurd rfl hz
  | succ n => rfl

/-! ## The pipeline's proof data -/

/-- The proof data on core `c`: the arrays as the region finds them; after the body each input's buffer at its
    block, the output's at the rounded accumulator (consulted at a row's last point only: elsewhere the window is
    idle); the invariant `Phi`; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => k0_pay3 (acc V c t.val t.isLt)
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = Phi V c t.val (Nat.le_of_lt t.isLt) := by
  dsimp only [dat]; simp only [Fin.coe_castSucc]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = k0_pay3 (acc V c t.val t.isLt) := by dsimp only [dat]

/-- Each input's current staging buffer holds its block at every point, fetched there or kept from the point before. -/
theorem before0 (c : Dev nD) (t : Fin cfg0.N) (d) : (dat V c).before 0 t d = blk V c 0 t :=
  ((dat V c).before_in_eq_fetched 0 rfl (fun _ => rfl) (fun _ _ _ => rfl)
      (fun t => by rw [after0]; unfold Dat.blockOf blk; rw [A_eq]; try rfl) t d).trans
    (by unfold Dat.fetched Dat.blockOf blk; rw [A_eq]; try rfl)
theorem before1 (c : Dev nD) (t : Fin cfg0.N) (d) : (dat V c).before 1 t d = blk V c 1 t :=
  ((dat V c).before_in_eq_fetched 1 rfl (fun _ => rfl) (fun _ _ _ => rfl)
      (fun t => by rw [after1]; unfold Dat.blockOf blk; rw [A_eq]; try rfl) t d).trans
    (by unfold Dat.fetched Dat.blockOf blk; rw [A_eq]; try rfl)

/-! ## The body obligation -/

/-- Each window's current staging memref at point `t`, as the pipeline passes it. -/
abbrev ms0 (t : Fin cfg0.N) : Memref sig .tc .vmem S4096 .i32 := win0_0.stage (cfg0.slots t 0)
abbrev ms1 (t : Fin cfg0.N) : Memref sig .tc .vmem S2048x64 .bf16 := win0_1.stage (cfg0.slots t 1)
abbrev ms2 (t : Fin cfg0.N) : Memref sig .tc .vmem S4096x64 .bf16 := win0_2.stage (cfg0.slots t 2)

set_option maxHeartbeats 4000000 in
/-- The body at any point: the inputs' buffers hold their blocks; by the point's place in its row the matching run
    applies, the invariant handing over the accumulator at what the point before left (at anything at a row's first
    point) and taking it back at this point's value. -/
theorem sound_body (c : Dev nD) (t : Fin cfg0.N) :
    iprop((dat V c).Φ t.castSucc ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d)))
      ⊢ wp frame (wpE (defs₀ (F := F)) Variants.none c none) Set.univ (bodyAt0 t) (fun _ =>
          iprop((dat V c).Φ t.succ ∗ (dat V c).owesAt () t.succ
            ∗ (dat V c).leavesExact 0 t ∗ (dat V c).leavesExact 1 t ∗ (dat V c).leavesExact 2 t)) := by
  unfold bodyAt0
  simp only [before0, before1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms0 t) fullShare ((dat V c).after 0 t) from rfl, after0]
  rw [show (dat V c).leavesExact 1 t = owns (c : Thread nD τ) (ms1 t) fullShare ((dat V c).after 1 t) from rfl, after1]
  rw [Phi_castSucc V c t]
  by_cases hl : t.val % 49 = 48
  · -- the row's last point
    have hf : ¬t.val % 49 = 0 := by omega
    have hz : t.val ≠ 0 := fun e => hf (by rw [e])
    rw [show (dat V c).leavesExact 2 t = owns (c : Thread nD τ) (ms2 t) fullShare ((dat V c).after 2 t) from by
      unfold Dat.leavesExact; rw [live_out t ((isLast_iff t).mpr hl)], after2]
    rw [acc_next V c t hf, Phi_pos V c _ _ hz]
    iintro ⟨⟨⟨HS, Hoth⟩, Hg⟩, Ho, ⟨%d0, H0⟩, ⟨%d1, H1⟩, ⟨%d2, H2⟩⟩
    iapply (run_last c Set.univ (grid0.coords t) (fun h => hf ((isFirst_iff t).mp h)) ((isLast_iff t).mpr hl)
      _ _ _ _ _ _ _ _ (blk V c 0 t) (blk V c 1 t) (acc V c (t.val - 1) (by omega)) _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat V c) 2 t (idle_out t (fun h => hl ((isLast_iff t).mp h))) (noFlush_out t (fun h => hl ((isLast_iff t).mp h)))]
    by_cases hf : t.val % 49 = 0
    · -- a row's first point
      rw [acc_first V c t hf]
      by_cases hz : t.val = 0
      · rw [Phi_zero V c _ _ hz, PhiA_eq]
        iintro ⟨⟨⟨HS, Hoth⟩, Hg⟩, Ho, ⟨%d0, H0⟩, ⟨%d1, H1⟩, ⟨%d2, H2⟩⟩
        iapply (run_first c Set.univ (grid0.coords t) ((isFirst_iff t).mpr hf) (fun h => hl ((isLast_iff t).mp h))
          _ _ _ _ _ _ _ _ (blk V c 0 t) (blk V c 1 t) ((dat V c).before 2 t d2) _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
      · rw [Phi_pos V c _ _ hz]
        iintro ⟨⟨⟨HS, Hoth⟩, Hg⟩, Ho, ⟨%d0, H0⟩, ⟨%d1, H1⟩, ⟨%d2, H2⟩⟩
        iapply (run_first c Set.univ (grid0.coords t) ((isFirst_iff t).mpr hf) (fun h => hl ((isLast_iff t).mp h))
          _ _ _ _ _ _ _ _ (blk V c 0 t) (blk V c 1 t) ((dat V c).before 2 t d2) _)
        isplitl [H0]; · iexact H0
        isplitl [H1]; · iexact H1
        isplitl [H2]; · iexact H2
        isplitl [HS]; · iexists _; iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
    · -- a middle point
      have hz : t.val ≠ 0 := fun e => hf (by rw [e])
      rw [acc_next V c t hf, Phi_pos V c _ _ hz]
      iintro ⟨⟨⟨HS, Hoth⟩, Hg⟩, Ho, ⟨%d0, H0⟩, ⟨%d1, H1⟩, ⟨%d2, H2⟩⟩
      iapply (run_mid c Set.univ (grid0.coords t) (fun h => hf ((isFirst_iff t).mp h)) (fun h => hl ((isLast_iff t).mp h))
        _ _ _ _ _ _ _ _ (blk V c 0 t) (blk V c 1 t) ((dat V c).before 2 t d2) (acc V c (t.val - 1) (by omega)) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl, Phi_zero V c 0 _ rfl]

/-- After the last point the invariant gives the resting one back: the accumulator's contents are forgotten. -/
theorem hout (c : Dev nD) : (dat V c).Φ (Fin.last cfg0.N) ⊢ Pipeline.ΦA spec0 c := by
  rw [show (dat V c).Φ (Fin.last cfg0.N) = Phi V c cfg0.N (Nat.le_refl _) from rfl,
    Phi_pos V c _ _ (by rw [show cfg0.N = 14994 from N_0]; decide), PhiA_eq]
  iintro ⟨⟨HS, Hoth⟩, Hg⟩
  isplitl [HS Hoth]
  · isplitl [HS]; · iexists _; iexact HS
    iexact Hoth
  iexact Hg

end Cert.Kernel.Gather

end
-- ==== Proof.ScatterBits.lean ====
/-
  The second kernel region (the scatter-add), on one core, from the buffer contents `V` it is entered with.

  The region walks a 49 × 306 grid, node tile `i` outermost, edge tile `k` innermost.  At point (i, k) the body forms,
  for the 2048 nodes of tile i and the 4096 edges of tile k, the one-hot comparison of node numbers with the edges'
  target words, multiplies it with edge tile k of the messages, and adds the product to a scratch accumulator that it
  zeroes first when k = 0; at k = 305 it copies the accumulator to the output block of node tile i.  So the scratch
  after point n is a fold over the points of n's row of the grid (`acc`), and the output block written back at the
  row's last point is that fold's last value.  This module states that per point, proves the body's run in its three
  cases (first, middle, last edge tile), and packages the pipeline's proof data and body obligation.
-/
import proofs.«419025_j49744311222856_1_alg».proof.Proof.Gen.Kernel.Launch
import proofs.«419025_j49744311222856_1_alg».proof.Proof.Gen.Kernel.Skeleton
import proofs.«419025_j49744311222856_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The scratch accumulator as a memref. -/
abbrev scr : Memref sig .tc .vmem S2048x64 .f32 := Memref.whole cc1_scratch0

variable (V : (c : Dev nD) → (b : Ref sig .tc) → Buf (Elt F) ((c : Thread nD τ).loc b))

/-! ## The grid's inner coordinate and the body's two conditions -/

/-- The edge tile of grid point `t`. -/
theorem coord1_val (t : Fin cfg1.N) : ((grid1.coords t) 1).val = t.val % 306 := by
  show t.val / grid1.stride 1 % 306 = t.val % 306
  rw [show grid1.stride 1 = 1 from by decide, Nat.div_one]

/-- The body's first condition: the edge tile is the first. -/
abbrev isFirst (i : grid1.Coords) : Prop :=
  (Scalar.cmpi .ne (Scalar.extui (Scalar.cmpi .eq (BitVec.ofNat 32 (i 1).val) 0#32)) 0#32) = 1#1
/-- Its second: the edge tile is the last. -/
abbrev isLast (i : grid1.Coords) : Prop := k1_cond2 i = 1#1

theorem first_word : ∀ k : Fin 306,
    ((Scalar.cmpi .ne (Scalar.extui (Scalar.cmpi .eq (BitVec.ofNat 32 k.val) 0#32)) 0#32) = 1#1) ↔ k.val = 0 := by decide
theorem last_word : ∀ k : Fin 306,
    ((Scalar.cmpi .ne (Scalar.extui (Scalar.cmpi .eq (BitVec.ofNat 32 k.val) 305#32)) 0#32) = 1#1) ↔ k.val = 305 := by decide

theorem isFirst_iff (t : Fin cfg1.N) : isFirst (grid1.coords t) ↔ t.val % 306 = 0 := by
  show (Scalar.cmpi .ne (Scalar.extui (Scalar.cmpi .eq (BitVec.ofNat 32 ((grid1.coords t) 1).val) 0#32)) 0#32) = 1#1 ↔ _
  rw [coord1_val]; exact first_word ⟨t.val % 306, Nat.mod_lt _ (by decide)⟩
theorem isLast_iff (t : Fin cfg1.N) : isLast (grid1.coords t) ↔ t.val % 306 = 305 := by
  show (Scalar.cmpi .ne (Scalar.extui (Scalar.cmpi .eq (BitVec.ofNat 32 ((grid1.coords t) 1).val) 305#32)) 0#32) = 1#1 ↔ _
  rw [coord1_val]; exact last_word ⟨t.val % 306, Nat.mod_lt _ (by decide)⟩

/-- The output window is idle exactly off the last edge tile, and written back exactly there. -/
theorem idle_out (t : Fin cfg1.N) (h : ¬isLast (grid1.coords t)) : cfg1.idle 2 (grid1.coords t) = true := by
  show (!(k1_cond2 (grid1.coords t) == 1#1)) = true
  simpa [isLast] using h
theorem live_out (t : Fin cfg1.N) (h : isLast (grid1.coords t)) : cfg1.idle 2 (grid1.coords t) = false := by
  show (!(k1_cond2 (grid1.coords t) == 1#1)) = false
  simpa [isLast] using h
theorem noFlush_out (t : Fin cfg1.N) (h : ¬isLast (grid1.coords t)) : (cfg1.win 2).flush t = false := by
  rw [isLast_iff] at h
  exact Bool.eq_false_iff.mpr fun hf => h ((flush1_2 t).mp hf)

/-! ## The windows' blocks and the accumulator -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATOR after point `n`: the tile product of point `n` added to the zero tile at the first edge tile
    of a row, and to what the point before left otherwise. -/
def acc (c : Dev nD) : (n : ℕ) → n < cfg1.N → Vec F S2048x64 .f32
  | 0, h => k1_pay2 (grid1.coords ⟨0, h⟩) (blk V c 0 ⟨0, h⟩) (blk V c 1 ⟨0, h⟩) (k1_pay1 (F := F))
  | n + 1, h => k1_pay2 (grid1.coords ⟨n + 1, h⟩) (blk V c 0 ⟨n + 1, h⟩) (blk V c 1 ⟨n + 1, h⟩)
      (if (n + 1) % 306 = 0 then k1_pay1 (F := F) else acc c n (Nat.lt_of_succ_lt h))

theorem acc_first (c : Dev nD) (t : Fin cfg1.N) (h : t.val % 306 = 0) :
    acc V c t.val t.isLt = k1_pay2 (grid1.coords t) (blk V c 0 t) (blk V c 1 t) (k1_pay1 (F := F)) := by
  obtain ⟨n, hn⟩ := t
  cases n with
  | zero => rfl
  | succ n => show k1_pay2 _ _ _ (if (n + 1) % 306 = 0 then _ else _) = _; rw [if_pos h]

theorem acc_next (c : Dev nD) (t : Fin cfg1.N) (h : ¬t.val % 306 = 0) :
    acc V c t.val t.isLt = k1_pay2 (grid1.coords t) (blk V c 0 t) (blk V c 1 t)
      (acc V c (t.val - 1) (Nat.lt_of_le_of_lt (Nat.sub_le _ _) t.isLt)) := by
  obtain ⟨n, hn⟩ := t
  cases n with
  | zero => exact absurd (Nat.zero_mod _) h
  | succ n => show k1_pay2 _ _ _ (if (n + 1) % 306 = 0 then _ else _) = _; rw [if_neg h]; rfl

/-! ## The body's run, case by case -/

theorem hz1 : (![0] : Fin 1 → Nat) = fun _ => 0 := funext fun a => by fin_cases a; rfl
theorem hz2 : (![0, 0] : Fin 2 → Nat) = fun _ => 0 := funext fun a => by fin_cases a <;> rfl

set_option maxHeartbeats 1000000 in
/-- FIRST EDGE TILE (not the last): the scratch, whatever it held, ends at the tile product added to zeros; the
    inputs and the output's buffer are left as found. -/
theorem run_first (c : Dev nD) (E : Set ℕ) (i : grid1.Coords) (hf : isFirst i) (hl : ¬isLast i)
    (a2 : Memref sig .tc .vmem S4096 .i32) (h2 : a2.IsWhole) (a3 : Memref sig .tc .vmem S4096x64 .bf16) (h3 : a3.IsWhole)
    (a4 : Memref sig .tc .vmem S2048x64 .f32) (h4 : a4.IsWhole) (a5 : Memref sig .tc .vmem S2048x64 .f32) (h5 : a5.IsWhole)
    (x0 : Vec F S4096 .i32) (x1 : Vec F S4096x64 .bf16) (d4 : Vec F S2048x64 .f32) (K : PUnit → sProp 𝕄) :
    iprop(owns (c : Thread nD τ) a2 fullShare x0 ∗ owns (c : Thread nD τ) a3 fullShare x1 ∗ owns (c : Thread nD τ) a4 fullShare d4
        ∗ (∃ d, owns (c : Thread nD τ) a5 fullShare d)
        ∗ (iprop(owns (c : Thread nD τ) a2 fullShare x0 ∗ owns (c : Thread nD τ) a3 fullShare x1 ∗ owns (c : Thread nD τ) a4 fullShare d4
            ∗ owns (c : Thread nD τ) a5 fullShare (k1_pay2 i x0 x1 (k1_pay1 (F := F)))) -∗ K ⟨⟩))
      ⊢ wp frame (wpE (defs₀ (F := F)) Variants.none c none) E (cc1__scatter_kernel i a2 h2 a3 h3 a4 h4 a5 h5) K := by
  simp only [cc1__scatter_kernel_eq_skeleton]; unfold cc1__scatter_kernel_skel
  unfold owns
  iintro ⟨⟨%f0, %hf0, H0⟩, ⟨%f1, %hf1, H1⟩, ⟨%f4, %hf4, H4⟩, ⟨%d5, %f5, -, H5⟩, Hk⟩
  obtain rfl := h2.eq_unread hf0; obtain rfl := h3.eq_unread hf1; obtain rfl := h4.eq_unread hf4
  sl_exec (disch := first | exact hf | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr; · ipureintro; exact h4.read_unread _
    iexact H4
  iexists _; isplitr
  swap; · iexact H5
  ipureintro
  sl_unfold_words
  rw [View.read_writes_eq_canon _ _ _ (fun y => ⟨_, List.mem_cons_self, View.mem_set_unit_zero hz2 Facts₀.inb_S2048x64_S2048x64_0_0 y⟩),
    View.canon_cons_unit_zero hz2]
  simp only [View.readAt_eq_ld, h2.read_unread, h3.read_unread, View.ld_unit_zero (S := S4096) hz1,
    View.ld_unit_zero (S := S4096x64) hz2, View.readCov_unit_zero (S := S2048x64) _ hz2]

set_option maxHeartbeats 1000000 in
/-- A MIDDLE EDGE TILE: the scratch, at what the point before left, ends at the tile product added to it. -/
theorem run_mid (c : Dev nD) (E : Set ℕ) (i : grid1.Coords) (hf : ¬isFirst i) (hl : ¬isLast i)
    (a2 : Memref sig .tc .vmem S4096 .i32) (h2 : a2.IsWhole) (a3 : Memref sig .tc .vmem S4096x64 .bf16) (h3 : a3.IsWhole)
    (a4 : Memref sig .tc .vmem S2048x64 .f32) (h4 : a4.IsWhole) (a5 : Memref sig .tc .vmem S2048x64 .f32) (h5 : a5.IsWhole)
    (x0 : Vec F S4096 .i32) (x1 : Vec F S4096x64 .bf16) (d4 : Vec F S2048x64 .f32) (prev : Vec F S2048x64 .f32) (K : PUnit → sProp 𝕄) :
    iprop(owns (c : Thread nD τ) a2 fullShare x0 ∗ owns (c : Thread nD τ) a3 fullShare x1 ∗ owns (c : Thread nD τ) a4 fullShare d4
        ∗ owns (c : Thread nD τ) a5 fullShare prev
        ∗ (iprop(owns (c : Thread nD τ) a2 fullShare x0 ∗ owns (c : Thread nD τ) a3 fullShare x1 ∗ owns (c : Thread nD τ) a4 fullShare d4
            ∗ owns (c : Thread nD τ) a5 fullShare (k1_pay2 i x0 x1 prev)) -∗ K ⟨⟩))
      ⊢ wp frame (wpE (defs₀ (F := F)) Variants.none c none) E (cc1__scatter_kernel i a2 h2 a3 h3 a4 h4 a5 h5) K := by
  simp only [cc1__scatter_kernel_eq_skeleton]; unfold cc1__scatter_kernel_skel
  unfold owns
  iintro ⟨⟨%f0, %hf0, H0⟩, ⟨%f1, %hf1, H1⟩, ⟨%f4, %hf4, H4⟩, ⟨%f5, %hf5, H5⟩, Hk⟩
  obtain rfl := h2.eq_unread hf0; obtain rfl := h3.eq_unread hf1; obtain rfl := h4.eq_unread hf4; obtain rfl := h5.eq_unread hf5
  sl_exec (disch := first | exact hf | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr; · ipureintro; exact h4.read_unread _
    iexact H4
  iexists _; isplitr
  swap; · iexact H5
  ipureintro
  try sl_unfold_words
  rw [View.read_writes_eq_canon _ _ _ (fun y => ⟨_, List.mem_cons_self, View.mem_set_unit_zero hz2 Facts₀.inb_S2048x64_S2048x64_0_0 y⟩),
    View.canon_cons_unit_zero hz2]
  simp only [View.readAt_eq_ld, h2.read_unread, h3.read_unread, h5.read_unread, View.ld_unit_zero (S := S4096) hz1,
    View.ld_unit_zero (S := S4096x64) hz2, View.ld_unit_zero (S := S2048x64) hz2]

set_option maxHeartbeats 1000000 in
/-- THE LAST EDGE TILE (not the first): the scratch as in the middle, and the output's buffer, whatever it held, ends
    at the accumulator. -/
theorem run_last (c : Dev nD) (E : Set ℕ) (i : grid1.Coords) (hf : ¬isFirst i) (hl : isLast i)
    (a2 : Memref sig .tc .vmem S4096 .i32) (h2 : a2.IsWhole) (a3 : Memref sig .tc .vmem S4096x64 .bf16) (h3 : a3.IsWhole)
    (a4 : Memref sig .tc .vmem S2048x64 .f32) (h4 : a4.IsWhole) (a5 : Memref sig .tc .vmem S2048x64 .f32) (h5 : a5.IsWhole)
    (x0 : Vec F S4096 .i32) (x1 : Vec F S4096x64 .bf16) (prev : Vec F S2048x64 .f32) (K : PUnit → sProp 𝕄) :
    iprop(owns (c : Thread nD τ) a2 fullShare x0 ∗ owns (c : Thread nD τ) a3 fullShare x1 ∗ (∃ d, owns (c : Thread nD τ) a4 fullShare d)
        ∗ owns (c : Thread nD τ) a5 fullShare prev
        ∗ (iprop(owns (c : Thread nD τ) a2 fullShare x0 ∗ owns (c : Thread nD τ) a3 fullShare x1
            ∗ owns (c : Thread nD τ) a4 fullShare (k1_pay2 i x0 x1 prev)
            ∗ owns (c : Thread nD τ) a5 fullShare (k1_pay2 i x0 x1 prev)) -∗ K ⟨⟩))
      ⊢ wp frame (wpE (defs₀ (F := F)) Variants.none c none) E (cc1__scatter_kernel i a2 h2 a3 h3 a4 h4 a5 h5) K := by
  simp only [cc1__scatter_kernel_eq_skeleton]; unfold cc1__scatter_kernel_skel
  unfold owns
  iintro ⟨⟨%f0, %hf0, H0⟩, ⟨%f1, %hf1, H1⟩, ⟨%d4, %f4, -, H4⟩, ⟨%f5, %hf5, H5⟩, Hk⟩
  obtain rfl := h2.eq_unread hf0; obtain rfl := h3.eq_unread hf1; obtain rfl := h5.eq_unread hf5
  sl_exec (disch := first | exact hf | exact hl)
  sl_step
  iapply Hk
  isplitl [H0]
  · iexists _; isplitr; · ipureintro; exact h2.read_unread _
    iexact H0
  isplitl [H1]
  · iexists _; isplitr; · ipureintro; exact h3.read_unread _
    iexact H1
  isplitl [H4]
  · iexists _; isplitr
    swap; · iexact H4
    ipureintro
    try sl_unfold_words
    rw [View.read_writes_eq_canon _ _ _ (fun y => ⟨_, List.mem_cons_self, View.mem_set_unit_zero hz2 Facts₀.inb_S2048x64_S2048x64_0_0 y⟩),
      View.canon_cons_unit_zero hz2]
    simp only [View.readAt_eq_ld, h2.read_unread, h3.read_unread, h5.read_unread, View.ld_unit_zero (S := S4096) hz1,
      View.ld_unit_zero (S := S4096x64) hz2, View.ld_unit_zero (S := S2048x64) hz2, View.readCov_unit_zero (S := S2048x64) _ hz2]
    try exact congrArg (k1_pay2 i x0 x1) (View.ld_unit_zero (S := S2048x64) hz2 Facts₀.inb_S2048x64_S2048x64_0_0 prev)
  iexists _; isplitr
  swap; · iexact H5
  ipureintro
  try sl_unfold_words
  rw [View.read_writes_eq_canon _ _ _ (fun y => ⟨_, List.mem_cons_self, View.mem_set_unit_zero hz2 Facts₀.inb_S2048x64_S2048x64_0_0 y⟩),
    View.canon_cons_unit_zero hz2]
  simp only [View.readAt_eq_ld, h2.read_unread, h3.read_unread, h5.read_unread, View.ld_unit_zero (S := S4096) hz1,
    View.ld_unit_zero (S := S4096x64) hz2, View.ld_unit_zero (S := S2048x64) hz2]

/-! ## The invariant between points -/

/-- The core's other scoped buffers that are no staging buffer of this region — the first region's, finished
    by now —, each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The region's resting invariant, with the accumulator as a memref at some contents. -/
theorem PhiA_eq (c : Dev nD) :
    (Pipeline.ΦA spec1 c : sProp 𝕄)
      = iprop(((∃ d, owns (c : Thread nD τ) scr fullShare d) ∗ others c) ∗ (∃ r, prngReg c r)) := by
  unfold Pipeline.ΦA; rw [scopedRest1_eq]; simp only [scr, owns_whole, others]
  refine BI.equiv_iff.mp ⟨?_, ?_⟩
  · show (_ : sProp 𝕄) ⊢ (_ : sProp 𝕄)
    iintro ⟨⟨Ha, Hb, Hc, Hd, He, Hf, Hh, HS⟩, Hg⟩
    isplitl [Ha Hb Hc Hd He Hf Hh HS]
    · isplitl [HS]; · iexact HS
      isplitl [Ha]; · iexact Ha
      isplitl [Hb]; · iexact Hb
      isplitl [Hc]; · iexact Hc
      isplitl [Hd]; · iexact Hd
      isplitl [He]; · iexact He
      isplitl [Hf]; · iexact Hf
      iexact Hh
    iexact Hg
  · show (_ : sProp 𝕄) ⊢ (_ : sProp 𝕄)
    iintro ⟨⟨HS, Ha, Hb, Hc, Hd, He, Hf, Hh⟩, Hg⟩
    isplitl [Ha Hb Hc Hd He Hf Hh HS]
    · isplitl [Ha]; · iexact Ha
      isplitl [Hb]; · iexact Hb
      isplitl [Hc]; · iexact Hc
      isplitl [Hd]; · iexact Hd
      isplitl [He]; · iexact He
      isplitl [Hf]; · iexact Hf
      isplitl [Hh]; · iexact Hh
      iexact HS
    iexact Hg

/-- THE INVARIANT before point `n`: before the first point the resting one; afterwards the accumulator at what the
    point before left, the other scoped buffers and the generator register at anything. -/
def Phi (c : Dev nD) : (n : ℕ) → n ≤ cfg1.N → sProp 𝕄
  | 0, _ => Pipeline.ΦA spec1 c
  | n + 1, hn => iprop((owns (c : Thread nD τ) scr fullShare (acc V c n hn) ∗ others c) ∗ (∃ r, prngReg c r))

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop((owns (c : Thread nD τ) scr fullShare (acc V c n hn) ∗ others c) ∗ (∃ r, prngReg c r)) := rfl

theorem Phi_pos (c : Dev nD) (n : ℕ) (h : n ≤ cfg1.N) (hz : n ≠ 0) :
    Phi V c n h = iprop((owns (c : Thread nD τ) scr fullShare (acc V c (n - 1) (by omega)) ∗ others c) ∗ (∃ r, prngReg c r)) := by
  cases n with
  | zero => exact absurd rfl hz
  | succ n => rfl

/-! ## The pipeline's proof data -/

/-- The proof data on core `c`: the arrays as the region finds them; after the body each input's buffer at its
    block, the output's at the accumulator (consulted at a row's last point only: elsewhere the window is
    idle); the invariant `Phi`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => acc V c t.val t.isLt
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = Phi V c t.val (Nat.le_of_lt t.isLt) := by
  dsimp only [dat]; simp only [Fin.coe_castSucc]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = acc V c t.val t.isLt := by dsimp only [dat]

/-- Each input's current staging buffer holds its block at every point, fetched there or kept from the point before. -/
theorem before0 (c : Dev nD) (t : Fin cfg1.N) (d) : (dat V c).before 0 t d = blk V c 0 t :=
  ((dat V c).before_in_eq_fetched 0 rfl (fun _ => rfl) (fun _ _ _ => rfl)
      (fun t => by rw [after0]; unfold Dat.blockOf blk; rw [A_eq]; try rfl) t d).trans
    (by unfold Dat.fetched Dat.blockOf blk; rw [A_eq]; try rfl)
theorem before1 (c : Dev nD) (t : Fin cfg1.N) (d) : (dat V c).before 1 t d = blk V c 1 t :=
  ((dat V c).before_in_eq_fetched 1 rfl (fun _ => rfl) (fun _ _ _ => rfl)
      (fun t => by rw [after1]; unfold Dat.blockOf blk; rw [A_eq]; try rfl) t d).trans
    (by unfold Dat.fetched Dat.blockOf blk; rw [A_eq]; try rfl)

/-! ## The body obligation -/

/-- Each window's current staging memref at point `t`, as the pipeline passes it. -/
abbrev ms0 (t : Fin cfg1.N) : Memref sig .tc .vmem S4096 .i32 := win1_0.stage (cfg1.slots t 0)
abbrev ms1 (t : Fin cfg1.N) : Memref sig .tc .vmem S4096x64 .bf16 := win1_1.stage (cfg1.slots t 1)
abbrev ms2 (t : Fin cfg1.N) : Memref sig .tc .vmem S2048x64 .f32 := win1_2.stage (cfg1.slots t 2)

set_option maxHeartbeats 4000000 in
/-- The body at any point: the inputs' buffers hold their blocks; by the point's place in its row the matching run
    applies, the invariant handing over the accumulator at what the point before left (at anything at a row's first
    point) and taking it back at this point's value. -/
theorem sound_body (c : Dev nD) (t : Fin cfg1.N) :
    iprop((dat V c).Φ t.castSucc ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d)))
      ⊢ wp frame (wpE (defs₀ (F := F)) Variants.none c none) Set.univ (bodyAt1 t) (fun _ =>
          iprop((dat V c).Φ t.succ ∗ (dat V c).owesAt () t.succ
            ∗ (dat V c).leavesExact 0 t ∗ (dat V c).leavesExact 1 t ∗ (dat V c).leavesExact 2 t)) := by
  unfold bodyAt1
  simp only [before0, before1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms0 t) fullShare ((dat V c).after 0 t) from rfl, after0]
  rw [show (dat V c).leavesExact 1 t = owns (c : Thread nD τ) (ms1 t) fullShare ((dat V c).after 1 t) from rfl, after1]
  rw [Phi_castSucc V c t]
  by_cases hl : t.val % 306 = 305
  · -- the row's last point
    have hf : ¬t.val % 306 = 0 := by omega
    have hz : t.val ≠ 0 := fun e => hf (by rw [e])
    rw [show (dat V c).leavesExact 2 t = owns (c : Thread nD τ) (ms2 t) fullShare ((dat V c).after 2 t) from by
      unfold Dat.leavesExact; rw [live_out t ((isLast_iff t).mpr hl)], after2]
    rw [acc_next V c t hf, Phi_pos V c _ _ hz]
    iintro ⟨⟨⟨HS, Hoth⟩, Hg⟩, Ho, ⟨%d0, H0⟩, ⟨%d1, H1⟩, ⟨%d2, H2⟩⟩
    iapply (run_last c Set.univ (grid1.coords t) (fun h => hf ((isFirst_iff t).mp h)) ((isLast_iff t).mpr hl)
      _ _ _ _ _ _ _ _ (blk V c 0 t) (blk V c 1 t) (acc V c (t.val - 1) (by omega)) _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat V c) 2 t (idle_out t (fun h => hl ((isLast_iff t).mp h))) (noFlush_out t (fun h => hl ((isLast_iff t).mp h)))]
    by_cases hf : t.val % 306 = 0
    · -- a row's first point
      rw [acc_first V c t hf]
      by_cases hz : t.val = 0
      · rw [Phi_zero V c _ _ hz, PhiA_eq]
        iintro ⟨⟨⟨HS, Hoth⟩, Hg⟩, Ho, ⟨%d0, H0⟩, ⟨%d1, H1⟩, ⟨%d2, H2⟩⟩
        iapply (run_first c Set.univ (grid1.coords t) ((isFirst_iff t).mpr hf) (fun h => hl ((isLast_iff t).mp h))
          _ _ _ _ _ _ _ _ (blk V c 0 t) (blk V c 1 t) ((dat V c).before 2 t d2) _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
      · rw [Phi_pos V c _ _ hz]
        iintro ⟨⟨⟨HS, Hoth⟩, Hg⟩, Ho, ⟨%d0, H0⟩, ⟨%d1, H1⟩, ⟨%d2, H2⟩⟩
        iapply (run_first c Set.univ (grid1.coords t) ((isFirst_iff t).mpr hf) (fun h => hl ((isLast_iff t).mp h))
          _ _ _ _ _ _ _ _ (blk V c 0 t) (blk V c 1 t) ((dat V c).before 2 t d2) _)
        isplitl [H0]; · iexact H0
        isplitl [H1]; · iexact H1
        isplitl [H2]; · iexact H2
        isplitl [HS]; · iexists _; iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
    · -- a middle point
      have hz : t.val ≠ 0 := fun e => hf (by rw [e])
      rw [acc_next V c t hf, Phi_pos V c _ _ hz]
      iintro ⟨⟨⟨HS, Hoth⟩, Hg⟩, Ho, ⟨%d0, H0⟩, ⟨%d1, H1⟩, ⟨%d2, H2⟩⟩
      iapply (run_mid c Set.univ (grid1.coords t) (fun h => hf ((isFirst_iff t).mp h)) (fun h => hl ((isLast_iff t).mp h))
        _ _ _ _ _ _ _ _ (blk V c 0 t) (blk V c 1 t) ((dat V c).before 2 t d2) (acc V c (t.val - 1) (by omega)) _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = Phi V c 0 (Nat.zero_le _) from rfl, Phi_zero V c 0 _ rfl]

/-- After the last point the invariant gives the resting one back: the accumulator's contents are forgotten. -/
theorem hout (c : Dev nD) : (dat V c).Φ (Fin.last cfg1.N) ⊢ Pipeline.ΦA spec1 c := by
  rw [show (dat V c).Φ (Fin.last cfg1.N) = Phi V c cfg1.N (Nat.le_refl _) from rfl,
    Phi_pos V c _ _ (by rw [show cfg1.N = 14994 from N_1]; decide), PhiA_eq]
  iintro ⟨⟨HS, Hoth⟩, Hg⟩
  isplitl [HS Hoth]
  · isplitl [HS]; · iexists _; iexact HS
    iexact Hoth
  iexact Hg

end Cert.Kernel.Scatter

end
-- ==== Proof.RunBits.lean ====
/-
  The whole program's run, on every core: the six host stretches, the gather region, the scatter-add region, the
  closing slice.  Between two items the core's unscoped buffers are held whole at a valuation: the launch memory, then
  each host stretch applied, then each region's output array at what its write-backs leave (`msgs`, `outp`) and every
  other buffer as it was.  Each region enters the pipeline's launch rule with its proof data — the arrays split out of
  the buffers at entry and put back at exit, the generator register lent to the region's invariant and returned, nothing
  owed between cores —, and the final state is read against the last valuation: the result buffer at the slice of the
  scatter-add's output, the two argument arrays as launched.
-/
import proofs.«419025_j49744311222856_1_alg».proof.Proof.Gen.Kernel.Launch
import proofs.«419025_j49744311222856_1_alg».proof.Proof.Gen.Kernel.Skeleton
import proofs.«419025_j49744311222856_1_alg».proof.Proof.Gen.Kernel.Points
import proofs.«419025_j49744311222856_1_alg».proof.Proof.Gen.Kernel.Regions
import proofs.«419025_j49744311222856_1_alg».proof.Proof.GatherBits
import proofs.«419025_j49744311222856_1_alg».proof.Proof.ScatterBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- What the gather region is entered with: the launch memory after the six host stretches. -/
abbrev Vin0 : (c : Dev nD) → (b : Ref sig .tc) → Buf (Elt F) ((c : Thread nD τ).loc b) := fun c b => V6 m c b

/-- THE MESSAGES: what the gather region's write-backs leave in its output array. -/
def msgs (c : Dev nD) : Buf (Elt F) ((c : Thread nD τ).loc main_v8) := (Gather.dat (Vin0 m) c).arrAt 2 cfg0.N

/-- What the scatter-add region is entered with: the same, the messages in place. -/
abbrev Vin1 : (c : Dev nD) → (b : Ref sig .tc) → Buf (Elt F) ((c : Thread nD τ).loc b) :=
  fun c b => (Function.update (V6 m c) main_v8 (msgs m c) : Valuation τ sig (Elt F)) b

/-- THE AGGREGATE: what the scatter-add region's write-backs leave in its output array. -/
def outp (c : Dev nD) : Buf (Elt F) ((c : Thread nD τ).loc main_v9) := (Scatter.dat (Vin1 m) c).arrAt 2 cfg1.N

/-- The contents the two regions leave, as the generated valuations read them: the messages, then the aggregate. -/
def outs : Outs (F := F) := fun _ r c =>
  Function.update (Function.update (fun r' : Ref sig .tc => m ((c : Thread nD τ).loc r')) main_v8 (msgs m c)) main_v9 (outp m c) r

theorem outs_v8 (J : ℕ) (c : Dev nD) : outs m J main_v8 c = msgs m c := by
  unfold outs; rw [Function.update_of_ne (by decide), Function.update_self]
theorem outs_v9 (J : ℕ) (c : Dev nD) : outs m J main_v9 c = outp m c := by
  unfold outs; rw [Function.update_self]

theorem V7_eq (c : Dev nD) : V7 m (outs m) c = Function.update (V6 m c) main_v8 (msgs m c) := by
  show Function.update (V6 m c) main_v8 (outs m 7 main_v8 c) = _
  rw [outs_v8]
theorem V8_eq (c : Dev nD) : V8 m (outs m) c = Function.update (V7 m (outs m) c) main_v9 (outp m c) := by
  show Function.update (V7 m (outs m) c) main_v9 (outs m 8 main_v9 c) = _
  rw [outs_v9]

/-! ## The proof data family and what rides along -/

/-- Each pipeline's proof data at its region's entry contents. -/
def pdats : (p : Fin 2) → (c : Dev nD) → Dat τ (Elt F) Unit ℕ (UR sig nD τ) ℕ (cfgs p) c
  | ⟨0, _⟩ => fun c => Gather.dat (Vin0 m) c
  | ⟨1, _⟩ => fun c => Scatter.dat (Vin1 m) c

/-- No core owes another anything: no level is assigned. -/
abbrev L : GSem nD τ sig → Finset Unit := fun _ => ∅
abbrev lv : GSem nD τ sig → Unit → ℕ := fun _ _ => 0
/-- Beside the buffers: the core's generator register at some state, and its debts, none. -/
abbrev R (c : Dev nD) : sProp 𝕄 := iprop((∃ r, prngReg c r) ∗ ∃ W, owes (c : Thread nD τ) (0 : CellTallies nD τ sig Unit) W)

/-! ## The gather region's arrays at its exit -/

theorem exit0_arr (c : Dev nD) (w : Fin cfg0.W) :
    (pdats m 0 c).arrAt w cfg0.N = V7 m (outs m) c (Pipeline.arrRef spec0 w) := by
  rw [V7_eq]
  match w with
  | ⟨0, _⟩ =>
    exact (((pdats m 0 c).arrAt_in 0 rfl _).trans (Gather.A_eq (Vin0 m) c 0)).trans
      (Function.update_of_ne (StableHlo.devRef_ne_of_ne (by decide)) _ _).symm
  | ⟨1, _⟩ =>
    exact (((pdats m 0 c).arrAt_in 1 rfl _).trans (Gather.A_eq (Vin0 m) c 1)).trans
      (Function.update_of_ne (StableHlo.devRef_ne_of_ne (by decide)) _ _).symm
  | ⟨2, _⟩ => exact (Function.update_self (Proc.devRef .tc main_v8 : DevRef τ sig) (msgs m c) (V6 m c)).symm
theorem exit0_rest (c : Dev nD) :
    ∀ b : Ref sig .tc, b ∉ Finset.univ.image (Pipeline.arrRef spec0) → V7 m (outs m) c b = V6 m c b := fun b hb =>
  V7_of m (outs m) c b (fun h => hb (by
    rw [List.mem_singleton] at h; subst h
    exact Finset.mem_image_of_mem (Pipeline.arrRef spec0) (Finset.mem_univ (2 : Fin cfg0.W))))

theorem exit1_arr (c : Dev nD) (w : Fin cfg1.W) :
    (pdats m 1 c).arrAt w cfg1.N = V8 m (outs m) c (Pipeline.arrRef spec1 w) := by
  rw [V8_eq, V7_eq]
  match w with
  | ⟨0, _⟩ =>
    exact (((pdats m 1 c).arrAt_in 0 rfl _).trans (Scatter.A_eq (Vin1 m) c 0)).trans
      (Function.update_of_ne (StableHlo.devRef_ne_of_ne (by decide)) _ _).symm
  | ⟨1, _⟩ =>
    exact (((pdats m 1 c).arrAt_in 1 rfl _).trans (Scatter.A_eq (Vin1 m) c 1)).trans
      (Function.update_of_ne (StableHlo.devRef_ne_of_ne (by decide)) _ _).symm
  | ⟨2, _⟩ => exact (Function.update_self (Proc.devRef .tc main_v9 : DevRef τ sig) (outp m c) (Function.update (V6 m c) main_v8 (msgs m c))).symm
theorem exit1_rest (c : Dev nD) :
    ∀ b : Ref sig .tc, b ∉ Finset.univ.image (Pipeline.arrRef spec1) → V8 m (outs m) c b = V7 m (outs m) c b := fun b hb =>
  V8_of m (outs m) c b (fun h => hb (by
    rw [List.mem_singleton] at h; subst h
    exact Finset.mem_image_of_mem (Pipeline.arrRef spec1) (Finset.mem_univ (2 : Fin cfg1.W))))

/-! ## The regions as segments -/

set_option backward.isDefEq.respectTransparency.types false in
/-- THE GATHER REGION between the buffers at `V6` and at `V7`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Gather.body_obligation (Vin0 m) c).loose
  hwaits := Pipeline.hwaits_of_owed_zero _ _ _ _ L lv 0 fun _ _ => rfl
  pre c := iprop(StableHlo.held (c : Thread nD τ) (Pipeline.ucRefs τ sig) (V6 m c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Gather.hin (Vin0 m) c)
    unfold Pipeline.ΦA
    iintro ⟨Hp, -, Hr⟩
    isplitl [Hr]; · iexact Hr
    iexact Hp
  hout c := by
    rw [Pipeline.ownSems0_none]
    refine BIBase.Entails.trans (Gather.hout (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => V7 m (outs m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCATTER-ADD REGION between the buffers at `V7` and at `V8`. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Scatter.body_obligation (Vin1 m) c).loose
  hwaits := Pipeline.hwaits_of_owed_zero _ _ _ _ L lv 1 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    rw [V7_eq]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Scatter.hin (Vin1 m) c)
    unfold Pipeline.ΦA
    iintro ⟨Hp, -, Hr⟩
    isplitl [Hr]; · iexact Hr
    iexact Hp
  hout c := by
    rw [Pipeline.ownSems0_none]
    refine BIBase.Entails.trans (Scatter.hout (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => V8 m (outs m) c b) ((pdats m 1 c).arrAt · cfg1.N) (exit1_arr m c)
      (fun b hb => (exit1_rest m c b hb).trans (congrFun (V7_eq m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory `m` with zero counters every weakly fair execution of the program terminates, and every
    final memory has the result buffer at the last valuation's contents and both argument arrays as launched. -/
theorem run_main : θ_run defs (onTc (τ := τ) (main (F := F))) ⟨m, fun _ => 0, ρ⟩ (fun r => ∀ c : Dev nD,
      r.2.mem ((c.tc : Thread nD τ).loc main_v10) = V9 m (outs m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm (pdats m) () cellOf_inj emb₁ defs₀ Variants.none L lv m ρ main
    (segs m (outs m) Variants.none L lv (fun _ c => R c) () (pdats m) (reg0 m) (reg1 m))
    (fun c Q => by
      rewrite [main_chain c, Pipeline.Seg.run_eq_chain,
        show (segs m (outs m) Variants.none L lv (fun _ c => R c) () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V9 m (outs m) c) ∗ ∃ r, prngReg c r))
    (hch := fun c => ⟨.rfl, .rfl, .rfl, .rfl, .rfl, .rfl, .rfl, .rfl, .rfl, by
      show (iprop(StableHlo.held (c : Thread nD τ) (Pipeline.ucRefs τ sig) (V9 m (outs m) c) ∗ R c) : sProp 𝕄) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V9 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V9 m (outs m) c) s')
      isplitl [Hh] <;> iassumption)
    (hQ := fun s h c =>
      ⟨h c _ (mem_uc main_v10 (by decide)),
        (h c _ (mem_uc main_arg0 (by decide))).trans (V9_main_arg0 m (outs m) c),
        (h c _ (mem_uc main_arg1 (by decide))).trans (V9_main_arg1 m (outs m) c)⟩)

end Cert.Kernel.Whole

end
-- ==== Proof.TileAlgebra.lean ====
/-
  The two kernels' tile arithmetic read at an index, at the ideal values (floats are extended reals, every format
  change is the identity, an i32 element is a 32-bit word). The gather tile multiplies the transposed one-hot of
  "node n of the tile is the edge's source" with a block of features; the scatter tile multiplies the one-hot of
  "node r of the tile is the edge's target" with a block of messages; each adds the product to a running accumulator.
  Read at one entry, each product is a finite sum of one-hot entries times block entries, and a one-hot entry is 1 or 0
  according to whether the node's number, which does not wrap in 32 bits, is the edge's word read unsigned.
-/
import proofs.«419025_j49744311222856_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Tile

open Idealize.ShloMosaic Idealize.ShloMosaic.ValueIdx Cert.KernelIdeal Cert.KernelIdeal.Gen

/-! ## Words -/

/-- The one-hot entry as an extended real: the comparison bit of two words, widened to 32 bits and converted, is 1 when
    the words agree and 0 when they differ. -/
theorem onehot_word (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h
    simp [IntOp.cmpi]
  · have hb : (a == b) = false := by simpa using h
    simp [IntOp.cmpi, hb, h]

/-- The node number of row n of node tile k as a 32-bit word does not wrap (k < 49, n < 2048), so it equals a word w
    exactly when 2048·k + n is w read unsigned. -/
theorem node_word (k n : Nat) (hk : k < 49) (hn : n < 2048) (w : BitVec 32) :
    IntOp.addi (BitVec.ofNat 32 n) (Scalar.muli (BitVec.ofNat 32 k) 2048#32) = w ↔ 2048 * k + n = w.toNat := by
  have e : (IntOp.addi (BitVec.ofNat 32 n) (Scalar.muli (BitVec.ofNat 32 k) 2048#32)).toNat = 2048 * k + n := by
    simp only [IntOp.addi, Scalar.muli, IntOp.muli, BitVec.toNat_add, BitVec.toNat_mul, BitVec.toNat_ofNat]
    omega
  constructor
  · rintro rfl; exact e.symm
  · intro h; exact BitVec.eq_of_toNat_eq (e.trans h)

/-! ## The two operands of the comparison at an index -/

/-- The column of node words of the tile, laid along the edges, reads the node's word at every edge. -/
theorem nodes_apply (b : BitVec 32) (n : Fin 2048) (e : Fin 4096) :
    broadcastTo S2048x4096 (addi (iota .tc S2048x1 32 [0] iota_S2048x1_d0_w32) (broadcast S2048x1 b))
        broadcasts_S2048x1_S2048x4096 (ix2 n e)
      = IntOp.addi (BitVec.ofNat 32 n.val) b := by
  refine (broadcastTo_apply _ broadcasts_S2048x1_S2048x4096 (ix2 n e) (ix2 n (0 : Fin 1)) (fun a => ?_)).trans ?_
  · match a with
    | ⟨0, _⟩ => rfl
    | ⟨1, _⟩ => rfl
  · show IntOp.addi (iota .tc S2048x1 32 [0] iota_S2048x1_d0_w32 (ix2 n (0 : Fin 1))) b = _
    rw [iota_single_apply]

/-- The row of edge words, laid along the nodes, reads the edge's word at every node. -/
theorem words_apply (v : IVec S4096 32) (n : Fin 2048) (e : Fin 4096) :
    broadcastTo S2048x4096 (shapeCast S1x4096 (shapeCast S4096 v shapeCasts_S4096_S4096) shapeCasts_S4096_S1x4096)
        broadcasts_S1x4096_S2048x4096 (ix2 n e)
      = v (ix1 e) := by
  refine (broadcastTo_apply _ broadcasts_S1x4096_S2048x4096 (ix2 n e) (ix2 (0 : Fin 1) e) (fun a => ?_)).trans ?_
  · match a with
    | ⟨0, _⟩ => rfl
    | ⟨1, _⟩ => rfl
  · rw [shapeCast_self]
    refine (shapeCast_apply v shapeCasts_S4096_S1x4096 (ix2 (0 : Fin 1) e) (ix1 e) ?_).trans rfl
    rw [Shape.rowMajor_val_one, Shape.rowMajor_val_two]
    show e.val = 0 * 4096 + e.val
    omega

/-- The one-hot tile of a block of 4096 edge words against the 2048 nodes whose words start at `b`: entry (n, e) is 1
    when node n's word is edge e's word, else 0. -/
theorem onehot_apply (b : BitVec 32) (v : IVec S4096 32) (n : Fin 2048) (e : Fin 4096) :
    (truncf .bf16 (sitofp (F := Ideal) .f32 (extui 32 (cmpi .eq
        (broadcastTo S2048x4096 (addi (iota .tc S2048x1 32 [0] iota_S2048x1_d0_w32) (broadcast S2048x1 b))
          broadcasts_S2048x1_S2048x4096)
        (broadcastTo S2048x4096 (shapeCast S1x4096 (shapeCast S4096 v shapeCasts_S4096_S4096) shapeCasts_S4096_S1x4096)
          broadcasts_S1x4096_S2048x4096)) natLt_1_32)) bitsLt_bf16_f32 : FVec Ideal S2048x4096 .bf16) (ix2 n e)
      = if IntOp.addi (BitVec.ofNat 32 n.val) b = v (ix1 e) then (1 : EReal) else 0 := by
  refine Eq.trans ?_ (onehot_word _ _)
  show FloatOps.sitofp (F := Ideal) .f32 ((IntOp.cmpi .eq (broadcastTo S2048x4096 _ broadcasts_S2048x1_S2048x4096 (ix2 n e))
      (broadcastTo S2048x4096 _ broadcasts_S1x4096_S2048x4096 (ix2 n e))).setWidth 32) = _
  rw [nodes_apply, words_apply]

/-! ## The gather's contraction: axis 0 of the one-hot with axis 0 of the feature block -/

/-- On the one-hot's node axis, the contracted one, the left operand's index is the contraction position. -/
theorem lhs_gather_0 (i : S4096x64.Idx) (q : dot_S2048x4096_S2048x64_S4096x64_0_0_1_1_n_n.contr.Idx) :
    (dot_S2048x4096_S2048x64_S4096x64_0_0_1_1_n_n.lhsIdx i q 0).val = (q ⟨0, by decide⟩).val :=
  dot_S2048x4096_S2048x64_S4096x64_0_0_1_1_n_n.lhsIdx_val_of_single rfl i q

/-- On the one-hot's edge axis the left operand's index is the output's row. -/
theorem lhs_gather_1 (i : S4096x64.Idx) (q : dot_S2048x4096_S2048x64_S4096x64_0_0_1_1_n_n.contr.Idx) :
    (dot_S2048x4096_S2048x64_S4096x64_0_0_1_1_n_n.lhsIdx i q 1).val = (i 0).val := by
  unfold DotDims.lhsIdx
  rw [dif_neg (show ¬(1 : Fin S2048x4096.rank) ∈ dot_S2048x4096_S2048x64_S4096x64_0_0_1_1_n_n.lhsBatch by decide),
    dif_pos (show (1 : Fin S2048x4096.rank) ∈ dot_S2048x4096_S2048x64_S4096x64_0_0_1_1_n_n.lhsNonContracting by decide)]
  rfl

/-- On the feature block's node axis, the contracted one, the right operand's index is the contraction position. -/
theorem rhs_gather_0 (i : S4096x64.Idx) (q : dot_S2048x4096_S2048x64_S4096x64_0_0_1_1_n_n.contr.Idx) :
    (dot_S2048x4096_S2048x64_S4096x64_0_0_1_1_n_n.rhsIdx i q 0).val = (q ⟨0, by decide⟩).val :=
  dot_S2048x4096_S2048x64_S4096x64_0_0_1_1_n_n.rhsIdx_val_of_single rfl i q

/-- On the feature block's feature axis the right operand's index is the output's column. -/
theorem rhs_gather_1 (i : S4096x64.Idx) (q : dot_S2048x4096_S2048x64_S4096x64_0_0_1_1_n_n.contr.Idx) :
    (dot_S2048x4096_S2048x64_S4096x64_0_0_1_1_n_n.rhsIdx i q 1).val = (i 1).val := by
  unfold DotDims.rhsIdx
  rw [dif_neg (show ¬(1 : Fin S2048x64.rank) ∈ dot_S2048x4096_S2048x64_S4096x64_0_0_1_1_n_n.rhsBatch by decide),
    dif_pos (show (1 : Fin S2048x64.rank) ∈ dot_S2048x4096_S2048x64_S4096x64_0_0_1_1_n_n.rhsNonContracting by decide)]
  rfl

/-- The gather's product into the zero tile at (r, q): the sum over the tile's 2048 nodes of the one-hot's entry
    (n, r) times the feature block's entry (n, q). -/
theorem gather_matmul_apply (oh : FVec Ideal S2048x4096 .bf16) (x : FVec Ideal S2048x64 .bf16) (r : Fin 4096) (q : Fin 64) :
    matmul dot_S2048x4096_S2048x64_S4096x64_0_0_1_1_n_n none oh x (constant (F := Ideal) S4096x64 .f32 0x00000000#32) (ix2 r q)
      = ∑ n : Fin 2048, oh (ix2 n r) * x (ix2 n q) := by
  simp only [matmul]
  rw [Ideal.matmul_constant_zero_apply,
    ← Equiv.sum_comp (contrEquiv1 dot_S2048x4096_S2048x64_S4096x64_0_0_1_1_n_n 2048 rfl rfl).symm]
  refine Finset.sum_congr rfl fun k _ => ?_
  have hk := contrEquiv1_symm_val dot_S2048x4096_S2048x64_S4096x64_0_0_1_1_n_n 2048 rfl rfl k
  have el : dot_S2048x4096_S2048x64_S4096x64_0_0_1_1_n_n.lhsIdx (ix2 r q)
      ((contrEquiv1 dot_S2048x4096_S2048x64_S4096x64_0_0_1_1_n_n 2048 rfl rfl).symm k) = ix2 k r :=
    funext fun a => Fin.ext (by
      match a with
      | ⟨0, _⟩ => exact (lhs_gather_0 _ _).trans hk
      | ⟨1, _⟩ => exact lhs_gather_1 _ _)
  have er : dot_S2048x4096_S2048x64_S4096x64_0_0_1_1_n_n.rhsIdx (ix2 r q)
      ((contrEquiv1 dot_S2048x4096_S2048x64_S4096x64_0_0_1_1_n_n 2048 rfl rfl).symm k) = ix2 k q :=
    funext fun a => Fin.ext (by
      match a with
      | ⟨0, _⟩ => exact (rhs_gather_0 _ _).trans hk
      | ⟨1, _⟩ => exact rhs_gather_1 _ _)
  rw [el, er]

/-- The gather tile at grid point i (i 1 = the node tile k): the accumulator's entry plus, over the 2048 nodes of tile k, the node's feature when the node's number 2048·k + n is the edge's source word read unsigned. -/
theorem gather_step (i : grid0.Coords) (colblk : Vec Ideal S4096 .i32) (xblk : Vec Ideal S2048x64 .bf16) (acc : Vec Ideal S4096x64 .f32) (r : Fin 4096) (q : Fin 64) :
    k0_pay2 (F := Ideal) i colblk xblk acc (ix2 r q)
      = acc (ix2 r q) + ∑ n : Fin 2048, (if 2048 * (i 1).val + n.val = (colblk (ix1 r)).toNat then (1 : EReal) else 0) * xblk (ix2 n q) := by
  unfold k0_pay2
  rw [shapeCast_self]
  refine (addf_apply _ _ _).trans ?_
  rw [gather_matmul_apply]
  refine congrArg (acc (ix2 r q) + ·) (Finset.sum_congr rfl fun n _ => ?_)
  rw [onehot_apply, shapeCast_self]
  have hk : (i 1).val < 49 := (i 1).isLt
  have hn : n.val < 2048 := n.isLt
  simp only [node_word _ _ hk hn]

/-- The accumulator's reset value is the zero tile. -/
theorem gather_reset (j : S4096x64.Idx) : k0_pay1 (F := Ideal) j = 0 := by
  unfold k0_pay1
  rw [shapeCast_self]
  exact Ideal.ofBits_zero_f32

/-- Writing the accumulator out rounds to bf16, which is the identity on extended reals. -/
theorem gather_emit (v : Vec Ideal S4096x64 .f32) : k0_pay3 (F := Ideal) v = v := rfl

/-! ## The scatter's contraction: axis 1 of the one-hot with axis 0 of the message block -/

/-- On the one-hot's node axis the left operand's index is the output's row. -/
theorem lhs_scatter_0 (i : S2048x64.Idx) (q : dot_S2048x4096_S4096x64_S2048x64_1_0_0_1_n_n.contr.Idx) :
    (dot_S2048x4096_S4096x64_S2048x64_1_0_0_1_n_n.lhsIdx i q 0).val = (i 0).val := by
  unfold DotDims.lhsIdx
  rw [dif_neg (show ¬(0 : Fin S2048x4096.rank) ∈ dot_S2048x4096_S4096x64_S2048x64_1_0_0_1_n_n.lhsBatch by decide),
    dif_pos (show (0 : Fin S2048x4096.rank) ∈ dot_S2048x4096_S4096x64_S2048x64_1_0_0_1_n_n.lhsNonContracting by decide)]
  rfl

/-- On the one-hot's edge axis, the contracted one, the left operand's index is the contraction position. -/
theorem lhs_scatter_1 (i : S2048x64.Idx) (q : dot_S2048x4096_S4096x64_S2048x64_1_0_0_1_n_n.contr.Idx) :
    (dot_S2048x4096_S4096x64_S2048x64_1_0_0_1_n_n.lhsIdx i q 1).val = (q ⟨0, by decide⟩).val :=
  dot_S2048x4096_S4096x64_S2048x64_1_0_0_1_n_n.lhsIdx_val_of_single rfl i q

/-- On the message block's edge axis, the contracted one, the right operand's index is the contraction position. -/
theorem rhs_scatter_0 (i : S2048x64.Idx) (q : dot_S2048x4096_S4096x64_S2048x64_1_0_0_1_n_n.contr.Idx) :
    (dot_S2048x4096_S4096x64_S2048x64_1_0_0_1_n_n.rhsIdx i q 0).val = (q ⟨0, by decide⟩).val :=
  dot_S2048x4096_S4096x64_S2048x64_1_0_0_1_n_n.rhsIdx_val_of_single rfl i q

/-- On the message block's feature axis the right operand's index is the output's column. -/
theorem rhs_scatter_1 (i : S2048x64.Idx) (q : dot_S2048x4096_S4096x64_S2048x64_1_0_0_1_n_n.contr.Idx) :
    (dot_S2048x4096_S4096x64_S2048x64_1_0_0_1_n_n.rhsIdx i q 1).val = (i 1).val := by
  unfold DotDims.rhsIdx
  rw [dif_neg (show ¬(1 : Fin S4096x64.rank) ∈ dot_S2048x4096_S4096x64_S2048x64_1_0_0_1_n_n.rhsBatch by decide),
    dif_pos (show (1 : Fin S4096x64.rank) ∈ dot_S2048x4096_S4096x64_S2048x64_1_0_0_1_n_n.rhsNonContracting by decide)]
  rfl

/-- The scatter's product into the zero tile at (r, q): the sum over the block's 4096 edges of the one-hot's entry
    (r, e) times the message block's entry (e, q). -/
theorem scatter_matmul_apply (oh : FVec Ideal S2048x4096 .bf16) (m : FVec Ideal S4096x64 .bf16) (r : Fin 2048) (q : Fin 64) :
    matmul dot_S2048x4096_S4096x64_S2048x64_1_0_0_1_n_n none oh m (constant (F := Ideal) S2048x64 .f32 0x00000000#32) (ix2 r q)
      = ∑ e : Fin 4096, oh (ix2 r e) * m (ix2 e q) := by
  simp only [matmul]
  rw [Ideal.matmul_constant_zero_apply,
    ← Equiv.sum_comp (contrEquiv1 dot_S2048x4096_S4096x64_S2048x64_1_0_0_1_n_n 4096 rfl rfl).symm]
  refine Finset.sum_congr rfl fun k _ => ?_
  have hk := contrEquiv1_symm_val dot_S2048x4096_S4096x64_S2048x64_1_0_0_1_n_n 4096 rfl rfl k
  have el : dot_S2048x4096_S4096x64_S2048x64_1_0_0_1_n_n.lhsIdx (ix2 r q)
      ((contrEquiv1 dot_S2048x4096_S4096x64_S2048x64_1_0_0_1_n_n 4096 rfl rfl).symm k) = ix2 r k :=
    funext fun a => Fin.ext (by
      match a with
      | ⟨0, _⟩ => exact lhs_scatter_0 _ _
      | ⟨1, _⟩ => exact (lhs_scatter_1 _ _).trans hk)
  have er : dot_S2048x4096_S4096x64_S2048x64_1_0_0_1_n_n.rhsIdx (ix2 r q)
      ((contrEquiv1 dot_S2048x4096_S4096x64_S2048x64_1_0_0_1_n_n 4096 rfl rfl).symm k) = ix2 k q :=
    funext fun a => Fin.ext (by
      match a with
      | ⟨0, _⟩ => exact (rhs_scatter_0 _ _).trans hk
      | ⟨1, _⟩ => exact rhs_scatter_1 _ _)
  rw [el, er]

/-- The scatter tile at grid point i (i 0 = the node tile): the accumulator's entry plus, over the 4096 edges of the block, the edge's message when node 2048·(i 0) + r is the edge's target word read unsigned. -/
theorem scatter_step (i : grid1.Coords) (rowblk : Vec Ideal S4096 .i32) (msgblk : Vec Ideal S4096x64 .bf16) (acc : Vec Ideal S2048x64 .f32) (r : Fin 2048) (q : Fin 64) :
    k1_pay2 (F := Ideal) i rowblk msgblk acc (ix2 r q)
      = acc (ix2 r q) + ∑ e : Fin 4096, (if 2048 * (i 0).val + r.val = (rowblk (ix1 e)).toNat then (1 : EReal) else 0) * msgblk (ix2 e q) := by
  unfold k1_pay2
  rw [shapeCast_self]
  refine (addf_apply _ _ _).trans ?_
  rw [scatter_matmul_apply]
  refine congrArg (acc (ix2 r q) + ·) (Finset.sum_congr rfl fun e _ => ?_)
  rw [onehot_apply, shapeCast_self]
  have hk : (i 0).val < 49 := (i 0).isLt
  have hr : r.val < 2048 := r.isLt
  simp only [node_word _ _ hk hr]

/-- The scatter accumulator's reset value is the zero tile. -/
theorem scatter_reset (j : S2048x64.Idx) : k1_pay1 (F := Ideal) j = 0 := by
  unfold k1_pay1
  rw [shapeCast_self]
  exact Ideal.ofBits_zero_f32

end Cert.KernelIdeal.Tile

end
-- ==== Proof.Spec.lean ====
/-
  The function both programs compute, as plain mathematics over the extended reals.

  Nodes carry feature rows `x[n, ·]` (n < 100000, 64 features); an edge `e` (e < 1250000) has a target word
  `ei[0, e]` and a source word `ei[1, e]`.  Message passing with sum aggregation gives node `n` the sum, over the
  edges whose target word reads `n`, of the source node's row — a source word that names no node contributing the
  zero row.  Words are compared through their unsigned reading; a target word that is no node index never equals one.
-/
import Idealize.ShloMosaic.PureOps.Ideal
import Idealize.ShloMosaic.Lib.ValueIdx

noncomputable section

namespace Cert.GatherScatter

open Idealize.ShloMosaic Idealize.ShloMosaic.ValueIdx

/-- The node features' shape, the edge list's, and the two padded shapes the tiled kernel works on. -/
abbrev SX : Shape := ⟨2, ![100000, 64]⟩
abbrev SE : Shape := ⟨2, ![2, 1250000]⟩
abbrev SXp : Shape := ⟨2, ![100352, 64]⟩
abbrev SEp : Shape := ⟨1, ![1253376]⟩
abbrev SMp : Shape := ⟨2, ![1253376, 64]⟩

/-- Row `n` of a matrix with `R` rows, read at a natural number: the zero row past the end. -/
def rowOr0 {R : Nat} (x : (⟨2, ![R, 64]⟩ : Shape).Idx → EReal) (n : Nat) (q : Fin 64) : EReal :=
  if h : n < R then x (ix2 ⟨n, h⟩ q) else 0

theorem rowOr0_of_lt {R : Nat} (x : (⟨2, ![R, 64]⟩ : Shape).Idx → EReal) {n : Nat} (h : n < R) (q : Fin 64) :
    rowOr0 x n q = x (ix2 ⟨n, h⟩ q) := dif_pos h

theorem rowOr0_of_ge {R : Nat} (x : (⟨2, ![R, 64]⟩ : Shape).Idx → EReal) {n : Nat} (h : R ≤ n) (q : Fin 64) :
    rowOr0 x n q = 0 := dif_neg (Nat.not_lt.mpr h)

/-- THE RESULT: node `j 0`'s feature `j 1` after one round of sum aggregation. -/
def result (x : SX.Idx → EReal) (ei : SE.Idx → BitVec 32) : SX.Idx → EReal :=
  fun j => ∑ e : Fin 1250000,
    if (ei (ix2 (0 : Fin 2) e)).toNat = (j 0).val then rowOr0 x (ei (ix2 (1 : Fin 2) e)).toNat (j 1) else 0

end Cert.GatherScatter

end
-- ==== Proof.GatherValue.lean ====
/-
  What the first kernel region leaves in its output array, at the ideal values, as one function of the arrays it is
  entered with.

  The region walks a 306 × 49 grid, edge tile i = t / 49 outermost, node tile k = t % 49 innermost.  At point (i, k)
  it reads the 4096 source words of edge tile i and the 2048 padded feature rows of node tile k, and adds to entry
  (r, q) of its accumulator, over those rows n, the row's feature q when the row's number 2048·k + n is the source
  word of edge 4096·i + r; the accumulator starts a row of the grid at the zero tile and is written out, unrounded at
  these values, at k = 48.  Summed over the 49 node tiles, the 49 · 2048 = 100352 one-hot products pick exactly the
  row the word names, or nothing when it names none: so every edge's message is the padded feature row its source
  word names, the zero row otherwise.  The blocks written back at the rows' last points tile the messages array.
  No finiteness is used: sums of extended reals are commutative and associative as they stand.
-/
import proofs.«419025_j49744311222856_1_alg».proof.Proof.Gather
import proofs.«419025_j49744311222856_1_alg».proof.Proof.TileAlgebra
import proofs.«419025_j49744311222856_1_alg».proof.Proof.Spec
import Idealize.ShloMosaic.Lib.Pipeline.Value
import Idealize.ShloMosaic.Lib.ValueIdx

set_option maxRecDepth 16384

noncomputable section

open scoped BigOperators

namespace Cert.KernelIdeal.GatherValue

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx Cert.KernelIdeal.Tile Cert.GatherScatter

variable (V : (c : Dev nD) → (b : Ref sig .tc) → Buf (Elt Ideal) ((c : Thread nD τ).loc b))

/-! ## The grid point's two coordinates and the windows' block indices -/

/-- The edge tile of grid point `t`. -/
theorem coord0_val (t : Fin cfg0.N) : ((grid0.coords t) 0).val = t.val / 49 := by
  show t.val / grid0.stride 0 % 306 = t.val / 49
  rw [show grid0.stride 0 = 49 from by decide]
  have h : t.val < 14994 := lt_of_lt_of_eq t.isLt N_0
  omega

/-- A grid coordinate as a 32-bit word reads back as itself. -/
theorem word_toNat (n : Nat) (h : n < 4294967296) : (BitVec.ofNat 32 n).toNat = n := by
  rw [BitVec.toNat_ofNat]; exact Nat.mod_eq_of_lt h

/-- The source words' block at point `t` is edge tile `t / 49`. -/
theorem srcIndex (t : Fin cfg0.N) : win0_0.index t 0 = t.val / 49 := by
  show (BitVec.ofNat 32 ((grid0.coords t) 0).val).toNat = _
  rw [coord0_val, word_toNat _ (by have h : t.val < 14994 := lt_of_lt_of_eq t.isLt N_0; omega)]

/-- The features' block at point `t` is node tile `t % 49`, all 64 features. -/
theorem featIndex0 (t : Fin cfg0.N) : win0_1.index t 0 = t.val % 49 := by
  show (BitVec.ofNat 32 ((grid0.coords t) 1).val).toNat = _
  rw [Gather.coord1_val, word_toNat _ (by omega)]
theorem featIndex1 (t : Fin cfg0.N) : win0_1.index t 1 = 0 := rfl

/-- The messages' block at point `t` is edge tile `t / 49`, all 64 features. -/
theorem msgIndex0 (t : Fin cfg0.N) : win0_2.index t 0 = t.val / 49 := by
  show (BitVec.ofNat 32 ((grid0.coords t) 0).val).toNat = _
  rw [coord0_val, word_toNat _ (by have h : t.val < 14994 := lt_of_lt_of_eq t.isLt N_0; omega)]
theorem msgIndex1 (t : Fin cfg0.N) : win0_2.index t 1 = 0 := rfl

/-! ## The input blocks read at an index -/

/-- Entry `r` of the source words' block at point `t` is the word of edge `4096·(t / 49) + r`. -/
theorem src_blk_apply (c : Dev nD) (t : Fin cfg0.N) (r : Fin 4096) (k : Fin 1253376) (hk : k.val = 4096 * (t.val / 49) + r.val) :
    (Gather.blk V c 0 t : Vec Ideal S4096 .i32) (ix1 r) = (V c main_v4 : IVec S1253376 32) (ix1 k) := by
  show V c main_v4 (((cfg0.win 0).blk t).view.emb (ix1 r)) = V c main_v4 (ix1 k)
  refine congrArg _ (funext fun a => Fin.ext ?_)
  match a with
  | ⟨0, _⟩ =>
    show win0_0.index t 0 * 4096 + 1 * r.val = k.val
    rw [srcIndex, hk]; omega

/-- Entry `(n, q)` of the features' block at point `t` is feature `q` of padded row `2048·(t % 49) + n`. -/
theorem feat_blk_apply (c : Dev nD) (t : Fin cfg0.N) (n : Fin 2048) (q : Fin 64) (k : Fin 100352) (hk : k.val = 2048 * (t.val % 49) + n.val) :
    (Gather.blk V c 1 t : Vec Ideal S2048x64 .bf16) (ix2 n q) = (V c main_v7 : FVec Ideal S100352x64 .bf16) (ix2 k q) := by
  show V c main_v7 (((cfg0.win 1).blk t).view.emb (ix2 n q)) = V c main_v7 (ix2 k q)
  refine congrArg _ (funext fun a => Fin.ext ?_)
  match a with
  | ⟨0, _⟩ =>
    show win0_1.index t 0 * 2048 + 1 * n.val = k.val
    rw [featIndex0, hk]; omega
  | ⟨1, _⟩ =>
    show win0_1.index t 1 * 64 + 1 * q.val = q.val
    rw [featIndex1]; omega

/-! ## One row picked by the one-hot sums -/

/-- Over the 49 node tiles of 2048 rows each, the one-hot of "row 2048·s + n is w" picks row `w` of the padded table, and
    the zero row when `w` names none of its 100352 rows: one product survives, and `1 · x = x`, `0 · x = 0` hold for every
    extended real. -/
theorem pick_row (x : (⟨2, ![100352, 64]⟩ : Shape).Idx → EReal) (w : Nat) (q : Fin 64) :
    ∑ s ∈ Finset.range 49, ∑ n : Fin 2048, (if 2048 * s + n.val = w then (1 : EReal) else 0) * rowOr0 x (2048 * s + n.val) q
      = rowOr0 x w q := by
  have term : ∀ (s : Nat) (n : Fin 2048), (if 2048 * s + n.val = w then (1 : EReal) else 0) * rowOr0 x (2048 * s + n.val) q
      = if 2048 * s + n.val = w then rowOr0 x w q else 0 := by
    intro s n
    by_cases h : 2048 * s + n.val = w
    · rw [if_pos h, if_pos h, one_mul, h]
    · rw [if_neg h, if_neg h, zero_mul]
  have inner : ∀ s : Nat, ∑ n : Fin 2048, (if 2048 * s + n.val = w then rowOr0 x w q else 0)
      = if w / 2048 = s then rowOr0 x w q else 0 := by
    intro s
    by_cases hs : w / 2048 = s
    · rw [if_pos hs]
      have hiff : ∀ n : Fin 2048, (2048 * s + n.val = w) ↔ (⟨w % 2048, Nat.mod_lt _ (by decide)⟩ : Fin 2048) = n := by
        intro n
        constructor
        · intro h; apply Fin.ext; show w % 2048 = n.val; omega
        · intro h
          have h' : w % 2048 = n.val := congrArg Fin.val h
          omega
      simp only [hiff]
      rw [Finset.sum_ite_eq, if_pos (Finset.mem_univ _)]
    · rw [if_neg hs]
      refine Finset.sum_eq_zero fun n _ => if_neg ?_
      have := n.isLt; omega
  simp only [term, inner]
  rw [Finset.sum_ite_eq]
  by_cases hw : w < 100352
  · rw [if_pos (Finset.mem_range.mpr (by omega))]
  · rw [if_neg (by rw [Finset.mem_range]; omega), rowOr0_of_ge x (by omega)]

/-! ## One grid point's addend, and the accumulator along a row of the grid -/

/-- Edge `k`'s source word read unsigned (0 past the padded edge list's end, which no point reads). -/
def srcAt (c : Dev nD) (k : Nat) : Nat :=
  if h : k < 1253376 then ((V c main_v4 : IVec S1253376 32) (ix1 ⟨k, h⟩)).toNat else 0

/-- The tile step at grid point `t`, on the blocks the point reads: entry (r, q) gains, over the 2048 rows of node tile
    `t % 49`, the row's feature when the row's number is the source word of edge `4096·(t / 49) + r`. -/
theorem point_step (c : Dev nD) (t : Fin cfg0.N) (prev : Vec Ideal S4096x64 .f32) (r : Fin 4096) (q : Fin 64) :
    k0_pay2 (F := Ideal) (grid0.coords t) (Gather.blk V c 0 t) (Gather.blk V c 1 t) prev (ix2 r q)
      = prev (ix2 r q) + ∑ n : Fin 2048,
          (if 2048 * (t.val % 49) + n.val = srcAt V c (4096 * (t.val / 49) + r.val) then (1 : EReal) else 0)
            * rowOr0 (R := 100352) (V c main_v7 : FVec Ideal S100352x64 .bf16) (2048 * (t.val % 49) + n.val) q := by
  have ht : t.val < 14994 := lt_of_lt_of_eq t.isLt N_0
  have hk : 4096 * (t.val / 49) + r.val < 1253376 := by have := r.isLt; omega
  refine (gather_step (grid0.coords t) (Gather.blk V c 0 t) (Gather.blk V c 1 t) prev r q).trans ?_
  refine congrArg (prev (ix2 r q) + ·) (Finset.sum_congr rfl fun n _ => ?_)
  have hn : 2048 * (t.val % 49) + n.val < 100352 := by have := n.isLt; omega
  rw [Gather.coord1_val, src_blk_apply V c t r ⟨_, hk⟩ rfl, feat_blk_apply V c t n q ⟨_, hn⟩ rfl, rowOr0_of_lt _ hn]
  unfold srcAt
  rw [dif_pos hk]

/-- The accumulator does not depend on how its point is written. -/
theorem acc_congr (c : Dev nD) {n n' : Nat} (e : n = n') (h : n < cfg0.N) (h' : n' < cfg0.N) :
    Gather.acc V c n h = Gather.acc V c n' h' := by
  subst e; rfl

/-- THE ACCUMULATOR ALONG ROW `i` OF THE GRID: after node tile `j`, entry (r, q) is the sum over the node tiles
    `0 … j` of their addends — the zero tile at the row's first point, each later point adding its own. -/
theorem acc_row (c : Dev nD) (i : Nat) (r : Fin 4096) (q : Fin 64) :
    ∀ (j : Nat) (hj : j < 49) (h : 49 * i + j < cfg0.N),
      Gather.acc V c (49 * i + j) h (ix2 r q)
        = ∑ s ∈ Finset.range (j + 1), ∑ n : Fin 2048,
            (if 2048 * s + n.val = srcAt V c (4096 * i + r.val) then (1 : EReal) else 0)
              * rowOr0 (R := 100352) (V c main_v7 : FVec Ideal S100352x64 .bf16) (2048 * s + n.val) q
  | 0, hj, h => by
    have hm : (49 * i + 0) % 49 = 0 := by omega
    have hd : (49 * i + 0) / 49 = i := by omega
    rw [Gather.acc_first V c ⟨49 * i + 0, h⟩ hm]
    refine (point_step V c ⟨49 * i + 0, h⟩ _ r q).trans ?_
    rw [gather_reset, zero_add, Finset.sum_range_one]
    simp only [hm, hd]
  | j + 1, hj, h => by
    have hm : (49 * i + (j + 1)) % 49 = j + 1 := by omega
    have hd : (49 * i + (j + 1)) / 49 = i := by omega
    rw [Gather.acc_next V c ⟨49 * i + (j + 1), h⟩ (by show ¬(49 * i + (j + 1)) % 49 = 0; omega)]
    refine (point_step V c ⟨49 * i + (j + 1), h⟩ _ r q).trans ?_
    rw [Finset.sum_range_succ _ (j + 1),
      acc_congr V c (show 49 * i + (j + 1) - 1 = 49 * i + j by omega) _ (Nat.lt_of_succ_lt h),
      acc_row c i r q j (Nat.lt_of_succ_lt hj) _]
    simp only [hm, hd]

/-! ## From the blocks to the array -/

/-- What the messages array ends holding: at (e, q), feature `q` of the padded row edge `e`'s source word names. -/
def msgs (c : Dev nD) : S1253376x64.Idx → EReal :=
  fun i => rowOr0 (R := 100352) (V c main_v7 : FVec Ideal S100352x64 .bf16) (srcAt V c (i 0).val) (i 1)

/-- WHAT A ROW'S LAST POINT WRITES BACK is its block of `msgs`: the accumulator after the row's 49 node tiles,
    written out unrounded, has picked for each edge of the tile the row its source word names. -/
theorem written_eq (c : Dev nD) (t : Fin cfg0.N) (hl : t.val % 49 = 48) :
    (Gather.dat V c).flushed 2 t = ((cfg0.win 2).blk t).view.read (Elt Ideal) (msgs V c) := by
  show (cfg0.win 2).cut (grid0.coords t) ((Gather.dat V c).after 2 t) = _
  rw [Gather.after2]
  funext y
  obtain ⟨r, q, rfl⟩ : ∃ (r : Fin 4096) (q : Fin 64), y = ix2 r q := ⟨y 0, y 1, eq_ix2 (n0 := 4096) (n1 := 64) y⟩
  have ht : t.val < 14994 := lt_of_lt_of_eq t.isLt N_0
  have hk : 4096 * (t.val / 49) + r.val < 1253376 := by have := r.isLt; omega
  have hemb : ((cfg0.win 2).blk t).view.emb (ix2 r q) = (ix2 (⟨4096 * (t.val / 49) + r.val, hk⟩ : Fin 1253376) q : S1253376x64.Idx) :=
    funext fun a => Fin.ext (by
      match a with
      | ⟨0, _⟩ =>
        show win0_2.index t 0 * 4096 + 1 * r.val = 4096 * (t.val / 49) + r.val
        rw [msgIndex0]; omega
      | ⟨1, _⟩ =>
        show win0_2.index t 1 * 64 + 1 * q.val = q.val
        rw [msgIndex1]; omega)
  show k0_pay3 (F := Ideal) (Gather.acc V c t.val t.isLt) (ix2 r q) = msgs V c (((cfg0.win 2).blk t).view.emb (ix2 r q))
  rw [hemb, gather_emit,
    acc_congr V c (show t.val = 49 * (t.val / 49) + 48 by omega) t.isLt
      (lt_of_lt_of_eq (show 49 * (t.val / 49) + 48 < 14994 by omega) N_0.symm),
    acc_row V c (t.val / 49) r q 48 (by decide) _, pick_row]
  rfl

/-- Every entry of the messages array lies in the block some row's last point writes back: edge `e`'s in that of edge
    tile `e / 4096`. -/
theorem covered (i : S1253376x64.Idx) :
    ∃ t : Fin cfg0.N, (cfg0.win 2).flush t = true ∧ i ∈ ((cfg0.win 2).blk t).view.set := by
  have h0 : (i 0).val < 1253376 := (i 0).isLt
  have h1 : (i 1).val < 64 := (i 1).isLt
  have hN : cfg0.N = 14994 := N_0
  have hlt : 49 * ((i 0).val / 4096) + 48 < cfg0.N := by rw [hN]; omega
  refine ⟨⟨49 * ((i 0).val / 4096) + 48, hlt⟩, (flush0_2 _).mpr (by show (49 * ((i 0).val / 4096) + 48) % 49 = 48; omega), ?_⟩
  show i ∈ ((View.whole main_v8).slice (win0_2.rect ⟨49 * ((i 0).val / 4096) + 48, hlt⟩)).set
  rw [View.set_slice_whole, Rect.mem_set_unit]
  intro a
  match a with
  | ⟨0, _⟩ =>
    show win0_2.index ⟨49 * ((i 0).val / 4096) + 48, hlt⟩ 0 * 4096 ≤ (i 0).val
      ∧ (i 0).val < win0_2.index ⟨49 * ((i 0).val / 4096) + 48, hlt⟩ 0 * 4096 + 4096
    rw [msgIndex0]
    show (49 * ((i 0).val / 4096) + 48) / 49 * 4096 ≤ (i 0).val ∧ (i 0).val < (49 * ((i 0).val / 4096) + 48) / 49 * 4096 + 4096
    omega
  | ⟨1, _⟩ =>
    show win0_2.index ⟨49 * ((i 0).val / 4096) + 48, hlt⟩ 1 * 64 ≤ (i 1).val
      ∧ (i 1).val < win0_2.index ⟨49 * ((i 0).val / 4096) + 48, hlt⟩ 1 * 64 + 64
    rw [msgIndex1]
    omega

/-- THE MESSAGES: edge e's message is the padded feature row its source word names (read unsigned), the zero row when the word names no row of the padded table. -/
theorem messages (c : Dev nD) (e : Fin 1253376) (q : Fin 64) :
    ((Gather.dat (F := Ideal) V c).arrAt 2 cfg0.N : FVec Ideal S1253376x64 .bf16) (ix2 e q)
      = Cert.GatherScatter.rowOr0 (R := 100352) (V c main_v7 : FVec Ideal S100352x64 .bf16) ((V c main_v4 : IVec S1253376 32) (ix1 e)).toNat q := by
  rw [(Gather.dat V c).arrAt_eq_of_cover 2 (msgs V c) (fun t hf => written_eq V c t ((flush0_2 t).mp hf)) covered]
  show rowOr0 _ (srcAt V c e.val) q = _
  unfold srcAt
  rw [dif_pos e.isLt]

end Cert.KernelIdeal.GatherValue

end
-- ==== Proof.ScatterValue.lean ====
/-
  What the second kernel region (the scatter-add) leaves in its output array, at the ideal values, as one function of
  the arrays it is entered with.

  The grid is 49 × 306: node tile `i = t / 306` outermost, edge tile `k = t % 306` innermost.  At point `t` the body
  adds, to entry `(r, q)` of the accumulator, the messages' feature `q` over the 4096 edges of tile `k` whose target
  word reads node `2048·i + r`; the accumulator starts a row from the zero tile and is written to the output's block
  of node tile `i` at the row's last point.  So after a row the accumulator holds the sum over all 306 edge tiles,
  and 306 tiles of 4096 edges are the 1253376 padded edges: entry `(n, q)` of the output is the sum over all padded
  edges whose target word reads `n` of the edge's message.  Sums of extended reals are commutative and associative,
  so no finiteness is used.
-/
import proofs.«419025_j49744311222856_1_alg».proof.Proof.Scatter
import proofs.«419025_j49744311222856_1_alg».proof.Proof.TileAlgebra
import proofs.«419025_j49744311222856_1_alg».proof.Proof.Spec
import Idealize.ShloMosaic.Lib.Pipeline.Value
import Idealize.ShloMosaic.Lib.ValueIdx
import Mathlib.Data.Fintype.BigOperators
import Mathlib.Logic.Equiv.Fin.Basic

set_option maxRecDepth 16384

noncomputable section

open scoped BigOperators

namespace Cert.KernelIdeal.ScatterValue

open Idealize.ShloMosaic Idealize.ShloMosaic.TcCoe
open Idealize.SL Idealize.SL.Sem
open Idealize.ShloMosaic.Pipeline (Dat Cfg Window)
open Cert.KernelIdeal Cert.KernelIdeal.Gen
open Idealize.ShloMosaic.ValueIdx Cert.KernelIdeal.Tile

/-! ## A sum over consecutive blocks -/

/-- A sum over `m · n` consecutive naturals is the sum, over `m` blocks of `n`, of the sums inside the blocks. -/
theorem sum_blocks {β : Type*} [AddCommMonoid β] (m n N : Nat) (hN : N = m * n) (F : Nat → β) :
    ∑ j : Fin N, F j.val = ∑ s ∈ Finset.range m, ∑ e : Fin n, F (n * s + e.val) := by
  subst hN
  rw [← Fin.sum_univ_eq_sum_range (fun s => ∑ e : Fin n, F (n * s + e.val)) m,
    ← Equiv.sum_comp finProdFinEquiv (fun j : Fin (m * n) => F j.val), Fintype.sum_prod_type]
  refine Finset.sum_congr rfl fun s _ => Finset.sum_congr rfl fun e _ => ?_
  show F (e.val + n * s.val) = F (n * s.val + e.val)
  rw [Nat.add_comm]

variable (V : (c : Dev nD) → (b : Ref sig .tc) → Buf (Elt Ideal) ((c : Thread nD τ).loc b))

/-! ## The two input arrays at a natural-number position -/

/-- The target word of padded edge `j`; the zero word past the end (never read there). -/
def rowN (c : Dev nD) (j : Nat) : BitVec 32 :=
  if h : j < 1253376 then (V c main_v5 : IVec S1253376 32) (ix1 ⟨j, h⟩) else 0#32

/-- Feature `q` of padded edge `j`'s message; zero past the end (never read there). -/
def msgN (c : Dev nD) (j : Nat) (q : Fin 64) : EReal :=
  if h : j < 1253376 then (V c main_v8 : FVec Ideal S1253376x64 .bf16) (ix2 ⟨j, h⟩ q) else 0

/-- What edge tile `s` adds to entry `(r, q)` of node tile `i`'s accumulator: the messages of the tile's 4096
    edges whose target word reads node `2048·i + r`. -/
def tileSum (c : Dev nD) (i s : Nat) (r : Fin 2048) (q : Fin 64) : EReal :=
  ∑ e : Fin 4096, (if 2048 * i + r.val = (rowN V c (4096 * s + e.val)).toNat then (1 : EReal) else 0)
    * msgN V c (4096 * s + e.val) q

/-- THE AGGREGATE of node `n`, feature `q`: the sum over all padded edges whose target word reads `n` of the
    edge's message. -/
def agg (c : Dev nD) (n : Nat) (q : Fin 64) : EReal :=
  ∑ e : Fin 1253376, if ((V c main_v5 : IVec S1253376 32) (ix1 e)).toNat = n
    then (V c main_v8 : FVec Ideal S1253376x64 .bf16) (ix2 e q) else 0

/-- The 306 edge tiles' sums make up the aggregate. -/
theorem sum_tileSum (c : Dev nD) (i : Nat) (r : Fin 2048) (q : Fin 64) :
    ∑ s ∈ Finset.range 306, tileSum V c i s r q = agg V c (2048 * i + r.val) q := by
  unfold tileSum agg
  rw [← sum_blocks 306 4096 1253376 (by norm_num)
    (fun j => (if 2048 * i + r.val = (rowN V c j).toNat then (1 : EReal) else 0) * msgN V c j q)]
  refine Finset.sum_congr rfl fun e _ => ?_
  rw [rowN, msgN, dif_pos e.isLt, dif_pos e.isLt]
  by_cases h : ((V c main_v5 : IVec S1253376 32) (ix1 e)).toNat = 2048 * i + r.val
  · rw [if_pos h, if_pos h.symm, one_mul]
  · rw [if_neg h, if_neg (fun h' => h h'.symm), zero_mul]

/-! ## The grid's coordinates and the windows' block indices at a point -/

theorem N_val : cfg1.N = 14994 := N_1

/-- The node tile of grid point `t`. -/
theorem coord0_val (t : Fin cfg1.N) : ((grid1.coords t) 0).val = t.val / 306 := by
  show t.val / grid1.stride 0 % 49 = t.val / 306
  rw [show grid1.stride 0 = 306 from by decide]
  have h : t.val < 14994 := N_val ▸ t.isLt
  exact Nat.mod_eq_of_lt (by omega)

/-- The target words' window sits at the edge tile. -/
theorem index0 (t : Fin cfg1.N) : win1_0.index t (0 : Fin 1) = t.val % 306 := by
  show (BitVec.ofNat 32 ((grid1.coords t) 1).val).toNat = _
  rw [Scatter.coord1_val, BitVec.toNat_ofNat]
  exact Nat.mod_eq_of_lt (by omega)

/-- The messages' window sits at the edge tile, -/
theorem index1_0 (t : Fin cfg1.N) : win1_1.index t (0 : Fin 2) = t.val % 306 := by
  show (BitVec.ofNat 32 ((grid1.coords t) 1).val).toNat = _
  rw [Scatter.coord1_val, BitVec.toNat_ofNat]
  exact Nat.mod_eq_of_lt (by omega)

/-- over all 64 features. -/
theorem index1_1 (t : Fin cfg1.N) : win1_1.index t (1 : Fin 2) = 0 := rfl

/-- The output's window sits at the node tile, -/
theorem index2_0 (t : Fin cfg1.N) : win1_2.index t (0 : Fin 2) = t.val / 306 := by
  show (BitVec.ofNat 32 ((grid1.coords t) 0).val).toNat = _
  rw [coord0_val, BitVec.toNat_ofNat]
  have h : t.val < 14994 := N_val ▸ t.isLt
  exact Nat.mod_eq_of_lt (by omega)

/-- over all 64 features. -/
theorem index2_1 (t : Fin cfg1.N) : win1_2.index t (1 : Fin 2) = 0 := rfl

/-! ## The input blocks read at an index -/

/-- Entry `r` of the target words' block at point `t` is padded edge `4096·k + r`'s word, `k` the edge tile. -/
theorem blk0_apply (c : Dev nD) (t : Fin cfg1.N) (r : Fin 4096) :
    (Scatter.blk (F := Ideal) V c 0 t : IVec S4096 32) (ix1 r) = rowN V c (4096 * (t.val % 306) + r.val) := by
  have hb : 4096 * (t.val % 306) + r.val < 1253376 := by
    have := Nat.mod_lt t.val (show 0 < 306 by decide); omega
  rw [rowN, dif_pos hb]
  show (V c main_v5 : IVec S1253376 32) (((cfg1.win 0).blk t).view.emb (ix1 r)) = _
  refine congrArg _ (funext fun a => Fin.ext ?_)
  match a with
  | ⟨0, _⟩ =>
    show win1_0.index t (0 : Fin 1) * 4096 + 1 * r.val = 4096 * (t.val % 306) + r.val
    rw [index0]; omega

/-- Entry `(r, q)` of the messages' block at point `t` is feature `q` of padded edge `4096·k + r`'s message. -/
theorem blk1_apply (c : Dev nD) (t : Fin cfg1.N) (r : Fin 4096) (q : Fin 64) :
    (Scatter.blk (F := Ideal) V c 1 t : FVec Ideal S4096x64 .bf16) (ix2 r q)
      = msgN V c (4096 * (t.val % 306) + r.val) q := by
  have hb : 4096 * (t.val % 306) + r.val < 1253376 := by
    have := Nat.mod_lt t.val (show 0 < 306 by decide); omega
  rw [msgN, dif_pos hb]
  show (V c main_v8 : FVec Ideal S1253376x64 .bf16) (((cfg1.win 1).blk t).view.emb (ix2 r q)) = _
  refine congrArg _ (funext fun a => Fin.ext ?_)
  match a with
  | ⟨0, _⟩ =>
    show win1_1.index t (0 : Fin 2) * 4096 + 1 * r.val = 4096 * (t.val % 306) + r.val
    rw [index1_0]; omega
  | ⟨1, _⟩ =>
    show win1_1.index t (1 : Fin 2) * 64 + 1 * q.val = q.val
    rw [index1_1]; omega

/-! ## The accumulator along a row of the grid -/

/-- ONE POINT: the body's tile arithmetic at point `t`, on the two blocks the point reads, adds edge tile
    `t % 306`'s sum for node tile `t / 306` to what it is given. -/
theorem point_step (c : Dev nD) (t : Fin cfg1.N) (prev : Vec Ideal S2048x64 .f32) (r : Fin 2048) (q : Fin 64) :
    k1_pay2 (F := Ideal) (grid1.coords t) (Scatter.blk V c 0 t) (Scatter.blk V c 1 t) prev (ix2 r q)
      = prev (ix2 r q) + tileSum V c (t.val / 306) (t.val % 306) r q := by
  refine (scatter_step (grid1.coords t) (Scatter.blk V c 0 t) (Scatter.blk V c 1 t) prev r q).trans ?_
  rw [coord0_val]
  refine congrArg (prev (ix2 r q) + ·) (Finset.sum_congr rfl fun e _ => ?_)
  rw [blk0_apply, blk1_apply]

/-- The accumulator does not depend on how its point is written. -/
theorem acc_congr (c : Dev nD) {a b : Nat} (h : a = b) (ha : a < cfg1.N) (hb : b < cfg1.N) :
    Scatter.acc (F := Ideal) V c a ha = Scatter.acc V c b hb := by
  subst h; rfl

/-- THE ROW'S FOLD: after edge tile `k` of node tile `i`'s row the accumulator holds the sums of edge tiles
    `0 … k`. By induction on `k`: the first point of the row adds its tile's sum to the zero tile, every later
    one to what the point before left. -/
theorem acc_row (c : Dev nD) (i : Nat) (r : Fin 2048) (q : Fin 64) :
    ∀ (k : Nat) (_ : k < 306) (h : 306 * i + k < cfg1.N),
      (Scatter.acc (F := Ideal) V c (306 * i + k) h : FVec Ideal S2048x64 .f32) (ix2 r q)
        = ∑ s ∈ Finset.range (k + 1), tileSum V c i s r q
  | 0, _, h => by
    have hm : (⟨306 * i + 0, h⟩ : Fin cfg1.N).val % 306 = 0 := by show (306 * i + 0) % 306 = 0; omega
    have e := Scatter.acc_first (F := Ideal) V c ⟨306 * i + 0, h⟩ hm
    refine (congrFun e (ix2 r q)).trans ((point_step V c ⟨306 * i + 0, h⟩ _ r q).trans ?_)
    rw [scatter_reset, zero_add, Finset.sum_range_one]
    show tileSum V c ((306 * i + 0) / 306) ((306 * i + 0) % 306) r q = _
    rw [show (306 * i + 0) / 306 = i by omega, show (306 * i + 0) % 306 = 0 by omega]
  | k + 1, hk, h => by
    have hm : ¬(⟨306 * i + (k + 1), h⟩ : Fin cfg1.N).val % 306 = 0 := by
      show ¬(306 * i + (k + 1)) % 306 = 0; omega
    have e := Scatter.acc_next (F := Ideal) V c ⟨306 * i + (k + 1), h⟩ hm
    have hp : 306 * i + k < cfg1.N := Nat.lt_of_succ_lt h
    refine (congrFun e (ix2 r q)).trans ((point_step V c ⟨306 * i + (k + 1), h⟩ _ r q).trans ?_)
    rw [acc_congr V c (show (⟨306 * i + (k + 1), h⟩ : Fin cfg1.N).val - 1 = 306 * i + k from by
        show 306 * i + (k + 1) - 1 = 306 * i + k; omega) _ hp,
      acc_row c i r q k (Nat.lt_of_succ_lt hk) hp, Finset.sum_range_succ _ (k + 1)]
    show _ + tileSum V c ((306 * i + (k + 1)) / 306) ((306 * i + (k + 1)) % 306) r q = _
    rw [show (306 * i + (k + 1)) / 306 = i by omega, show (306 * i + (k + 1)) % 306 = k + 1 by omega]

/-! ## The output array -/

/-- What the region leaves in the output array, as a function of the index: the aggregate of the index's node and
    feature. -/
def G (c : Dev nD) : FVec Ideal S100352x64 .f32 := fun j => agg V c (j 0).val (j 1)

theorem G_of (c : Dev nD) (j : S100352x64.Idx) (n : Nat) (q : Fin 64) (h0 : (j 0).val = n) (h1 : (j 1).val = q.val) :
    G V c j = agg V c n q := by
  unfold G
  have e1 : (j 1 : Fin 64) = q := Fin.ext h1
  rw [h0, e1]

/-- At a row's last point the accumulator's entry `(r, q)` is the aggregate of the node under it in the output's
    block: all 306 edge tiles have been added. -/
theorem out_entry (c : Dev nD) (t : Fin cfg1.N) (hf : t.val % 306 = 305) (r : Fin 2048) (q : Fin 64) :
    (Scatter.acc (F := Ideal) V c t.val t.isLt : FVec Ideal S2048x64 .f32) (ix2 r q)
      = G V c (((cfg1.win 2).blk t).view.emb (ix2 r q)) := by
  have ht : t.val = 306 * (t.val / 306) + 305 := by omega
  have hlt : 306 * (t.val / 306) + 305 < cfg1.N := by have := t.isLt; omega
  rw [acc_congr V c ht t.isLt hlt, acc_row V c (t.val / 306) r q 305 (by decide) hlt, sum_tileSum]
  refine (G_of V c _ (2048 * (t.val / 306) + r.val) q ?_ ?_).symm
  · show win1_2.index t (0 : Fin 2) * 2048 + 1 * r.val = _
    rw [index2_0]; omega
  · show win1_2.index t (1 : Fin 2) * 64 + 1 * q.val = _
    rw [index2_1]; omega

theorem out_block (c : Dev nD) (t : Fin cfg1.N) (hf : t.val % 306 = 305) (y : S2048x64.Idx) :
    (Scatter.acc (F := Ideal) V c t.val t.isLt : FVec Ideal S2048x64 .f32) y
      = G V c (((cfg1.win 2).blk t).view.emb y) := by
  have e := eq_ix2 y
  rw [e]
  exact out_entry V c t hf (y 0) (y 1)

/-- The output's block at point `t`, read off array contents `f`, is `f` at the block's entries' places in the array. -/
theorem read_out (f : FVec Ideal S100352x64 .f32) (t : Fin cfg1.N) (y : ((cfg1.win 2).xblock (grid1.coords t)).Idx) :
    ((cfg1.win 2).blk t).view.read (Elt Ideal) f y = f (((cfg1.win 2).blk t).view.emb y) := rfl

/-- WHAT A ROW'S LAST POINT WRITES BACK is its block of `G`. -/
theorem flushed_eq (c : Dev nD) (t : Fin cfg1.N) (hf : t.val % 306 = 305) :
    (Scatter.dat (F := Ideal) V c).flushed 2 t = ((cfg1.win 2).blk t).view.read (Elt Ideal) (G V c) := by
  show (cfg1.win 2).cut (grid1.coords t) ((Scatter.dat (F := Ideal) V c).after 2 t) = _
  rw [Scatter.after2]
  funext y
  rw [read_out]
  exact out_block V c t hf y

/-- An index of the output array is in point `t`'s block iff each coordinate is in the block's range on its axis. -/
theorem mem_out (t : Fin cfg1.N) (j : S100352x64.Idx) :
    j ∈ ((cfg1.win 2).blk t).view.set ↔ ∀ a : Fin 2, win1_2.index t a * S2048x64.size a ≤ (j a).val
      ∧ (j a).val < win1_2.index t a * S2048x64.size a + S2048x64.size a := by
  show j ∈ ((View.whole main_v9).slice (win1_2.rect t)).set ↔ _
  rw [View.set_slice_whole, Rect.mem_set_unit]
  exact Iff.rfl

/-- Every index of the output array lies in the block of its node tile's last point. -/
theorem covered (j : S100352x64.Idx) :
    ∃ t : Fin cfg1.N, (cfg1.win 2).flush t = true ∧ j ∈ ((cfg1.win 2).blk t).view.set := by
  have h0 : (j 0).val < 100352 := (j 0).isLt
  have h1 : (j 1).val < 64 := (j 1).isLt
  have hN : 306 * ((j 0).val / 2048) + 305 < cfg1.N := by rw [N_val]; omega
  refine ⟨⟨306 * ((j 0).val / 2048) + 305, hN⟩,
    (flush1_2 _).mpr (by show (306 * ((j 0).val / 2048) + 305) % 306 = 305; omega), ?_⟩
  rw [mem_out]
  intro a
  match a with
  | ⟨0, _⟩ =>
    show win1_2.index _ (0 : Fin 2) * 2048 ≤ (j 0).val ∧ (j 0).val < win1_2.index _ (0 : Fin 2) * 2048 + 2048
    rw [index2_0]
    show (306 * ((j 0).val / 2048) + 305) / 306 * 2048 ≤ (j 0).val
      ∧ (j 0).val < (306 * ((j 0).val / 2048) + 305) / 306 * 2048 + 2048
    omega
  | ⟨1, _⟩ =>
    show win1_2.index _ (1 : Fin 2) * 64 ≤ (j 1).val ∧ (j 1).val < win1_2.index _ (1 : Fin 2) * 64 + 64
    rw [index2_1]; omega

/-- THE ARRAY after the region: `G`. -/
theorem final (c : Dev nD) : (Scatter.dat (F := Ideal) V c).arrAt 2 cfg1.N = G V c :=
  (Scatter.dat (F := Ideal) V c).arrAt_eq_of_cover 2 (G V c) (fun t hf => flushed_eq V c t ((flush1_2 t).mp hf)) covered

/-- THE AGGREGATE: node n's padded output row is the sum, over all padded edges whose target word (read unsigned) is n, of the edge's message. -/
theorem aggregate (c : Dev nD) (n : Fin 100352) (q : Fin 64) :
    ((Scatter.dat (F := Ideal) V c).arrAt 2 cfg1.N : FVec Ideal S100352x64 .f32) (ix2 n q)
      = (∑ e : Fin 1253376, if ((V c main_v5 : IVec S1253376 32) (ix1 e)).toNat = n.val then (V c main_v8 : FVec Ideal S1253376x64 .bf16) (ix2 e q) else 0 : EReal) :=
by
  refine (congrFun (final V c) (ix2 n q)).trans ((G_of V c (ix2 n q) n.val q rfl rfl).trans ?_)
  unfold agg
  rfl

end Cert.KernelIdeal.ScatterValue

end
-- ==== Proof.HostGlue.lean ====
/-
  What the host operations around the two kernel regions leave in the buffers, read at an index, at the ideal
  values: the two rows of the edge list, each flattened and padded behind with the word -1; the features, in the
  narrower float format (the same extended real) and padded below with zero rows; and the result, the leading rows
  of the second region's output.
-/
import proofs.«419025_j49744311222856_1_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal

noncomputable section

namespace Cert.KernelIdeal.Glue

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

abbrev eiOf (c : Dev nD) : IVec S2x1250000 32 := m ((c : Thread nD τ).loc main_arg1)
abbrev xOf (c : Dev nD) : FVec Ideal S100000x64 .f32 := m ((c : Thread nD τ).loc main_arg0)

/-! ## Layout operations read at an index -/

section Generic
variable {α : Type}

/-- A vector of 1250000 entries padded behind with 3376 copies of one value: the entry inside, the value outside. -/
theorem pad1_apply (x : S1250000.Idx → α) (v : S_.Idx → α) (h : S1250000.Pads ![0] ![3376] ![0] S1253376)
    (hu : 0 < S_.numel) (e : Fin 1253376) :
    pad S1253376 ![0] ![3376] ![0] x v h hu (ix1 e)
      = if h' : e.val < 1250000 then x (ix1 ⟨e.val, h'⟩) else v ix0 := by
  unfold pad
  by_cases h' : e.val < 1250000
  · rw [dif_pos h', dif_pos]
    · refine congrArg x (funext fun a => ?_)
      match a with
      | ⟨0, _⟩ => exact Fin.ext (by show (e.val - 0) / (0 + 1) = e.val; omega)
    · intro a
      match a with
      | ⟨0, _⟩ => show 0 ≤ e.val ∧ (e.val - 0) % (0 + 1) = 0 ∧ (e.val - 0) / (0 + 1) < 1250000; omega
  · rw [dif_neg h', dif_neg]
    · exact congrArg v (eq_ix0 _)
    · intro hin
      have h0 := (hin ⟨0, by decide⟩).2.2
      have h1 : (e.val - 0) / (0 + 1) < 1250000 := h0
      omega

/-- A matrix of 100000 rows padded below with 352 rows of one value: the row inside, the value outside. -/
theorem pad2_apply (x : S100000x64.Idx → α) (v : S_.Idx → α)
    (h : S100000x64.Pads ![0, 0] ![352, 0] ![0, 0] S100352x64) (hu : 0 < S_.numel) (n : Fin 100352) (q : Fin 64) :
    pad S100352x64 ![0, 0] ![352, 0] ![0, 0] x v h hu (ix2 n q)
      = if h' : n.val < 100000 then x (ix2 ⟨n.val, h'⟩ q) else v ix0 := by
  unfold pad
  by_cases h' : n.val < 100000
  · rw [dif_pos h', dif_pos]
    · refine congrArg x (funext fun a => ?_)
      match a with
      | ⟨0, _⟩ => exact Fin.ext (by show (n.val - 0) / (0 + 1) = n.val; omega)
      | ⟨1, _⟩ => exact Fin.ext (by show (q.val - 0) / (0 + 1) = q.val; omega)
    · intro a
      match a with
      | ⟨0, _⟩ => show 0 ≤ n.val ∧ (n.val - 0) % (0 + 1) = 0 ∧ (n.val - 0) / (0 + 1) < 100000; omega
      | ⟨1, _⟩ =>
        have := q.isLt
        show 0 ≤ q.val ∧ (q.val - 0) % (0 + 1) = 0 ∧ (q.val - 0) / (0 + 1) < 64; omega
  · rw [dif_neg h', dif_neg]
    · exact congrArg v (eq_ix0 _)
    · intro hin
      have h0 := (hin ⟨0, by decide⟩).2.2
      have h1 : (n.val - 0) / (0 + 1) < 100000 := h0
      omega

/-- Row `r` of a two-row matrix, cut out as a one-row matrix and flattened, read at `k`, is the matrix at `(r, k)`. -/
theorem rowOf_apply (r : Fin 2) (y : S2x1250000.Idx → α) (hs : S2x1250000.Slices ![r.val, 0] S1x1250000)
    (hc : S1x1250000.ShapeCasts S1250000) (k : Fin 1250000) :
    shapeCast S1250000 (extractStridedSlice S1x1250000 ![r.val, 0] y hs) hc (ix1 k) = y (ix2 r k) := by
  refine (shapeCast_apply _ hc (ix1 k) (ix2 (0 : Fin 1) k) ?_).trans ?_
  · rw [Shape.rowMajor_val_two, Shape.rowMajor_val_one]
    show 0 * 1250000 + k.val = k.val
    omega
  · refine extractStridedSlice_apply _ y hs _ (ix2 r k) fun a => ?_
    match a with
    | ⟨0, _⟩ => show r.val = r.val + 0; omega
    | ⟨1, _⟩ => show k.val = 0 + k.val; omega

end Generic

/-! ## The buffers the host stretches leave, as terms over the launch contents -/

/-- The padded source words as the operations that made them: row 1 of the edge list, flattened, padded. -/
theorem v4_term (c : Dev nD) :
    (V6 (F := Ideal) m c main_v4 : IVec S1253376 32)
      = pad S1253376 ![0] ![3376] ![0]
          (shapeCast S1250000 (extractStridedSlice S1x1250000 ![1, 0] (eiOf m c) slices_S2x1250000_S1x1250000_1_0)
            shapeCasts_S1x1250000_S1250000)
          (constantI S_ 32 4294967295#32) pads_S1250000_S1253376_033760 h_S_ := by
  refine ((V6_of m c main_v4 (by decide)).trans ((V5_of m c main_v4 (by decide)).trans
    ((V4_of m c main_v4 (by decide)).trans (V3_of m c main_v4 (by decide))))).trans ?_
  dsimp only [V2, V1, V0, hostOps0_1, hostOps0]
  after_results
  simp only [StableHlo.TRef.ofBuf, StableHlo.TRef.toBuf, cast_eq]
  rfl

/-- The padded target words as the operations that made them: row 0 of the edge list, flattened, padded. -/
theorem v5_term (c : Dev nD) :
    (V6 (F := Ideal) m c main_v5 : IVec S1253376 32)
      = pad S1253376 ![0] ![3376] ![0]
          (shapeCast S1250000 (extractStridedSlice S1x1250000 ![0, 0] (eiOf m c) slices_S2x1250000_S1x1250000_0_0)
            shapeCasts_S1x1250000_S1250000)
          (constantI S_ 32 4294967295#32) pads_S1250000_S1253376_033760 h_S_ := by
  refine ((V6_of m c main_v5 (by decide)).trans (V5_of m c main_v5 (by decide))).trans ?_
  dsimp only [V4, V3, V2, V1, V0, hostOps0_3, hostOps0_2, hostOps0_1, hostOps0]
  after_results
  simp only [StableHlo.TRef.ofBuf, StableHlo.TRef.toBuf, cast_eq]
  rfl

/-- The padded features as the operations that made them: the features in the narrower format, padded with the
    converted zero word. -/
theorem v7_term (c : Dev nD) :
    (V6 (F := Ideal) m c main_v7 : FVec Ideal S100352x64 .bf16)
      = pad S100352x64 ![0, 0] ![352, 0] ![0, 0] (truncf .bf16 (xOf m c) bitsLt_bf16_f32)
          (sitofp .bf16 (constantI S_ 32 0#32)) pads_S100000x64_S100352x64_03520_000 h_S_ := by
  dsimp only [V6, V5, V4, V3, V2, V1, V0, hostOps0_5, hostOps0_4, hostOps0_3, hostOps0_2, hostOps0_1, hostOps0]
  after_results
  simp only [StableHlo.TRef.ofBuf, StableHlo.TRef.toBuf, cast_eq]

/-- The result as the operation that made it: the leading rows of the second region's output. -/
theorem v10_term (outs : Outs (F := Ideal)) (c : Dev nD) :
    (V9 (F := Ideal) m outs c main_v10 : FVec Ideal S100000x64 .f32)
      = extractStridedSlice S100000x64 ![0, 0] (V8 (F := Ideal) m outs c main_v9 : FVec Ideal S100352x64 .f32)
          slices_S100352x64_S100000x64_0_0 := by
  dsimp only [V9, hostOps2]
  after_results

/-! ## The interface: the buffers read at an index -/

/-- The padded source words: the edge's source word, and the word -1 on the 3376 padding entries. -/
theorem colp_apply (c : Dev nD) (e : Fin 1253376) :
    (V6 (F := Ideal) m c main_v4 : IVec S1253376 32) (ix1 e)
      = if h : e.val < 1250000 then eiOf m c (ix2 (1 : Fin 2) ⟨e.val, h⟩) else 0xFFFFFFFF#32 := by
  refine (congrFun (v4_term m c) (ix1 e)).trans ((pad1_apply _ _ _ _ e).trans ?_)
  by_cases h : e.val < 1250000
  · rw [dif_pos h, dif_pos h]
    exact rowOf_apply (1 : Fin 2) (eiOf m c) slices_S2x1250000_S1x1250000_1_0 shapeCasts_S1x1250000_S1250000 ⟨e.val, h⟩
  · rw [dif_neg h, dif_neg h]
    rfl

/-- The padded target words, likewise. -/
theorem rowp_apply (c : Dev nD) (e : Fin 1253376) :
    (V6 (F := Ideal) m c main_v5 : IVec S1253376 32) (ix1 e)
      = if h : e.val < 1250000 then eiOf m c (ix2 (0 : Fin 2) ⟨e.val, h⟩) else 0xFFFFFFFF#32 := by
  refine (congrFun (v5_term m c) (ix1 e)).trans ((pad1_apply _ _ _ _ e).trans ?_)
  by_cases h : e.val < 1250000
  · rw [dif_pos h, dif_pos h]
    exact rowOf_apply (0 : Fin 2) (eiOf m c) slices_S2x1250000_S1x1250000_0_0 shapeCasts_S1x1250000_S1250000 ⟨e.val, h⟩
  · rw [dif_neg h, dif_neg h]
    rfl

/-- The padded features: the node's row, and the zero row on the 352 padding rows. -/
theorem xp_apply (c : Dev nD) (n : Fin 100352) (q : Fin 64) :
    (V6 (F := Ideal) m c main_v7 : FVec Ideal S100352x64 .bf16) (ix2 n q)
      = if h : n.val < 100000 then xOf m c (ix2 ⟨n.val, h⟩ q) else 0 := by
  refine (congrFun (v7_term m c) (ix2 n q)).trans ((pad2_apply _ _ _ _ n q).trans ?_)
  by_cases h : n.val < 100000
  · rw [dif_pos h, dif_pos h]
    rfl
  · rw [dif_neg h, dif_neg h]
    show ((((0#32 : BitVec 32).toInt : ℤ) : ℝ) : EReal) = 0
    simp

/-- The result is the leading 100000 rows of what the second region leaves. -/
theorem out_apply (outs : Outs (F := Ideal)) (c : Dev nD) (n : Fin 100000) (q : Fin 64) :
    (V9 (F := Ideal) m outs c main_v10 : FVec Ideal S100000x64 .f32) (ix2 n q)
      = (V8 (F := Ideal) m outs c main_v9 : FVec Ideal S100352x64 .f32) (ix2 ⟨n.val, by omega⟩ q) := by
  refine (congrFun (v10_term m outs c) (ix2 n q)).trans ?_
  refine extractStridedSlice_apply _ _ slices_S100352x64_S100000x64_0_0 _ _ fun a => ?_
  match a with
  | ⟨0, _⟩ => show n.val = 0 + n.val; omega
  | ⟨1, _⟩ => show q.val = 0 + q.val; omega

end Cert.KernelIdeal.Glue
-- ==== Proof.PadSums.lean ====
/-
  The padded arrays the tiled computation works on, joined to the specification.

  The edge list is padded to 1253376 entries with the word -1, whose unsigned reading 4294967295 is no node index
  and no row of any table in sight; the features are padded to 100352 rows with zero rows. Reading a row "or zero
  past the end" of the padded features is the same as of the features themselves, since the padding rows are zero.
  A sum over the padded edges is the sum over the edges, since a padding edge's target word reads no node.
-/
import proofs.«419025_j49744311222856_1_alg».proof.Proof.Spec
import Idealize.ShloMosaic.Lib.ValueIdx
import Mathlib.Data.Fintype.BigOperators
import Mathlib.Data.Finset.Range
import Mathlib.Algebra.BigOperators.Group.Finset.Basic

noncomputable section

namespace Cert.GatherScatter

open Idealize.ShloMosaic Idealize.ShloMosaic.ValueIdx

/-- Reading a row or zero: the zero-padded features read as the features do, at every natural number. -/
theorem rowOr0_pad (x : SX.Idx → EReal) (xp : SXp.Idx → EReal)
    (hx : ∀ (n : Fin 100352) (q : Fin 64), xp (ix2 n q) = if h : n.val < 100000 then x (ix2 ⟨n.val, h⟩ q) else 0)
    (k : Nat) (q : Fin 64) : rowOr0 (R := 100352) xp k q = rowOr0 (R := 100000) x k q := by
  by_cases h1 : k < 100000
  · have h2 : k < 100352 := by omega
    rw [rowOr0_of_lt xp h2, rowOr0_of_lt x h1, hx ⟨k, h2⟩ q, dif_pos h1]
  · by_cases h2 : k < 100352
    · rw [rowOr0_of_lt xp h2, rowOr0_of_ge x (by omega), hx ⟨k, h2⟩ q, dif_neg h1]
    · rw [rowOr0_of_ge xp (by omega), rowOr0_of_ge x (by omega)]

/-- The contribution of the edge at position k to feature q of node n, k a natural number: nothing past the edge list. -/
def edgeTerm (x : SX.Idx → EReal) (ei : SE.Idx → BitVec 32) (n : Nat) (q : Fin 64) (k : Nat) : EReal :=
  if hk : k < 1250000 then
    (if (ei (ix2 (0 : Fin 2) ⟨k, hk⟩)).toNat = n then rowOr0 x (ei (ix2 (1 : Fin 2) ⟨k, hk⟩)).toNat q else 0)
  else 0

/-- The padded computation is the specification: the edge list padded to 1253376 entries with the word -1 (which, read unsigned, is no node and names no row), the features padded to 100352 rows with zeros; messages = the padded row the source word names (zero row past the padded table); the padded output row n = the sum over all padded edges whose target word reads n of the edge's message. Then the leading 100000 rows of the padded output are `result x ei`. -/
theorem padded_eq_result (x : SX.Idx → EReal) (ei : SE.Idx → BitVec 32)
    (rowp colp : SEp.Idx → BitVec 32) (xp : SXp.Idx → EReal) (msg : SMp.Idx → EReal) (outp : SXp.Idx → EReal)
    (hrow : ∀ e : Fin 1253376, rowp (ix1 e) = if h : e.val < 1250000 then ei (ix2 (0 : Fin 2) ⟨e.val, h⟩) else 0xFFFFFFFF#32)
    (hcol : ∀ e : Fin 1253376, colp (ix1 e) = if h : e.val < 1250000 then ei (ix2 (1 : Fin 2) ⟨e.val, h⟩) else 0xFFFFFFFF#32)
    (hx : ∀ (n : Fin 100352) (q : Fin 64), xp (ix2 n q) = if h : n.val < 100000 then x (ix2 ⟨n.val, h⟩ q) else 0)
    (hmsg : ∀ (e : Fin 1253376) (q : Fin 64), msg (ix2 e q) = rowOr0 (R := 100352) xp (colp (ix1 e)).toNat q)
    (hout : ∀ (n : Fin 100352) (q : Fin 64), outp (ix2 n q) = ∑ e : Fin 1253376, if (rowp (ix1 e)).toNat = n.val then msg (ix2 e q) else 0)
    (n : Fin 100000) (q : Fin 64) :
    outp (ix2 ⟨n.val, Nat.lt_trans n.isLt (by decide)⟩ q) = result x ei (ix2 n q) := by
  -- a padded edge's term is the edge's term at its position
  have hL : ∀ e : Fin 1253376,
      (if (rowp (ix1 e)).toNat = n.val then msg (ix2 e q) else 0) = edgeTerm x ei n.val q e.val := by
    intro e
    unfold edgeTerm
    by_cases he : e.val < 1250000
    · rw [dif_pos he, hrow e, dif_pos he, hmsg e q, hcol e, dif_pos he, rowOr0_pad x xp hx]
    · have hpad : (0xFFFFFFFF#32 : BitVec 32).toNat = 4294967295 := by decide
      have hn := n.isLt
      rw [dif_neg he, hrow e, dif_neg he, if_neg (by rw [hpad]; omega)]
  -- past the edge list the terms vanish
  have hsub : ∑ k ∈ Finset.range 1250000, edgeTerm x ei n.val q k
      = ∑ k ∈ Finset.range 1253376, edgeTerm x ei n.val q k :=
    Finset.sum_subset (Finset.range_subset_range.2 (by omega)) (fun k _ hk => by
      unfold edgeTerm
      exact dif_neg (fun hlt => hk (Finset.mem_range.2 hlt)))
  rw [hout]
  simp only [result]
  refine (Finset.sum_congr rfl fun e _ => hL e).trans ?_
  refine (Fin.sum_univ_eq_sum_range (edgeTerm x ei n.val q) 1253376).trans ?_
  refine hsub.symm.trans ?_
  refine (Fin.sum_univ_eq_sum_range (edgeTerm x ei n.val q) 1250000).symm.trans ?_
  refine Finset.sum_congr rfl fun e _ => ?_
  unfold edgeTerm
  rw [dif_pos e.isLt]

end Cert.GatherScatter

end
-- ==== Proof.LibRowGather.lean ====
/-
  GENERAL LEMMA (no program imported): jnp's `table[idx]` on a matrix, read at an element.

  For a table [N, D] and a column of n indices, `table[idx]` prints as a `stablehlo.gather` with start indices [n, 1]
  (the index vector on axis 1), the table's row axis collapsed and start-indexed, its column axis the result's offset axis,
  slices of one whole row.  `gather_rows_apply`: the result at (p, q) is the table at (row, q), the row being index p's
  word read signed and clamped into [0, N − 1], as StableHLO's gather clamps every start index.
-/
import Idealize.ShloMosaic.PureOps.ShapeOps
import Idealize.ShloMosaic.Lib.ValueIdx

noncomputable section

namespace Cert.LibRowGather

open Idealize.ShloMosaic Idealize.ShloMosaic.ValueIdx

/-- The dimension numbers of `table[idx]` for a table [N, D], start indices [n, 1] and a result [n, D]. Their conditions
    are decided on a program's literal shapes; a printed record with these fields is this one. -/
abbrev rowGatherDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- THE GATHER READ AT (p, q): the table's entry q of the row that index p names, clamped into the table. -/
theorem gather_rows_apply {α : Type} {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowGatherDims N D n wf) x idx (ix2 p q)
      = x (ix2 ⟨min (idx (ix2 p (0 : Fin 1))).toInt.toNat (N - 1), by omega⟩ q) := by
  unfold Host.gather
  refine congrArg x (funext fun a => Fin.ext ?_)
  match a with
  | ⟨0, _⟩ =>
    show (rowGatherDims N D n wf).start (ix2 p q) idx 0 + (rowGatherDims N D n wf).batchCoord (ix2 p q) 0
      + (rowGatherDims N D n wf).offCoord (ix2 p q) 0 = min (idx (ix2 p (0 : Fin 1))).toInt.toNat (N - 1)
    rw [GatherDims.batchCoord_eq_zero (rowGatherDims N D n wf) _ 0 (by show (0 : Fin 2) ∉ ([] : List (Fin 2)); decide),
      GatherDims.offCoord_eq_zero (rowGatherDims N D n wf) _ 0
        (fun h => ((GatherDims.mem_sKept _ _).mp h).1 (List.mem_singleton.mpr rfl))]
    simp only [Nat.add_zero]
    unfold GatherDims.start
    rw [dif_pos (show (0 : Fin 2) ∈ (rowGatherDims N D n wf).startIndexMap from List.mem_singleton.mpr rfl)]
    have hsi : (rowGatherDims N D n wf).siIdx (ix2 p q)
        ⟨List.idxOf (0 : Fin 2) (rowGatherDims N D n wf).startIndexMap, List.idxOf_lt_length_iff.2 (List.mem_singleton.mpr rfl)⟩
        = ix2 p (0 : Fin 1) := funext fun b => Fin.ext (by
      match b with
      | ⟨0, _⟩ => rfl
      | ⟨1, _⟩ => rfl)
    rw [hsi]
    rfl
  | ⟨1, _⟩ =>
    show (rowGatherDims N D n wf).start (ix2 p q) idx 1 + (rowGatherDims N D n wf).batchCoord (ix2 p q) 1
      + (rowGatherDims N D n wf).offCoord (ix2 p q) 1 = q.val
    rw [GatherDims.batchCoord_eq_zero (rowGatherDims N D n wf) _ 1 (by show (1 : Fin 2) ∉ ([] : List (Fin 2)); decide)]
    have hs : (rowGatherDims N D n wf).start (ix2 p q) idx 1 = 0 := by
      unfold GatherDims.start
      rw [dif_neg (show (1 : Fin 2) ∉ (rowGatherDims N D n wf).startIndexMap from by
        show (1 : Fin 2) ∉ ([0] : List (Fin 2)); decide)]
    rw [hs]
    have hk : (1 : Fin 2) ∈ (rowGatherDims N D n wf).sKept :=
      (GatherDims.mem_sKept _ _).mpr ⟨by show (1 : Fin 2) ∉ ([0] : List (Fin 2)); decide,
        by show (1 : Fin 2) ∉ ([] : List (Fin 2)); decide⟩
    unfold GatherDims.offCoord
    rw [dif_pos hk]
    simp only [Nat.zero_add]
    rfl

end Cert.LibRowGather

end
-- ==== Proof.RefSide.lean ====
/-
  The reference program's result, read at an index, is the specification function.

  The reference gathers the rows x[col[e]] (col the source words, first normalised: a negative word has the node count
  added; then read signed and clamped into the table) and adds row e of the gathered array into row row[e] of an array
  of zeros (row the target words, read signed and not clamped: an update whose target is no node is dropped). At the
  ideal instance the accumulating scatter is each element plus the exact sum of the updates that land on it. Where every
  source word names a node, this is the sum, over the edges whose target word reads n, of the source node's row.
-/
import proofs.«419025_j49744311222856_1_alg».proof.Proof.Gen.ReferenceIdeal.Run
import proofs.«419025_j49744311222856_1_alg».proof.Proof.Gen.ReferenceIdeal.Read
import proofs.«419025_j49744311222856_1_alg».proof.Proof.Spec
import proofs.«419025_j49744311222856_1_alg».proof.Proof.LibRowGather
import Idealize.ShloMosaic.PureOps.Dims
import Idealize.ShloMosaic.PureOps.Contract
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen

/-- The reference run's result term as a function of the two argument arrays (the term the generated run theorem states,
    the memory reads replaced by x and ei). -/
def refTerm (x : FVec Ideal S100000x64 .f32) (ei : IVec S2x1250000 32) : FVec Ideal S100000x64 .f32 :=
  Host.scatterAdd scatter_S100000x64_S1250000x1_S1250000x64_1_0_0_1 (broadcastInDim S100000x64 ![] bcast_S_S100000x64 (constant S_ .f32 0x00000000#32)) (broadcastInDim S1250000x1 ![0] bcast_S1250000_S1250000x1_0 (shapeCast _ (extractStridedSlice S1x1250000 ![0, 0] ei slices_S2x1250000_S1x1250000_0_0) shapeCasts_S1x1250000_S1250000)) (Host.gather gather_S100000x64_S1250000x1_S1250000x64_1_0_n_n_0_1_164 x (broadcastInDim S1250000x1 ![0] bcast_S1250000_S1250000x1_0 (select (cmpi .slt (shapeCast _ (extractStridedSlice S1x1250000 ![1, 0] ei slices_S2x1250000_S1x1250000_1_0) shapeCasts_S1x1250000_S1250000) (broadcastInDim S1250000 ![] bcast_S_S1250000 (constantI S_ 32 0#32))) (addi (shapeCast _ (extractStridedSlice S1x1250000 ![1, 0] ei slices_S2x1250000_S1x1250000_1_0) shapeCasts_S1x1250000_S1250000) (broadcastInDim S1250000 ![] bcast_S_S1250000 (constantI S_ 32 100000#32))) (shapeCast _ (extractStridedSlice S1x1250000 ![1, 0] ei slices_S2x1250000_S1x1250000_1_0) shapeCasts_S1x1250000_S1250000))))

/-- The result term is the last stage of the generated per-operation reading of the program. -/
theorem refTerm_eq_val (x : FVec Ideal S100000x64 .f32) (ei : IVec S2x1250000 32) :
    refTerm x ei = Read.val_main_v13 (F := Ideal) x ei := rfl

/-! ## Words: the signed and the unsigned reading -/

/-- A 32-bit word whose signed reading is not negative reads the same unsigned. -/
theorem toInt_eq_toNat_of_nonneg (c : BitVec 32) (h : 0 ≤ c.toInt) : c.toInt = (c.toNat : Int) := by
  have hc := BitVec.toInt_eq_toNat_cond c
  have hlt := c.isLt
  split at hc <;> omega

/-- For a number below 2³¹ (a node index is), a word reads it signed exactly when it reads it unsigned. -/
theorem toInt_eq_iff_toNat_eq (c : BitVec 32) (n : Nat) (hn : n < 100000) : c.toInt = (n : Int) ↔ c.toNat = n := by
  have hc := BitVec.toInt_eq_toNat_cond c
  have hlt := c.isLt
  split at hc <;> omega

/-! ## The index columns read at an edge -/

/-- The scatter's index column at edge e is the edge's target word. -/
theorem rowIdx_apply (ei : IVec S2x1250000 32) (e : Fin 1250000) :
    Read.val_main_v12 (F := Ideal) ei (ix2 e (0 : Fin 1)) = ei (ix2 (0 : Fin 2) e) := by
  rw [Read.val_main_v12_apply, Read.val_main_v1_apply, Read.val_main_v0_apply]
  refine congrArg ei (funext fun a => Fin.ext ?_)
  match a with
  | ⟨0, _⟩ => rfl
  | ⟨1, _⟩ => exact Nat.mod_eq_of_lt e.isLt

/-- The gather's index column at edge e is the edge's source word, when that word read signed is not negative: the
    normalisation adds the node count to negative words only. -/
theorem colIdx_apply (ei : IVec S2x1250000 32) (e : Fin 1250000) (h0 : 0 ≤ (ei (ix2 (1 : Fin 2) e)).toInt) :
    Read.val_main_v9 (F := Ideal) ei (ix2 e (0 : Fin 1)) = ei (ix2 (1 : Fin 2) e) := by
  have hidx : Read.idx_main_v2 (Read.idx_main_v3 (Read.idx_main_v9 (ix2 e (0 : Fin 1)))) = ix2 (1 : Fin 2) e := by
    funext a
    refine Fin.ext ?_
    match a with
    | ⟨0, _⟩ => rfl
    | ⟨1, _⟩ => exact Nat.mod_eq_of_lt e.isLt
  rw [Read.val_main_v9_apply, Read.val_main_v8_apply, Read.val_main_v5_apply, Read.val_main_v3_apply,
    Read.val_main_v2_apply, Read.val_main_v4_apply, Read.val_main_c_apply, hidx]
  have hslt : IntOp.cmpi .slt (ei (ix2 (1 : Fin 2) e)) 0#32 = 0#1 := by
    show BitVec.ofBool ((ei (ix2 (1 : Fin 2) e)).slt 0#32) = 0#1
    have : (ei (ix2 (1 : Fin 2) e)).slt 0#32 = false := by
      unfold BitVec.slt
      exact decide_eq_false (by rw [BitVec.toInt_zero]; omega)
    rw [this]; rfl
  rw [hslt, select_zero]

/-! ## The gathered rows -/

/-- The gathered array at (e, q), where every source word names a node: row col[e] of x at q. The clamp into
    [0, 99999] leaves such a word alone. -/
theorem gathered_apply (x : FVec Ideal S100000x64 .f32) (ei : IVec S2x1250000 32)
    (hcol : ∀ e : Fin 1250000, 0 ≤ (ei (ix2 (1 : Fin 2) e)).toInt ∧ (ei (ix2 (1 : Fin 2) e)).toInt < 100000)
    (e : Fin 1250000) (q : Fin 64) :
    Read.val_main_v10 (F := Ideal) x ei (ix2 e q)
      = Cert.GatherScatter.rowOr0 x (ei (ix2 (1 : Fin 2) e)).toNat q := by
  obtain ⟨h0, h1⟩ := hcol e
  have hnat := toInt_eq_toNat_of_nonneg _ h0
  have hlt : (ei (ix2 (1 : Fin 2) e)).toNat < 100000 := by omega
  unfold Read.val_main_v10
  refine (Cert.LibRowGather.gather_rows_apply (N := 100000) (D := 64) (n := 1250000) (by decide)
    gather_S100000x64_S1250000x1_S1250000x64_1_0_n_n_0_1_164_wf x (Read.val_main_v9 (F := Ideal) ei) e q).trans ?_
  rw [Cert.GatherScatter.rowOr0_of_lt x hlt q]
  refine congrArg x (funext fun a => Fin.ext ?_)
  match a with
  | ⟨0, _⟩ =>
    show min (Read.val_main_v9 (F := Ideal) ei (ix2 e (0 : Fin 1))).toInt.toNat (100000 - 1) = (ei (ix2 (1 : Fin 2) e)).toNat
    rw [colIdx_apply ei e h0]
    omega
  | ⟨1, _⟩ => rfl

/-! ## Where an update lands -/

/-- An update index lands on operand index i exactly when, on every operand axis, start plus window coordinate is i's
    coordinate: the sum is then inside the operand, and it is i's coordinate only if it is. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hall
      intro a
      have ha := congrArg Fin.val (congrFun (Option.some.inj h) a)
      have hb := hall a
      have hc : (d.start j idx a + (d.window j a : Int)).toNat = (i a).val := ha
      omega
    · cases h
  · intro h
    have hall : ∀ a, 0 ≤ d.start j idx a + (d.window j a : Int) ∧ d.start j idx a + (d.window j a : Int) < s.size a :=
      fun a => by have := h a; have := (i a).isLt; omega
    rw [dif_pos hall]
    refine congrArg some (funext fun a => Fin.ext ?_)
    show (d.start j idx a + (d.window j a : Int)).toNat = (i a).val
    have := h a
    omega

section Dims

/-- The scatter's dimension numbers: updates [E, 64] into an operand [N, 64] at indices [E, 1]; operand axis 0 is
    scattered along and inserted, operand axis 1 is the updates' window axis. -/
abbrev dS : ScatterDims S100000x64 S1250000x1 S1250000x64 := scatter_S100000x64_S1250000x1_S1250000x64_1_0_0_1

variable (idx : IVec S1250000x1 32) (e : Fin 1250000) (q' : Fin 64)

/-- On axis 0 the window of update (e, q') starts at the e-th index word read signed. -/
theorem start_zero : dS.start (ix2 e q') idx 0 = (idx (ix2 e (0 : Fin 1))).toInt := by
  unfold ScatterDims.start
  rw [dif_pos (show (0 : Fin 2) ∈ dS.scatterDimsToOperandDims from List.mem_singleton.mpr rfl)]
  refine congrArg (fun k => (idx k).toInt) (funext fun b => Fin.ext ?_)
  match b with
  | ⟨0, _⟩ => rfl
  | ⟨1, _⟩ => rfl

/-- Axis 1 is not scattered along: the window starts at 0 there. -/
theorem start_one : dS.start (ix2 e q') idx 1 = 0 := by
  unfold ScatterDims.start
  rw [dif_neg (show (1 : Fin 2) ∉ dS.scatterDimsToOperandDims from by
    show (1 : Fin 2) ∉ ([0] : List (Fin 2)); decide)]

/-- Axis 0 is inserted: the window coordinate is 0 there. -/
theorem window_zero : dS.window (ix2 e q') 0 = 0 := by
  unfold ScatterDims.window
  rw [dif_neg (show (0 : Fin 2) ∉ dS.sKept from by decide)]

/-- On axis 1 the window coordinate is the update's column. -/
theorem window_one : dS.window (ix2 e q') 1 = q'.val := by
  unfold ScatterDims.window
  rw [dif_pos (show (1 : Fin 2) ∈ dS.sKept from by decide)]
  rfl

/-- Update (e, q') lands on (n, q) exactly when the e-th index word read signed is n and the columns agree. -/
theorem lands_iff (n : Fin 100000) (q : Fin 64) :
    dS.resultIdx? (ix2 e q') idx = some (ix2 n q) ↔ (idx (ix2 e (0 : Fin 1))).toInt = (n.val : Int) ∧ q' = q := by
  rw [resultIdx?_eq_some_iff, Fin.forall_fin_two, start_zero, start_one, window_zero, window_one]
  show (idx (ix2 e (0 : Fin 1))).toInt + ((0 : Nat) : Int) = (n.val : Int) ∧ (0 : Int) + (q'.val : Int) = (q.val : Int) ↔ _
  constructor
  · rintro ⟨h1, h2⟩; exact ⟨by omega, Fin.ext (by omega)⟩
  · rintro ⟨h1, rfl⟩; exact ⟨by omega, by omega⟩

end Dims

/-! ## The scattered sum at a node -/

/-- The accumulating scatter at (n, q): the operand's element plus the entries (e, q) of the edges e whose index word
    read signed is n. The updates landing on (n, q) are exactly those, so the sum over them is a sum over the edges. -/
theorem scatterAdd_apply (x0 : S100000x64.Idx → EReal) (idx : IVec S1250000x1 32) (upd : S1250000x64.Idx → EReal)
    (n : Fin 100000) (q : Fin 64) :
    Ideal.hostScatterAdd dS x0 idx upd (ix2 n q)
      = x0 (ix2 n q) + ∑ e : Fin 1250000, if (idx (ix2 e (0 : Fin 1))).toInt = (n.val : Int) then upd (ix2 e q) else 0 := by
  unfold Ideal.hostScatterAdd
  refine congrArg (x0 (ix2 n q) + ·) ?_
  rw [Finset.sum_filter, sum_idx2]
  refine Finset.sum_congr rfl fun e _ => ?_
  by_cases hr : (idx (ix2 e (0 : Fin 1))).toInt = (n.val : Int)
  · rw [if_pos hr, Finset.sum_congr rfl (fun q' _ => if_congr ((lands_iff idx e q' n q).trans (and_iff_right hr)) rfl rfl)]
    exact (Finset.sum_ite_eq' Finset.univ q (fun q' => upd (ix2 e q'))).trans (if_pos (Finset.mem_univ q))
  · rw [if_neg hr]
    exact Finset.sum_eq_zero fun q' _ => if_neg (fun h => hr ((lands_iff idx e q' n q).mp h).1)

/-! ## The reference's result -/

/-- The result term is the ideal accumulating scatter of the gathered rows into zeros at the target words. -/
theorem refTerm_eq (x : FVec Ideal S100000x64 .f32) (ei : IVec S2x1250000 32) :
    refTerm x ei = Ideal.hostScatterAdd dS (Read.val_main_v11 (F := Ideal)) (Read.val_main_v12 (F := Ideal) ei)
      (Read.val_main_v10 (F := Ideal) x ei) := rfl

/-- The scatter's operand is zero everywhere. -/
theorem zeros_apply (i : S100000x64.Idx) : Read.val_main_v11 (F := Ideal) i = 0 := by
  rw [Read.val_main_v11_apply, Read.val_main_cst_apply]
  exact Ideal.ofBits_zero_f32

/-- Where every source word names a node (read signed, in [0, 100000)), the reference computes the specification: the
    normalisation and the clamp leave such a word alone, so the gather reads row col[e]; and an update (e, q) lands on
    (n, q) exactly when the target word read signed is n, which for n < 100000 is the unsigned reading being n. -/
theorem ref_result (x : FVec Ideal S100000x64 .f32) (ei : IVec S2x1250000 32)
    (hcol : ∀ e : Fin 1250000, 0 ≤ (ei (ix2 (1 : Fin 2) e)).toInt ∧ (ei (ix2 (1 : Fin 2) e)).toInt < 100000) :
    refTerm x ei = Cert.GatherScatter.result x ei := by
  funext j
  obtain ⟨n, q, rfl⟩ : ∃ (n : Fin 100000) (q : Fin 64), j = ix2 n q := ⟨j 0, j 1, eq_ix2 j⟩
  rw [refTerm_eq, scatterAdd_apply, zeros_apply, zero_add]
  unfold Cert.GatherScatter.result
  refine Finset.sum_congr rfl fun e _ => ?_
  rw [rowIdx_apply, gathered_apply x ei hcol]
  exact if_congr (toInt_eq_iff_toNat_eq _ n.val n.isLt) rfl rfl

end Cert.ReferenceIdeal.RefValue

end
-- ==== Proof.PreCol.lean ====
/-
  The precondition's second conjunct, decoded. The precondition is the conjunction of two "all" tests: every entry
  of the float array is finite, and every word of row 1 of the index array, read signed, lies in [0, 100000).
  Being told the conjunction is 1, each "all" is 1; an and-reduction that is 1 met only 1s; and the element at
  position e of the second mask is (0 ≤ w) and (w < 100000) for w the word at row 1, column e.
-/
import proofs.«419025_j49744311222856_1_alg».proof.Pre_finite_inputs
import proofs.«419025_j49744311222856_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

namespace Cert.Pre_finite_inputs.Decode

open Idealize.ShloMosaic Idealize.ShloMosaic.ValueIdx Cert.Pre_finite_inputs

/-- Row 1 of the [2 × n] array, cut out as a [1 × n] row and flattened, reads at position e the array at (1, e). -/
theorem col_apply [Cert.Pre_finite_inputs.Facts] (ei : IVec S2x1250000 32) (e : Fin 1250000) :
    shapeCast S1250000 (extractStridedSlice S1x1250000 ![1, 0] ei Facts.slices_S2x1250000_S1x1250000_1_0)
        Facts.shapeCasts_S1x1250000_S1250000 (ix1 e)
      = ei (ix2 (1 : Fin 2) e) := by
  refine (shapeCast_apply _ _ (ix1 e) (ix2 (0 : Fin 1) e) ?_).trans ?_
  · rw [Shape.rowMajor_val_two, Shape.rowMajor_val_one]
    show (0 : Nat) * 1250000 + e.val = e.val
    omega
  · refine extractStridedSlice_apply _ _ _ (ix2 (0 : Fin 1) e) (ix2 (1 : Fin 2) e) (fun a => ?_)
    match a with
    | ⟨0, _⟩ => rfl
    | ⟨1, _⟩ => show e.val = 0 + e.val; omega

/-- The precondition's second conjunct, decoded: every source word, read signed, names a node. -/
theorem col_in_range [Cert.Pre_finite_inputs.Facts] {F : FTy → Type} [FloatOps F] (x : FVec F S100000x64 .f32) (ei : IVec S2x1250000 32)
    (h : Cert.Pre_finite_inputs.fn (F := F) x ei = fun _ => 1#1) :
    ∀ e : Fin 1250000, 0 ≤ (ei (ix2 (1 : Fin 2) e)).toInt ∧ (ei (ix2 (1 : Fin 2) e)).toInt < 100000 := by
  intro e
  have h0 := congrFun h ValueIdx.ix0
  dsimp only [fn] at h0
  obtain ⟨-, hall⟩ := IntOp.andi_eq_one.1 h0
  -- the rank-0 shape has one index, so the reduction is over every position
  haveI : Subsingleton S_.Idx := ⟨fun a b => funext fun d => d.elim0⟩
  have hel := Host.reduce_andi_all _ _ _ _ _ hall (ix1 e)
  obtain ⟨hge, hlt⟩ := IntOp.andi_eq_one.1 hel
  have hge' := IntOp.cmpi_sge.1 hge
  have hlt' := IntOp.cmpi_slt.1 hlt
  have hb0 : broadcastInDim S1250000 ![] Facts.bcast_S_S1250000 (constantI S_ 32 0#32) (ix1 e) = 0#32 := rfl
  have hb1 : broadcastInDim S1250000 ![] Facts.bcast_S_S1250000 (constantI S_ 32 100000#32) (ix1 e) = 100000#32 := rfl
  have z0 : (0#32 : BitVec 32).toInt = 0 := by decide
  have z1 : (100000#32 : BitVec 32).toInt = 100000 := by decide
  rw [col_apply, hb0, z0] at hge'
  rw [col_apply, hb1, z1] at hlt'
  exact ⟨hge', hlt'⟩

end Cert.Pre_finite_inputs.Decode
-- ==== Proof.lean ====
/-
  One round of message passing with sum aggregation: out[n, ·] = Σ over the edges e with target n of x[source e, ·].

  The kernel computes it with two tiled one-hot matrix products.  It pads the edge list to a multiple of the edge tile
  with the word −1 and the features to a multiple of the node tile with zero rows; the first region forms each edge's
  message as (one-hot of its source word against the node numbers)ᵀ · features, accumulated over the node tiles; the
  second forms each node's sum as (one-hot of the node's number against the target words) · messages, accumulated over
  the edge tiles; the result is the leading rows.  A word that is no node number matches no node, so a padding edge, and
  any edge whose source or target word names no node, contributes nothing: over the extended reals the padded program
  computes `Cert.GatherScatter.result` for EVERY input, the products 0 · v and 1 · v being 0 and v at the infinities too.
  The reference gathers rows with the source word clamped into the table and scatter-adds them by target word, dropping
  targets outside the table; where every source word names a node (the precondition's second conjunct: outside it the
  reference indexes out of range) it computes the same function.

  The frames: each program terminates and leaves its arguments alone — the two kernel programs by the run of their
  two pipelined regions (each region's scratch accumulator carried between grid points by the region's invariant), the
  reference by its run.  Nothing was rewritten by the ideal pass, so `preserves` is trivial.
-/
import proofs.«419025_j49744311222856_1_alg».proof.Defs
import proofs.«419025_j49744311222856_1_alg».proof.Proof.Gen.Kernel
import proofs.«419025_j49744311222856_1_alg».proof.Proof.Gen.KernelIdeal
import proofs.«419025_j49744311222856_1_alg».proof.Proof.Gen.ReferenceIdeal
import proofs.«419025_j49744311222856_1_alg».proof.Proof.Gen.Pre_finite_inputs
import proofs.«419025_j49744311222856_1_alg».proof.Proof.Gen.ReferenceIdeal.Run
import proofs.«419025_j49744311222856_1_alg».proof.Proof.Run
import proofs.«419025_j49744311222856_1_alg».proof.Proof.RunBits
import proofs.«419025_j49744311222856_1_alg».proof.Proof.GatherValue
import proofs.«419025_j49744311222856_1_alg».proof.Proof.ScatterValue
import proofs.«419025_j49744311222856_1_alg».proof.Proof.HostGlue
import proofs.«419025_j49744311222856_1_alg».proof.Proof.PadSums
import proofs.«419025_j49744311222856_1_alg».proof.Proof.RefSide
import proofs.«419025_j49744311222856_1_alg».proof.Proof.PreCol
import Idealize.ShloMosaic.Adequacy
import Idealize.ShloMosaic.Init

noncomputable section

namespace Cert.Proof

open Idealize.ShloMosaic Idealize.ShloMosaic.TcCoe Idealize.ShloMosaic.ValueIdx Idealize.SL.Sem

/-! ## The kernel's value -/

section KernelValue

open Cert.KernelIdeal Cert.KernelIdeal.Gen

variable (m : (ℓ : Loc nD τ sig) → Buf (Elt Ideal) ℓ)

/-- The scatter-add region reads the padded target words the host stretches wrote: the gather region did not touch them. -/
theorem rowp_kept (c : Dev nD) : Whole.Vin1 m c main_v5 = V6 m c main_v5 :=
  Function.update_of_ne (StableHlo.devRef_ne_of_ne (by decide)) _ _
/-- And the messages where the gather region left them. -/
theorem msgs_read (c : Dev nD) : Whole.Vin1 m c main_v8 = Whole.msgs m c :=
  Function.update_self _ _ _
/-- The aggregate is what the closing slice reads. -/
theorem outp_read (c : Dev nD) : V8 m (Whole.outs m) c main_v9 = Whole.outp m c := by
  rw [Whole.V8_eq]; exact Function.update_self _ _ _

/-- THE KERNEL'S RESULT, for every launch memory: the specification of the launch's two argument arrays. -/
theorem kernel_value (c : Dev nD) :
    V9 m (Whole.outs m) c main_v10 = Cert.GatherScatter.result (Glue.xOf m c) (Glue.eiOf m c) := by
  funext j
  obtain ⟨n, q, rfl⟩ : ∃ (n : Fin 100000) (q : Fin 64), j = ix2 n q := ⟨j 0, j 1, eq_ix2 j⟩
  refine (Glue.out_apply m (Whole.outs m) c n q).trans ?_
  rw [outp_read]
  exact Cert.GatherScatter.padded_eq_result (Glue.xOf m c) (Glue.eiOf m c)
    (V6 m c main_v5) (V6 m c main_v4) (V6 m c main_v7) (Whole.msgs m c) (Whole.outp m c)
    (Glue.rowp_apply m c) (Glue.colp_apply m c) (Glue.xp_apply m c)
    (fun e q => GatherValue.messages (Whole.Vin0 m) c e q)
    (fun n q => by
      have h := ScatterValue.aggregate (Whole.Vin1 m) c n q
      rw [rowp_kept, msgs_read] at h
      exact h) n q

end KernelValue

/-! ## The claims -/

theorem frame_k : Cert.frame_Kernel := fun m ρ _ =>
  (θ_run Cert.Kernel.defs _ _).mono (fun _ h c => ⟨(h c).2.1, (h c).2.2⟩) (Cert.Kernel.Whole.run_main (F := Bits) m ρ)

theorem frame_ki : Cert.frame_KernelIdeal := fun m ρ _ =>
  (θ_run Cert.KernelIdeal.defs _ _).mono (fun _ h c => ⟨(h c).2.1, (h c).2.2⟩) (Cert.KernelIdeal.Whole.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification of the shared arguments: the kernel for every input, the reference where
    every source word names a node, which the precondition says. -/
theorem algebraic : Cert.algebraic_KernelIdeal_ReferenceIdeal := by
  intro m ρ m' ρ' hpre hagree
  refine ⟨fun c => Cert.GatherScatter.result (Cert.KernelIdeal.Glue.xOf m c) (Cert.KernelIdeal.Glue.eiOf m c), ?_, ?_⟩
  · exact (θ_run Cert.KernelIdeal.defs _ _).mono
      (fun _ h c => ⟨(h c).1.trans (kernel_value m c), (h c).2.1, (h c).2.2⟩)
      (Cert.KernelIdeal.Whole.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.RefValue.ref_result _ _
      (Cert.Pre_finite_inputs.Decode.col_in_range _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
